-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S32x512x512x3 : Shape := ⟨4, ![32, 512, 512, 3]⟩
abbrev S256x256x256 : Shape := ⟨3, ![256, 256, 256]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S256x256x256 : S_.BroadcastsInDim S256x256x256 (![] : Fin 0 → Fin S256x256x256.rank)
  reducesTo_S256x256x256_S_d0_1_2 : S256x256x256.ReducesTo [0, 1, 2] S_

variable [Facts]

def fn {F : FTy → Type} [FloatOps F] (main_arg0 : FVec F S32x512x512 .f32) (main_arg1 : IVec S32x512x512x3 32) (main_arg2 : FVec F S256x256x256 .f32) (main_arg3 : FVec F S256x256x256 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S256x256x256 .f32 := Host.absf main_arg2
  let main_cst_0 : FVec F S_ .f32 := constant S_ .f32 0x7F800000#32
  let main_v5 : FVec F S256x256x256 .f32 := broadcastInDim S256x256x256 ![] bcast_S_S256x256x256 main_cst_0
  let main_v6 : IVec S256x256x256 1 := cmpf .olt main_v4 main_v5
  let main_c_1 : IVec S_ 1 := constantI S_ 1 1#1
  let main_v7 : IVec S_ 1 := (fun x v => Host.reduce IntOp.andi x v reducesTo_S256x256x256_S_d0_1_2 h_S_) main_v6 main_c_1
  let main_v8 : IVec S_ 1 := andi main_v3 main_v7
  let main_v9 : FVec F S256x256x256 .f32 := Host.absf main_arg3
  let main_cst_2 : FVec F S_ .f32 := constant S_ .f32 0x7F800000#32
  let main_v10 : FVec F S256x256x256 .f32 := broadcastInDim S256x256x256 ![] bcast_S_S256x256x256 main_cst_2
  let main_v11 : IVec S256x256x256 1 := cmpf .olt main_v9 main_v10
  let main_c_3 : IVec S_ 1 := constantI S_ 1 1#1
  let main_v12 : IVec S_ 1 := (fun x v => Host.reduce IntOp.andi x v reducesTo_S256x256x256_S_d0_1_2 h_S_) main_v11 main_c_3
  let main_v13 : IVec S_ 1 := andi main_v8 main_v12
  main_v13
-- ==== Kernel.lean ====
abbrev S32x512x512 : Shape := ⟨3, ![32, 512, 512]⟩
abbrev S32x512x512x3 : Shape := ⟨4, ![32, 512, 512, 3]⟩
abbrev S256x256x256 : Shape := ⟨3, ![256, 256, 256]⟩
abbrev S8388608 : Shape := ⟨1, ![8388608]⟩
abbrev S32x512x512x1 : Shape := ⟨4, ![32, 512, 512, 1]⟩
abbrev S_ : Shape := ⟨0, ![]⟩
abbrev S16777216 : Shape := ⟨1, ![16777216]⟩
abbrev S8388608x1 : Shape := ⟨2, ![8388608, 1]⟩
abbrev S8x256x256 : Shape := ⟨3, ![8, 256, 256]⟩

abbrev nBuf : Space → Nat
  | .hbm => 79
  | .vmem => 12
  | .smem => 0
  | _ => 0

abbrev bufTy : (tb : Table) → Fin (tcTables nBuf tb) → BufTy
  | .hbm, ⟨0, _⟩ => ⟨S32x512x512, .f32⟩
  | .hbm, ⟨1, _⟩ => ⟨S32x512x512x3, .i32⟩
  | .hbm, ⟨2, _⟩ => ⟨S256x256x256, .f32⟩
  | .hbm, ⟨3, _⟩ => ⟨S256x256x256, .f32⟩
  | .hbm, ⟨4, _⟩ => ⟨S8388608, .f32⟩
  | .hbm, ⟨5, _⟩ => ⟨S32x512x512x1, .i32⟩
  | .hbm, ⟨6, _⟩ => ⟨S32x512x512, .i32⟩
  | .hbm, ⟨7, _⟩ => ⟨S8388608, .i32⟩
  | .hbm, ⟨8, _⟩ => ⟨S32x512x512x1, .i32⟩
  | .hbm, ⟨9, _⟩ => ⟨S32x512x512, .i32⟩
  | .hbm, ⟨10, _⟩ => ⟨S8388608, .i32⟩
  | .hbm, ⟨11, _⟩ => ⟨S32x512x512x1, .i32⟩
  | .hbm, ⟨12, _⟩ => ⟨S32x512x512, .i32⟩
  | .hbm, ⟨13, _⟩ => ⟨S8388608, .i32⟩
  | .hbm, ⟨14, _⟩ => ⟨S_, .i32⟩
  | .hbm, ⟨15, _⟩ => ⟨S8388608, .i32⟩
  | .hbm, ⟨16, _⟩ => ⟨S8388608, .i1⟩
  | .hbm, ⟨17, _⟩ => ⟨S_, .i32⟩
  | .hbm, ⟨18, _⟩ => ⟨S8388608, .i32⟩
  | .hbm, ⟨19, _⟩ => ⟨S8388608, .i1⟩
  | .hbm, ⟨20, _⟩ => ⟨S8388608, .i1⟩
  | .hbm, ⟨21, _⟩ => ⟨S_, .i32⟩
  | .hbm, ⟨22, _⟩ => ⟨S8388608, .i32⟩
  | .hbm, ⟨23, _⟩ => ⟨S8388608, .i1⟩
  | .hbm, ⟨24, _⟩ => ⟨S8388608, .i1⟩
  | .hbm, ⟨25, _⟩ => ⟨S_, .i32⟩
  | .hbm, ⟨26, _⟩ => ⟨S8388608, .i32⟩
  | .hbm, ⟨27, _⟩ => ⟨S8388608, .i1⟩
  | .hbm, ⟨28, _⟩ => ⟨S8388608, .i1⟩
  | .hbm, ⟨29, _⟩ => ⟨S_, .i32⟩
  | .hbm, ⟨30, _⟩ => ⟨S8388608, .i32⟩
  | .hbm, ⟨31, _⟩ => ⟨S8388608, .i1⟩
  | .hbm, ⟨32, _⟩ => ⟨S8388608, .i1⟩
  | .hbm, ⟨33, _⟩ => ⟨S_, .i32⟩
  | .hbm, ⟨34, _⟩ => ⟨S8388608, .i32⟩
  | .hbm, ⟨35, _⟩ => ⟨S8388608, .i1⟩
  | .hbm, ⟨36, _⟩ => ⟨S8388608, .i1⟩
  | .hbm, ⟨37, _⟩ => ⟨S_, .i32⟩
  | .hbm, ⟨38, _⟩ => ⟨S8388608, .i32⟩
  | .hbm, ⟨39, _⟩ => ⟨S8388608, .i32⟩
  | .hbm, ⟨40, _⟩ => ⟨S8388608, .i32⟩
  | .hbm, ⟨41, _⟩ => ⟨S_, .i32⟩
  | .hbm, ⟨42, _⟩ => ⟨S8388608, .i32⟩
  | .hbm, ⟨43, _⟩ => ⟨S8388608, .i32⟩
  | .hbm, ⟨44, _⟩ => ⟨S8388608, .i32⟩
  | .hbm, ⟨45, _⟩ => ⟨S_, .i32⟩
  | .hbm, ⟨46, _⟩ => ⟨S_, .i32⟩
  | .hbm, ⟨47, _⟩ => ⟨S8388608, .i32⟩
  | .hbm, ⟨48, _⟩ => ⟨S8388608, .i32⟩
  | .hbm, ⟨49, _⟩ => ⟨S_, .f32⟩
  | .hbm, ⟨50, _⟩ => ⟨S8388608, .f32⟩
  | .hbm, ⟨51, _⟩ => ⟨S8388608, .f32⟩
  | .hbm, ⟨52, _⟩ => ⟨S8388608, .f32⟩
  | .hbm, ⟨53, _⟩ => ⟨S_, .f32⟩
  | .hbm, ⟨54, _⟩ => ⟨S16777216, .f32⟩
  | .hbm, ⟨55, _⟩ => ⟨S_, .i32⟩
  | .hbm, ⟨56, _⟩ => ⟨S8388608, .i32⟩
  | .hbm, ⟨57, _⟩ => ⟨S8388608, .i1⟩
  | .hbm, ⟨58, _⟩ => ⟨S_, .i32⟩
  | .hbm, ⟨59, _⟩ => ⟨S8388608, .i32⟩
  | .hbm, ⟨60, _⟩ => ⟨S8388608, .i32⟩
  | .hbm, ⟨61, _⟩ => ⟨S8388608, .i32⟩
  | .hbm, ⟨62, _⟩ => ⟨S8388608x1, .i32⟩
  | .hbm, ⟨63, _⟩ => ⟨S16777216, .f32⟩
  | .hbm, ⟨64, _⟩ => ⟨S256x256x256, .f32⟩
  | .hbm, ⟨65, _⟩ => ⟨S_, .f32⟩
  | .hbm, ⟨66, _⟩ => ⟨S16777216, .f32⟩
  | .hbm, ⟨67, _⟩ => ⟨S_, .i32⟩
  | .hbm, ⟨68, _⟩ => ⟨S8388608, .i32⟩
  | .hbm, ⟨69, _⟩ => ⟨S8388608, .i1⟩
  | .hbm, ⟨70, _⟩ => ⟨S_, .i32⟩
  | .hbm, ⟨71, _⟩ => ⟨S8388608, .i32⟩
  | .hbm, ⟨72, _⟩ => ⟨S8388608, .i32⟩
  | .hbm, ⟨73, _⟩ => ⟨S8388608, .i32⟩
  | .hbm, ⟨74, _⟩ => ⟨S8388608x1, .i32⟩
  | .hbm, ⟨75, _⟩ => ⟨S16777216, .f32⟩
  | .hbm, ⟨76, _⟩ => ⟨S256x256x256, .f32⟩
  | .hbm, ⟨77, _⟩ => ⟨S256x256x256, .f32⟩
  | .hbm, ⟨78, _⟩ => ⟨S256x256x256, .f32⟩
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | .local _ .vmem, ⟨4, _⟩ => ⟨S8x256x256, .f32⟩
  | .local _ .vmem, ⟨5, _⟩ => ⟨S8x256x256, .f32⟩
  | .local _ .vmem, ⟨6, _⟩ => ⟨S8x256x256, .f32⟩
  | .local _ .vmem, ⟨7, _⟩ => ⟨S8x256x256, .f32⟩
  | .local _ .vmem, ⟨8, _⟩ => ⟨S8x256x256, .f32⟩
  | .local _ .vmem, ⟨9, _⟩ => ⟨S8x256x256, .f32⟩
  | .local _ .vmem, ⟨10, _⟩ => ⟨S8x256x256, .f32⟩
  | .local _ .vmem, ⟨11, _⟩ => ⟨S8x256x256, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_c : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_c_1 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_c_2 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_call0_c_3 : Ref sig .tc := ⟨.hbm, 29, rfl⟩
abbrev main_call0_v21 : Ref sig .tc := ⟨.hbm, 30, rfl⟩
abbrev main_call0_v22 : Ref sig .tc := ⟨.hbm, 31, rfl⟩
abbrev main_call0_v23 : Ref sig .tc := ⟨.hbm, 32, rfl⟩
abbrev main_call0_c_4 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_call0_c_5 : Ref sig .tc := ⟨.hbm, 37, rfl⟩
abbrev main_call0_v27 : Ref sig .tc := ⟨.hbm, 38, rfl⟩
abbrev main_call0_v28 : Ref sig .tc := ⟨.hbm, 39, rfl⟩
abbrev main_call0_v29 : Ref sig .tc := ⟨.hbm, 40, rfl⟩
abbrev main_call0_c_6 : Ref sig .tc := ⟨.hbm, 41, rfl⟩
abbrev main_call0_v30 : Ref sig .tc := ⟨.hbm, 42, rfl⟩
abbrev main_call0_v31 : Ref sig .tc := ⟨.hbm, 43, rfl⟩
abbrev main_call0_v32 : Ref sig .tc := ⟨.hbm, 44, rfl⟩
abbrev main_call0_c_7 : Ref sig .tc := ⟨.hbm, 45, rfl⟩
abbrev main_call0_call0_v0 : Ref sig .tc := ⟨.hbm, 46, rfl⟩
abbrev main_call0_call0_v1 : Ref sig .tc := ⟨.hbm, 47, rfl⟩
abbrev main_call0_v33 : Ref sig .tc := ⟨.hbm, 48, rfl⟩
abbrev main_call0_cst : Ref sig .tc := ⟨.hbm, 49, rfl⟩
abbrev main_call0_call1_v0 : Ref sig .tc := ⟨.hbm, 50, rfl⟩
abbrev main_call0_v34 : Ref sig .tc := ⟨.hbm, 51, rfl⟩
abbrev main_call0_v35 : Ref sig .tc := ⟨.hbm, 52, rfl⟩
abbrev main_call0_cst_8 : Ref sig .tc := ⟨.hbm, 53, rfl⟩
abbrev main_call0_v36 : Ref sig .tc := ⟨.hbm, 54, rfl⟩
abbrev main_call0_c_9 : Ref sig .tc := ⟨.hbm, 55, rfl⟩
abbrev main_call0_v37 : Ref sig .tc := ⟨.hbm, 56, rfl⟩
abbrev main_call0_v38 : Ref sig .tc := ⟨.hbm, 57, rfl⟩
abbrev main_call0_c_10 : Ref sig .tc := ⟨.hbm, 58, rfl⟩
abbrev main_call0_v39 : Ref sig .tc := ⟨.hbm, 59, rfl⟩
abbrev main_call0_v40 : Ref sig .tc := ⟨.hbm, 60, rfl⟩
abbrev main_call0_v41 : Ref sig .tc := ⟨.hbm, 61, rfl⟩
abbrev main_call0_v42 : Ref sig .tc := ⟨.hbm, 62, rfl⟩
abbrev main_call0_v43 : Ref sig .tc := ⟨.hbm, 63, rfl⟩
abbrev main_call0_v44 : Ref sig .tc := ⟨.hbm, 64, rfl⟩
abbrev main_call0_cst_11 : Ref sig .tc := ⟨.hbm, 65, rfl⟩
abbrev main_call0_v45 : Ref sig .tc := ⟨.hbm, 66, rfl⟩
abbrev main_call0_c_12 : Ref sig .tc := ⟨.hbm, 67, rfl⟩
abbrev main_call0_v46 : Ref sig .tc := ⟨.hbm, 68, rfl⟩
abbrev main_call0_v47 : Ref sig .tc := ⟨.hbm, 69, rfl⟩
abbrev main_call0_c_13 : Ref sig .tc := ⟨.hbm, 70, rfl⟩
abbrev main_call0_v48 : Ref sig .tc := ⟨.hbm, 71, rfl⟩
abbrev main_call0_v49 : Ref sig .tc := ⟨.hbm, 72, rfl⟩
abbrev main_call0_v50 : Ref sig .tc := ⟨.hbm, 73, rfl⟩
abbrev main_call0_v51 : Ref sig .tc := ⟨.hbm, 74, rfl⟩
abbrev main_call0_v52 : Ref sig .tc := ⟨.hbm, 75, rfl⟩
abbrev main_call0_v53 : Ref sig .tc := ⟨.hbm, 76, rfl⟩
abbrev main_v0_0 : Ref sig .tc := ⟨.hbm, 77, rfl⟩
abbrev main_v0_1 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x512x512_S8388608 : S32x512x512.ShapeCasts S8388608
  slices_S32x512x512x3_S32x512x512x1_0_0_0_0 : S32x512x512x3.Slices ![0, 0, 0, 0] S32x512x512x1
  shapeCasts_S32x512x512x1_S32x512x512 : S32x512x512x1.ShapeCasts S32x512x512
  slices_S32x512x512x3_S32x512x512x1_0_0_0_1 : S32x512x512x3.Slices ![0, 0, 0, 1] S32x512x512x1
  slices_S32x512x512x3_S32x512x512x1_0_0_0_2 : S32x512x512x3.Slices ![0, 0, 0, 2] S32x512x512x1
  bcast_S_S8388608 : S_.BroadcastsInDim S8388608 (![] : Fin 0 → Fin S8388608.rank)
  bcast_S_S16777216 : S_.BroadcastsInDim S16777216 (![] : Fin 0 → Fin S16777216.rank)
  bcast_S8388608_S8388608x1_0 : S8388608.BroadcastsInDim S8388608x1 (![0] : Fin 1 → Fin S8388608x1.rank)
  shapeCasts_S16777216_S256x256x256 : S16777216.ShapeCasts S256x256x256
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  natLt_1_32 : 1 < 32
  scatter_S16777216_S8388608x1_S8388608_n_0_0_1_wf : ScatterDims.WF S16777216 S8388608x1 S8388608 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S256x256x256.size a
  hwx0_0 : ∀ i : grid0.Coords, EltTy.bits .f32 = 32 ∨ (Rect.block (s := S256x256x256) S8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S256x256x256.size a
  hwx0_1 : ∀ i : grid0.Coords, EltTy.bits .f32 = 32 ∨ (Rect.block (s := S256x256x256) S8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x256.size a ≤ S256x256x256.size a
  hwx0_2 : ∀ i : grid0.Coords, EltTy.bits .f32 = 32 ∨ (Rect.block (s := S256x256x256) S8x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S256x256x256.size a
  hwx0_3 : ∀ i : grid0.Coords, EltTy.bits .f32 = 32 ∨ (Rect.block (s := S256x256x256) S8x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256x256.size a ≤ S256x256x256.size a
  hwx0_4 : ∀ i : grid0.Coords, EltTy.bits .f32 = 32 ∨ (Rect.block (s := S256x256x256) S8x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256x256.size a ≤ S256x256x256.size a
  hwx0_5 : ∀ i : grid0.Coords, EltTy.bits .f32 = 32 ∨ (Rect.block (s := S256x256x256) S8x256x256.size (cc0_transform_5 i) (hinb0_5 i)).WholeWords (EltTy.packing .f32)

variable [Facts₀]

def scatter_S16777216_S8388608x1_S8388608_n_0_0_1 : ScatterDims S16777216 S8388608x1 S8388608 where
  updateWindowDims := []
  insertedWindowDims := [0]
  scatterDimsToOperandDims := [0]
  indexVectorDim := 1
  wf := scatter_S16777216_S8388608x1_S8388608_n_0_0_1_wf

abbrev win0_0 : Pipeline.Window sig grid0 :=
  Pipeline.Window.ofSpec (Memref.whole main_call0_v44) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v53) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S8x256x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S8x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where
  halias0_4 : Pipeline.Aliased win0 2 4
  halias0_5 : Pipeline.Aliased win0 3 5

variable [Facts]
-- ==== ReferenceIdeal.lean ====
abbrev S32x512x512 : Shape := ⟨3, ![32, 512, 512]⟩
abbrev S32x512x512x3 : Shape := ⟨4, ![32, 512, 512, 3]⟩
abbrev S256x256x256 : Shape := ⟨3, ![256, 256, 256]⟩
abbrev S3 : Shape := ⟨1, ![3]⟩
abbrev S8388608 : Shape := ⟨1, ![8388608]⟩
abbrev S8388608x3 : Shape := ⟨2, ![8388608, 3]⟩
abbrev S_ : Shape := ⟨0, ![]⟩
abbrev S1x3 : Shape := ⟨2, ![1, 3]⟩
abbrev S8388608x1 : Shape := ⟨2, ![8388608, 1]⟩
abbrev S16777217 : Shape := ⟨1, ![16777217]⟩
abbrev S16777216 : Shape := ⟨1, ![16777216]⟩
abbrev S1 : Shape := ⟨1, ![1]⟩

abbrev nBuf : Space → Nat
  | .hbm => 139
  | .vmem => 0
  | .smem => 0
  | _ => 0

abbrev hbmTy0_0 (i : Nat) : BufTy := match i % 128 with
  | 0 => ⟨S32x512x512, .f32⟩
  | 1 => ⟨S32x512x512x3, .i32⟩
  | 2 => ⟨S256x256x256, .f32⟩
  | 3 => ⟨S256x256x256, .f32⟩
  | 4 => ⟨S3, .i32⟩
  | 5 => ⟨S8388608, .f32⟩
  | 6 => ⟨S8388608x3, .i32⟩
  | 7 => ⟨S_, .i32⟩
  | 8 => ⟨S8388608x3, .i32⟩
  | 9 => ⟨S8388608x3, .i1⟩
  | 10 => ⟨S1x3, .i32⟩
  | 11 => ⟨S8388608x3, .i32⟩
  | 12 => ⟨S8388608x3, .i1⟩
  | 13 => ⟨S8388608x3, .i1⟩
  | 14 => ⟨S_, .i1⟩
  | 15 => ⟨S8388608, .i1⟩
  | 16 => ⟨S8388608x1, .i32⟩
  | 17 => ⟨S8388608, .i32⟩
  | 18 => ⟨S_, .i32⟩
  | 19 => ⟨S8388608, .i32⟩
  | 20 => ⟨S8388608, .i32⟩
  | 21 => ⟨S8388608x1, .i32⟩
  | 22 => ⟨S8388608, .i32⟩
  | 23 => ⟨S8388608, .i32⟩
  | 24 => ⟨S_, .i32⟩
  | 25 => ⟨S8388608, .i32⟩
  | 26 => ⟨S8388608, .i32⟩
  | 27 => ⟨S8388608x1, .i32⟩
  | 28 => ⟨S8388608, .i32⟩
  | 29 => ⟨S8388608, .i32⟩
  | 30 => ⟨S_, .i32⟩
  | 31 => ⟨S_, .i32⟩
  | 32 => ⟨S8388608, .i32⟩
  | 33 => ⟨S8388608, .i32⟩
  | 34 => ⟨S8388608, .f32⟩
  | 35 => ⟨S_, .f32⟩
  | 36 => ⟨S8388608, .f32⟩
  | 37 => ⟨S8388608, .f32⟩
  | 38 => ⟨S_, .f32⟩
  | 39 => ⟨S16777217, .f32⟩
  | 40 => ⟨S_, .i32⟩
  | 41 => ⟨S8388608, .i32⟩
  | 42 => ⟨S8388608, .i1⟩
  | 43 => ⟨S_, .i32⟩
  | 44 => ⟨S8388608, .i32⟩
  | 45 => ⟨S8388608, .i32⟩
  | 46 => ⟨S8388608, .i32⟩
  | 47 => ⟨S8388608x1, .i32⟩
  | 48 => ⟨S16777217, .f32⟩
  | 49 => ⟨S_, .f32⟩
  | 50 => ⟨S16777217, .f32⟩
  | 51 => ⟨S_, .i32⟩
  | 52 => ⟨S8388608, .i32⟩
  | 53 => ⟨S8388608, .i1⟩
  | 54 => ⟨S_, .i32⟩
  | 55 => ⟨S8388608, .i32⟩
  | 56 => ⟨S8388608, .i32⟩
  | 57 => ⟨S8388608, .i32⟩
  | 58 => ⟨S8388608x1, .i32⟩
  | 59 => ⟨S16777217, .f32⟩
  | 60 => ⟨S_, .i32⟩
  | 61 => ⟨S8388608, .i32⟩
  | 62 => ⟨S8388608, .i1⟩
  | 63 => ⟨S_, .i32⟩
  | 64 => ⟨S8388608, .i32⟩
  | 65 => ⟨S8388608, .i32⟩
  | 66 => ⟨S8388608, .i32⟩
  | 67 => ⟨S8388608x1, .i32⟩
  | 68 => ⟨S8388608, .f32⟩
  | 69 => ⟨S_, .i32⟩
  | 70 => ⟨S8388608, .i32⟩
  | 71 => ⟨S8388608, .i1⟩
  | 72 => ⟨S_, .i32⟩
  | 73 => ⟨S8388608, .i32⟩
  | 74 => ⟨S8388608, .i32⟩
  | 75 => ⟨S8388608, .i32⟩
  | 76 => ⟨S8388608x1, .i32⟩
  | 77 => ⟨S8388608, .f32⟩
  | 78 => ⟨S_, .f32⟩
  | 79 => ⟨S8388608, .f32⟩
  | 80 => ⟨S8388608, .f32⟩
  | 81 => ⟨S8388608, .f32⟩
  | 82 => ⟨S_, .i32⟩
  | 83 => ⟨S8388608, .i32⟩
  | 84 => ⟨S8388608, .i32⟩
  | 85 => ⟨S16777216, .f32⟩
  | 86 => ⟨S16777216, .f32⟩
  | 87 => ⟨S_, .i32⟩
  | 88 => ⟨S8388608, .i32⟩
  | 89 => ⟨S8388608, .i1⟩
  | 90 => ⟨S_, .i32⟩
  | 91 => ⟨S8388608, .i32⟩
  | 92 => ⟨S8388608, .i32⟩
  | 93 => ⟨S8388608, .i32⟩
  | 94 => ⟨S8388608x1, .i32⟩
  | 95 => ⟨S8388608, .f32⟩
  | 96 => ⟨S_, .i32⟩
  | 97 => ⟨S8388608, .i32⟩
  | 98 => ⟨S8388608, .i1⟩
  | 99 => ⟨S_, .i32⟩
  | 100 => ⟨S8388608, .i32⟩
  | 101 => ⟨S8388608, .i32⟩
  | 102 => ⟨S8388608, .i32⟩
  | 103 => ⟨S8388608x1, .i32⟩
  | 104 => ⟨S8388608, .f32⟩
  | 105 => ⟨S_, .f32⟩
  | 106 => ⟨S8388608, .f32⟩
  | 107 => ⟨S8388608, .f32⟩
  | 108 => ⟨S8388608, .f32⟩
  | 109 => ⟨S8388608, .f32⟩
  | 110 => ⟨S8388608, .f32⟩
  | 111 => ⟨S_, .f32⟩
  | 112 => ⟨S1, .f32⟩
  | 113 => ⟨S16777217, .f32⟩
  | 114 => ⟨S_, .i32⟩
  | 115 => ⟨S8388608, .i32⟩
  | 116 => ⟨S8388608, .i1⟩
  | 117 => ⟨S_, .i32⟩
  | 118 => ⟨S8388608, .i32⟩
  | 119 => ⟨S8388608, .i32⟩
  | 120 => ⟨S8388608, .i32⟩
  | 121 => ⟨S8388608x1, .i32⟩
  | 122 => ⟨S16777217, .f32⟩
  | 123 => ⟨S_, .f32⟩
  | 124 => ⟨S1, .f32⟩
  | 125 => ⟨S16777217, .f32⟩
  | 126 => ⟨S_, .i32⟩
  | 127 => ⟨S8388608, .i32⟩
  | _ => ⟨S32x512x512, .f32⟩

abbrev hbmTy0_1 (i : Nat) : BufTy := match i % 128 with
  | 0 => ⟨S8388608, .i1⟩
  | 1 => ⟨S_, .i32⟩
  | 2 => ⟨S8388608, .i32⟩
  | 3 => ⟨S8388608, .i32⟩
  | 4 => ⟨S8388608, .i32⟩
  | 5 => ⟨S8388608x1, .i32⟩
  | 6 => ⟨S16777217, .f32⟩
  | 7 => ⟨S16777216, .f32⟩
  | 8 => ⟨S256x256x256, .f32⟩
  | 9 => ⟨S16777216, .f32⟩
  | 10 => ⟨S256x256x256, .f32⟩
  | _ => ⟨S32x512x512, .f32⟩

abbrev hbmTy (i : Nat) : BufTy := match i / 128 with
  | 0 => hbmTy0_0 i
  | 1 => hbmTy0_1 i
  | _ => ⟨S32x512x512, .f32⟩

abbrev bufTy : (tb : Table) → Fin (tcTables nBuf tb) → BufTy
  | .hbm, ⟨i, _⟩ => hbmTy i
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_call1_v0 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_c_9 : Ref sig .tc := ⟨.hbm, 51, rfl⟩
abbrev main_v33 : Ref sig .tc := ⟨.hbm, 52, rfl⟩
abbrev main_v34 : Ref sig .tc := ⟨.hbm, 53, rfl⟩
abbrev main_c_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_11 : Ref sig .tc := ⟨.hbm, 60, rfl⟩
abbrev main_v40 : Ref sig .tc := ⟨.hbm, 61, rfl⟩
abbrev main_v41 : Ref sig .tc := ⟨.hbm, 62, rfl⟩
abbrev main_c_12 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_13 : Ref sig .tc := ⟨.hbm, 69, rfl⟩
abbrev main_v47 : Ref sig .tc := ⟨.hbm, 70, rfl⟩
abbrev main_v48 : Ref sig .tc := ⟨.hbm, 71, rfl⟩
abbrev main_c_14 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_15 : Ref sig .tc := ⟨.hbm, 78, rfl⟩
abbrev main_call2_v0 : Ref sig .tc := ⟨.hbm, 79, rfl⟩
abbrev main_v54 : Ref sig .tc := ⟨.hbm, 80, rfl⟩
abbrev main_v55 : Ref sig .tc := ⟨.hbm, 81, rfl⟩
abbrev main_c_16 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_17 : Ref sig .tc := ⟨.hbm, 87, rfl⟩
abbrev main_v60 : Ref sig .tc := ⟨.hbm, 88, rfl⟩
abbrev main_v61 : Ref sig .tc := ⟨.hbm, 89, rfl⟩
abbrev main_c_18 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_19 : Ref sig .tc := ⟨.hbm, 96, rfl⟩
abbrev main_v67 : Ref sig .tc := ⟨.hbm, 97, rfl⟩
abbrev main_v68 : Ref sig .tc := ⟨.hbm, 98, rfl⟩
abbrev main_c_20 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_21 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_22 : Ref sig .tc := ⟨.hbm, 111, rfl⟩
abbrev main_v79 : Ref sig .tc := ⟨.hbm, 112, rfl⟩
abbrev main_v80 : Ref sig .tc := ⟨.hbm, 113, rfl⟩
abbrev main_c_23 : Ref sig .tc := ⟨.hbm, 114, rfl⟩
abbrev main_v81 : Ref sig .tc := ⟨.hbm, 115, rfl⟩
abbrev main_v82 : Ref sig .tc := ⟨.hbm, 116, rfl⟩
abbrev main_c_24 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_25 : Ref sig .tc := ⟨.hbm, 123, rfl⟩
abbrev main_v88 : Ref sig .tc := ⟨.hbm, 124, rfl⟩
abbrev main_v89 : Ref sig .tc := ⟨.hbm, 125, rfl⟩
abbrev main_c_26 : Ref sig .tc := ⟨.hbm, 126, rfl⟩
abbrev main_v90 : Ref sig .tc := ⟨.hbm, 127, rfl⟩
abbrev main_v91 : Ref sig .tc := ⟨.hbm, 128, rfl⟩
abbrev main_c_27 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  shapeCasts_S32x512x512_S8388608 : S32x512x512.ShapeCasts S8388608
  shapeCasts_S32x512x512x3_S8388608x3 : S32x512x512x3.ShapeCasts S8388608x3
  bcast_S_S8388608x3 : S_.BroadcastsInDim S8388608x3 (![] : Fin 0 → Fin S8388608x3.rank)
  bcast_S3_S1x3_1 : S3.BroadcastsInDim S1x3 (![1] : Fin 1 → Fin S1x3.rank)
  bcast_S1x3_S8388608x3_0_1 : S1x3.BroadcastsInDim S8388608x3 (![0, 1] : Fin 2 → Fin S8388608x3.rank)
  reducesTo_S8388608x3_S8388608_d1 : S8388608x3.ReducesTo [1] S8388608
  h_S_ : 0 < S_.numel
  slices_S8388608x3_S8388608x1_0_0 : S8388608x3.Slices ![0, 0] S8388608x1
  shapeCasts_S8388608x1_S8388608 : S8388608x1.ShapeCasts S8388608
  bcast_S_S8388608 : S_.BroadcastsInDim S8388608 (![] : Fin 0 → Fin S8388608.rank)
  slices_S8388608x3_S8388608x1_0_1 : S8388608x3.Slices ![0, 1] S8388608x1
  slices_S8388608x3_S8388608x1_0_2 : S8388608x3.Slices ![0, 2] S8388608x1
  bcast_S_S16777217 : S_.BroadcastsInDim S16777217 (![] : Fin 0 → Fin S16777217.rank)
  bcast_S8388608_S8388608x1_0 : S8388608.BroadcastsInDim S8388608x1 (![0] : Fin 1 → Fin S8388608x1.rank)
  shapeCasts_S256x256x256_S16777216 : S256x256x256.ShapeCasts S16777216
  bcast_S_S1 : S_.BroadcastsInDim S1 (![] : Fin 0 → Fin S1.rank)
  concatenates_S16777216_S1_S16777217_d0 : Shape.Concatenates [S16777216, S1] S16777217 0
  slices_S16777217_S16777216_0 : S16777217.Slices ![0] S16777216
  shapeCasts_S16777216_S256x256x256 : S16777216.ShapeCasts S256x256x256
  scatter_S16777217_S8388608x1_S8388608_n_0_0_1_wf : ScatterDims.WF S16777217 S8388608x1 S8388608 [] [0] [0] 1
  gather_S16777217_S8388608x1_S8388608_n_0_n_n_0_1_1_wf : GatherDims.WF S16777217 S8388608x1 S8388608 [] [0] [] [0] [] 1 ![1]
  gather_S16777216_S8388608x1_S8388608_n_0_n_n_0_1_1_wf : GatherDims.WF S16777216 S8388608x1 S8388608 [] [0] [] [0] [] 1 ![1]

variable [Facts₀]

def scatter_S16777217_S8388608x1_S8388608_n_0_0_1 : ScatterDims S16777217 S8388608x1 S8388608 where
  updateWindowDims := []
  insertedWindowDims := [0]
  scatterDimsToOperandDims := [0]
  indexVectorDim := 1
  wf := scatter_S16777217_S8388608x1_S8388608_n_0_0_1_wf
def gather_S16777217_S8388608x1_S8388608_n_0_n_n_0_1_1 : GatherDims S16777217 S8388608x1 S8388608 where
  offsetDims := []
  collapsedSliceDims := [0]
  operandBatchingDims := []
  startIndicesBatchingDims := []
  startIndexMap := [0]
  indexVectorDim := 1
  sliceSizes := ![1]
  wf := gather_S16777217_S8388608x1_S8388608_n_0_n_n_0_1_1_wf
def gather_S16777216_S8388608x1_S8388608_n_0_n_n_0_1_1 : GatherDims S16777216 S8388608x1 S8388608 where
  offsetDims := []
  collapsedSliceDims := [0]
  operandBatchingDims := []
  startIndicesBatchingDims := []
  startIndexMap := [0]
  indexVectorDim := 1
  sliceSizes := ![1]
  wf := gather_S16777216_S8388608x1_S8388608_n_0_n_n_0_1_1_wf

class Facts : Prop extends Facts₀ where

variable [Facts]
-- ==== Proof.RefRunStretch.lean ====
/-
  The reference's run, read back stretch by stretch. Its 135 host operations are cut into ten consecutive
  stretches; the contents after two stretches in a row are the second's over the first's; every buffer is written
  once, so what a stretch leaves in a buffer stays there. Each stretch's results are identified with the stage
  functions of the launch arrays (the feature array, the index array and the two volumes), given that the buffers the
  stretch reads hold the corresponding stages. At the end the two result buffers hold the last stages, and the
  argument buffers, which no operation writes, hold what they were launched with.
-/
import proofs.«410749_j41850161332390_3_alg».proof.Proof.GenRunOpsReferenceIdeal
import proofs.«410749_j41850161332390_3_alg».proof.Proof.GenReadReferenceIdeal
import Idealize.ShloMosaic.Lib.StableHlo.Run
import Idealize.ShloMosaic.Lib.Pipeline.Frame

set_option maxRecDepth 16384

noncomputable section

namespace Cert.ReferenceIdeal.RunS

open Cert.ReferenceIdeal Cert.ReferenceIdeal.Gen Cert.ReferenceIdeal.ValueQ Cert.ReferenceIdeal.ReadP
open Idealize.ShloMosaic Idealize.ShloMosaic.TcCoe Idealize.SL.Sem Idealize.ShloMosaic.StableHlo

variable {F : FTy → Type} [FloatOps F]

/-- Stretch 1: the two flattenings and the validity bit. -/
abbrev opsR1 : List (HloOp τ sig (Elt F)) :=
  [ nullary main_c (constantI S3 32 256#32),
    reshape main_arg0 main_v0 rfl shapeCasts_S32x512x512_S8388608,
    reshape main_arg1 main_v1 rfl shapeCasts_S32x512x512x3_S8388608x3,
    nullary main_c_0 (constantI S_ 32 0#32),
    unary main_c_0 main_v2 (broadcastInDim S8388608x3 ![] bcast_S_S8388608x3 : (⟨S_, .i32⟩ : BufTy).Contents (Elt F) → (⟨S8388608x3, .i32⟩ : BufTy).Contents (Elt F)),
    binary main_v1 main_v2 main_v3 (cmpi .sge : (⟨S8388608x3, .i32⟩ : BufTy).Contents (Elt F) → (⟨S8388608x3, .i32⟩ : BufTy).Contents (Elt F) → (⟨S8388608x3, .i1⟩ : BufTy).Contents (Elt F)),
    unary main_c main_v4 (broadcastInDim S1x3 ![1] bcast_S3_S1x3_1 : (⟨S3, .i32⟩ : BufTy).Contents (Elt F) → (⟨S1x3, .i32⟩ : BufTy).Contents (Elt F)),
    unary main_v4 main_v5 (broadcastInDim S8388608x3 ![0, 1] bcast_S1x3_S8388608x3_0_1 : (⟨S1x3, .i32⟩ : BufTy).Contents (Elt F) → (⟨S8388608x3, .i32⟩ : BufTy).Contents (Elt F)),
    binary main_v1 main_v5 main_v6 (cmpi .slt : (⟨S8388608x3, .i32⟩ : BufTy).Contents (Elt F) → (⟨S8388608x3, .i32⟩ : BufTy).Contents (Elt F) → (⟨S8388608x3, .i1⟩ : BufTy).Contents (Elt F)),
    binary main_v3 main_v6 main_v7 (andi : (⟨S8388608x3, .i1⟩ : BufTy).Contents (Elt F) → (⟨S8388608x3, .i1⟩ : BufTy).Contents (Elt F) → (⟨S8388608x3, .i1⟩ : BufTy).Contents (Elt F)),
    nullary main_c_1 (constantI S_ 1 1#1),
    binary main_v7 main_c_1 main_v8 ((fun x v => Host.reduce IntOp.andi x v reducesTo_S8388608x3_S8388608_d1 h_S_) : (⟨S8388608x3, .i1⟩ : BufTy).Contents (Elt F) → (⟨S_, .i1⟩ : BufTy).Contents (Elt F) → (⟨S8388608, .i1⟩ : BufTy).Contents (Elt F)) ]

/-- Stretch 2: the flat voxel word, its routing to the dummy slot, the weight and the masked feature. -/
abbrev opsR2 : List (HloOp τ sig (Elt F)) :=
  [ unary main_v1 main_v9 ((extractStridedSlice S8388608x1 ![0, 0] · slices_S8388608x3_S8388608x1_0_0) : (⟨S8388608x3, .i32⟩ : BufTy).Contents (Elt F) → (⟨S8388608x1, .i32⟩ : BufTy).Contents (Elt F)),
    reshape main_v9 main_v10 rfl shapeCasts_S8388608x1_S8388608,
    nullary main_c_2 (constantI S_ 32 256#32),
    unary main_c_2 main_v11 (broadcastInDim S8388608 ![] bcast_S_S8388608 : (⟨S_, .i32⟩ : BufTy).Contents (Elt F) → (⟨S8388608, .i32⟩ : BufTy).Contents (Elt F)),
    binary main_v10 main_v11 main_v12 (muli : (⟨S8388608, .i32⟩ : BufTy).Contents (Elt F) → (⟨S8388608, .i32⟩ : BufTy).Contents (Elt F) → (⟨S8388608, .i32⟩ : BufTy).Contents (Elt F)),
    unary main_v1 main_v13 ((extractStridedSlice S8388608x1 ![0, 1] · slices_S8388608x3_S8388608x1_0_1) : (⟨S8388608x3, .i32⟩ : BufTy).Contents (Elt F) → (⟨S8388608x1, .i32⟩ : BufTy).Contents (Elt F)),
    reshape main_v13 main_v14 rfl shapeCasts_S8388608x1_S8388608,
    binary main_v12 main_v14 main_v15 (addi : (⟨S8388608, .i32⟩ : BufTy).Contents (Elt F) → (⟨S8388608, .i32⟩ : BufTy).Contents (Elt F) → (⟨S8388608, .i32⟩ : BufTy).Contents (Elt F)),
    nullary main_c_3 (constantI S_ 32 256#32),
    unary main_c_3 main_v16 (broadcastInDim S8388608 ![] bcast_S_S8388608 : (⟨S_, .i32⟩ : BufTy).Contents (Elt F) → (⟨S8388608, .i32⟩ : BufTy).Contents (Elt F)),
    binary main_v15 main_v16 main_v17 (muli : (⟨S8388608, .i32⟩ : BufTy).Contents (Elt F) → (⟨S8388608, .i32⟩ : BufTy).Contents (Elt F) → (⟨S8388608, .i32⟩ : BufTy).Contents (Elt F)),
    unary main_v1 main_v18 ((extractStridedSlice S8388608x1 ![0, 2] · slices_S8388608x3_S8388608x1_0_2) : (⟨S8388608x3, .i32⟩ : BufTy).Contents (Elt F) → (⟨S8388608x1, .i32⟩ : BufTy).Contents (Elt F)),
    reshape main_v18 main_v19 rfl shapeCasts_S8388608x1_S8388608,
    binary main_v17 main_v19 main_v20 (addi : (⟨S8388608, .i32⟩ : BufTy).Contents (Elt F) → (⟨S8388608, .i32⟩ : BufTy).Contents (Elt F) → (⟨S8388608, .i32⟩ : BufTy).Contents (Elt F)),
    nullary main_c_4 (constantI S_ 32 16777216#32),
    TRef.unary (TRef.of (T := ⟨S_, .i32⟩) main_c_4) (TRef.of (T := ⟨S_, .i32⟩) main_call0_v0) id,
    TRef.unary (TRef.of (T := ⟨S_, .i32⟩) main_call0_v0) (TRef.of (T := ⟨S8388608, .i32⟩) main_call0_v1) (broadcastInDim S8388608 ![] bcast_S_S8388608),
    TRef.ternary (TRef.of (T := ⟨S8388608, .i1⟩) main_v8) (TRef.of (T := ⟨S8388608, .i32⟩) main_v20) (TRef.of (T := ⟨S8388608, .i32⟩) main_call0_v1) (TRef.of (T := ⟨S8388608, .i32⟩) main_v21) select,
    unary main_v8 main_v22 (uitofp .f32 : (⟨S8388608, .i1⟩ : BufTy).Contents (Elt F) → (⟨S8388608, .f32⟩ : BufTy).Contents (Elt F)),
    nullary main_cst (constant S_ .f32 0x00000000#32),
    TRef.unary (TRef.of (T := ⟨S_, .f32⟩) main_cst) (TRef.of (T := ⟨S8388608, .f32⟩) main_call1_v0) (broadcastInDim S8388608 ![] bcast_S_S8388608),
    TRef.ternary (TRef.of (T := ⟨S8388608, .i1⟩) main_v8) (TRef.of (T := ⟨S8388608, .f32⟩) main_v0) (TRef.of (T := ⟨S8388608, .f32⟩) main_call1_v0) (TRef.of (T := ⟨S8388608, .f32⟩) main_v23) select ]

/-- Stretch 3: the scatter-add of the features. -/
abbrev opsR3 : List (HloOp τ sig (Elt F)) :=
  [ nullary main_cst_5 (constant S_ .f32 0x00000000#32),
    unary main_cst_5 main_v24 (broadcastInDim S16777217 ![] bcast_S_S16777217 : (⟨S_, .f32⟩ : BufTy).Contents (Elt F) → (⟨S16777217, .f32⟩ : BufTy).Contents (Elt F)),
    nullary main_c_6 (constantI S_ 32 0#32),
    unary main_c_6 main_v25 (broadcastInDim S8388608 ![] bcast_S_S8388608 : (⟨S_, .i32⟩ : BufTy).Contents (Elt F) → (⟨S8388608, .i32⟩ : BufTy).Contents (Elt F)),
    binary main_v21 main_v25 main_v26 (cmpi .slt : (⟨S8388608, .i32⟩ : BufTy).Contents (Elt F) → (⟨S8388608, .i32⟩ : BufTy).Contents (Elt F) → (⟨S8388608, .i1⟩ : BufTy).Contents (Elt F)),
    nullary main_c_7 (constantI S_ 32 16777217#32),
    unary main_c_7 main_v27 (broadcastInDim S8388608 ![] bcast_S_S8388608 : (⟨S_, .i32⟩ : BufTy).Contents (Elt F) → (⟨S8388608, .i32⟩ : BufTy).Contents (Elt F)),
    binary main_v21 main_v27 main_v28 (addi : (⟨S8388608, .i32⟩ : BufTy).Contents (Elt F) → (⟨S8388608, .i32⟩ : BufTy).Contents (Elt F) → (⟨S8388608, .i32⟩ : BufTy).Contents (Elt F)),
    ternary main_v26 main_v28 main_v21 main_v29 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v29 main_v30 (broadcastInDim S8388608x1 ![0] bcast_S8388608_S8388608x1_0 : (⟨S8388608, .i32⟩ : BufTy).Contents (Elt F) → (⟨S8388608x1, .i32⟩ : BufTy).Contents (Elt F)),
    ternary main_v24 main_v30 main_v23 main_v31 ((fun x i u => Host.scatterAdd scatter_S16777217_S8388608x1_S8388608_n_0_0_1 x i u) : (⟨S16777217, .f32⟩ : BufTy).Contents (Elt F) → (⟨S8388608x1, .i32⟩ : BufTy).Contents (Elt F) → (⟨S8388608, .f32⟩ : BufTy).Contents (Elt F) → (⟨S16777217, .f32⟩ : BufTy).Contents (Elt F)) ]

/-- Stretch 4: the scatter-add of the weights. -/
abbrev opsR4 : List (HloOp τ sig (Elt F)) :=
  [ nullary main_cst_8 (constant S_ .f32 0x00000000#32),
    unary main_cst_8 main_v32 (broadcastInDim S16777217 ![] bcast_S_S16777217 : (⟨S_, .f32⟩ : BufTy).Contents (Elt F) → (⟨S16777217, .f32⟩ : BufTy).Contents (Elt F)),
    nullary main_c_9 (constantI S_ 32 0#32),
    unary main_c_9 main_v33 (broadcastInDim S8388608 ![] bcast_S_S8388608 : (⟨S_, .i32⟩ : BufTy).Contents (Elt F) → (⟨S8388608, .i32⟩ : BufTy).Contents (Elt F)),
    binary main_v21 main_v33 main_v34 (cmpi .slt : (⟨S8388608, .i32⟩ : BufTy).Contents (Elt F) → (⟨S8388608, .i32⟩ : BufTy).Contents (Elt F) → (⟨S8388608, .i1⟩ : BufTy).Contents (Elt F)),
    nullary main_c_10 (constantI S_ 32 16777217#32),
    unary main_c_10 main_v35 (broadcastInDim S8388608 ![] bcast_S_S8388608 : (⟨S_, .i32⟩ : BufTy).Contents (Elt F) → (⟨S8388608, .i32⟩ : BufTy).Contents (Elt F)),
    binary main_v21 main_v35 main_v36 (addi : (⟨S8388608, .i32⟩ : BufTy).Contents (Elt F) → (⟨S8388608, .i32⟩ : BufTy).Contents (Elt F) → (⟨S8388608, .i32⟩ : BufTy).Contents (Elt F)),
    ternary main_v34 main_v36 main_v21 main_v37 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v37 main_v38 (broadcastInDim S8388608x1 ![0] bcast_S8388608_S8388608x1_0 : (⟨S8388608, .i32⟩ : BufTy).Contents (Elt F) → (⟨S8388608x1, .i32⟩ : BufTy).Contents (Elt F)),
    ternary main_v32 main_v38 main_v22 main_v39 ((fun x i u => Host.scatterAdd scatter_S16777217_S8388608x1_S8388608_n_0_0_1 x i u) : (⟨S16777217, .f32⟩ : BufTy).Contents (Elt F) → (⟨S8388608x1, .i32⟩ : BufTy).Contents (Elt F) → (⟨S8388608, .f32⟩ : BufTy).Contents (Elt F) → (⟨S16777217, .f32⟩ : BufTy).Contents (Elt F)) ]

/-- Stretch 5: the two gathers back from the accumulated arrays and the pooled mean. -/
abbrev opsR5 : List (HloOp τ sig (Elt F)) :=
  [ nullary main_c_11 (constantI S_ 32 0#32),
    unary main_c_11 main_v40 (broadcastInDim S8388608 ![] bcast_S_S8388608 : (⟨S_, .i32⟩ : BufTy).Contents (Elt F) → (⟨S8388608, .i32⟩ : BufTy).Contents (Elt F)),
    binary main_v21 main_v40 main_v41 (cmpi .slt : (⟨S8388608, .i32⟩ : BufTy).Contents (Elt F) → (⟨S8388608, .i32⟩ : BufTy).Contents (Elt F) → (⟨S8388608, .i1⟩ : BufTy).Contents (Elt F)),
    nullary main_c_12 (constantI S_ 32 16777217#32),
    unary main_c_12 main_v42 (broadcastInDim S8388608 ![] bcast_S_S8388608 : (⟨S_, .i32⟩ : BufTy).Contents (Elt F) → (⟨S8388608, .i32⟩ : BufTy).Contents (Elt F)),
    binary main_v21 main_v42 main_v43 (addi : (⟨S8388608, .i32⟩ : BufTy).Contents (Elt F) → (⟨S8388608, .i32⟩ : BufTy).Contents (Elt F) → (⟨S8388608, .i32⟩ : BufTy).Contents (Elt F)),
    ternary main_v41 main_v43 main_v21 main_v44 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v44 main_v45 (broadcastInDim S8388608x1 ![0] bcast_S8388608_S8388608x1_0 : (⟨S8388608, .i32⟩ : BufTy).Contents (Elt F) → (⟨S8388608x1, .i32⟩ : BufTy).Contents (Elt F)),
    binary main_v31 main_v45 main_v46 ((fun x i => Host.gather gather_S16777217_S8388608x1_S8388608_n_0_n_n_0_1_1 x i) : (⟨S16777217, .f32⟩ : BufTy).Contents (Elt F) → (⟨S8388608x1, .i32⟩ : BufTy).Contents (Elt F) → (⟨S8388608, .f32⟩ : BufTy).Contents (Elt F)),
    nullary main_c_13 (constantI S_ 32 0#32),
    unary main_c_13 main_v47 (broadcastInDim S8388608 ![] bcast_S_S8388608 : (⟨S_, .i32⟩ : BufTy).Contents (Elt F) → (⟨S8388608, .i32⟩ : BufTy).Contents (Elt F)),
    binary main_v21 main_v47 main_v48 (cmpi .slt : (⟨S8388608, .i32⟩ : BufTy).Contents (Elt F) → (⟨S8388608, .i32⟩ : BufTy).Contents (Elt F) → (⟨S8388608, .i1⟩ : BufTy).Contents (Elt F)),
    nullary main_c_14 (constantI S_ 32 16777217#32),
    unary main_c_14 main_v49 (broadcastInDim S8388608 ![] bcast_S_S8388608 : (⟨S_, .i32⟩ : BufTy).Contents (Elt F) → (⟨S8388608, .i32⟩ : BufTy).Contents (Elt F)),
    binary main_v21 main_v49 main_v50 (addi : (⟨S8388608, .i32⟩ : BufTy).Contents (Elt F) → (⟨S8388608, .i32⟩ : BufTy).Contents (Elt F) → (⟨S8388608, .i32⟩ : BufTy).Contents (Elt F)),
    ternary main_v48 main_v50 main_v21 main_v51 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v51 main_v52 (broadcastInDim S8388608x1 ![0] bcast_S8388608_S8388608x1_0 : (⟨S8388608, .i32⟩ : BufTy).Contents (Elt F) → (⟨S8388608x1, .i32⟩ : BufTy).Contents (Elt F)),
    binary main_v39 main_v52 main_v53 ((fun x i => Host.gather gather_S16777217_S8388608x1_S8388608_n_0_n_n_0_1_1 x i) : (⟨S16777217, .f32⟩ : BufTy).Contents (Elt F) → (⟨S8388608x1, .i32⟩ : BufTy).Contents (Elt F) → (⟨S8388608, .f32⟩ : BufTy).Contents (Elt F)),
    nullary main_cst_15 (constant S_ .f32 0x3F800000#32),
    TRef.unary (TRef.of (T := ⟨S_, .f32⟩) main_cst_15) (TRef.of (T := ⟨S8388608, .f32⟩) main_call2_v0) (broadcastInDim S8388608 ![] bcast_S_S8388608),
    TRef.ternary (TRef.of (T := ⟨S8388608, .i1⟩) main_v8) (TRef.of (T := ⟨S8388608, .f32⟩) main_v53) (TRef.of (T := ⟨S8388608, .f32⟩) main_call2_v0) (TRef.of (T := ⟨S8388608, .f32⟩) main_v54) select,
    binary main_v46 main_v54 main_v55 (Host.divf : (⟨S8388608, .f32⟩ : BufTy).Contents (Elt F) → (⟨S8388608, .f32⟩ : BufTy).Contents (Elt F) → (⟨S8388608, .f32⟩ : BufTy).Contents (Elt F)) ]

/-- Stretch 6: the capped word, the two volumes flattened and the gather from the feature volume. -/
abbrev opsR6 : List (HloOp τ sig (Elt F)) :=
  [ nullary main_c_16 (constantI S_ 32 16777215#32),
    unary main_c_16 main_v56 (broadcastInDim S8388608 ![] bcast_S_S8388608 : (⟨S_, .i32⟩ : BufTy).Contents (Elt F) → (⟨S8388608, .i32⟩ : BufTy).Contents (Elt F)),
    binary main_v21 main_v56 main_v57 (minsi : (⟨S8388608, .i32⟩ : BufTy).Contents (Elt F) → (⟨S8388608, .i32⟩ : BufTy).Contents (Elt F) → (⟨S8388608, .i32⟩ : BufTy).Contents (Elt F)),
    reshape main_arg2 main_v58 rfl shapeCasts_S256x256x256_S16777216,
    reshape main_arg3 main_v59 rfl shapeCasts_S256x256x256_S16777216,
    nullary main_c_17 (constantI S_ 32 0#32),
    unary main_c_17 main_v60 (broadcastInDim S8388608 ![] bcast_S_S8388608 : (⟨S_, .i32⟩ : BufTy).Contents (Elt F) → (⟨S8388608, .i32⟩ : BufTy).Contents (Elt F)),
    binary main_v57 main_v60 main_v61 (cmpi .slt : (⟨S8388608, .i32⟩ : BufTy).Contents (Elt F) → (⟨S8388608, .i32⟩ : BufTy).Contents (Elt F) → (⟨S8388608, .i1⟩ : BufTy).Contents (Elt F)),
    nullary main_c_18 (constantI S_ 32 16777216#32),
    unary main_c_18 main_v62 (broadcastInDim S8388608 ![] bcast_S_S8388608 : (⟨S_, .i32⟩ : BufTy).Contents (Elt F) → (⟨S8388608, .i32⟩ : BufTy).Contents (Elt F)),
    binary main_v57 main_v62 main_v63 (addi : (⟨S8388608, .i32⟩ : BufTy).Contents (Elt F) → (⟨S8388608, .i32⟩ : BufTy).Contents (Elt F) → (⟨S8388608, .i32⟩ : BufTy).Contents (Elt F)),
    ternary main_v61 main_v63 main_v57 main_v64 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v64 main_v65 (broadcastInDim S8388608x1 ![0] bcast_S8388608_S8388608x1_0 : (⟨S8388608, .i32⟩ : BufTy).Contents (Elt F) → (⟨S8388608x1, .i32⟩ : BufTy).Contents (Elt F)),
    binary main_v58 main_v65 main_v66 ((fun x i => Host.gather gather_S16777216_S8388608x1_S8388608_n_0_n_n_0_1_1 x i) : (⟨S16777216, .f32⟩ : BufTy).Contents (Elt F) → (⟨S8388608x1, .i32⟩ : BufTy).Contents (Elt F) → (⟨S8388608, .f32⟩ : BufTy).Contents (Elt F)) ]

/-- Stretch 7: the gather from the count volume and the two updates. -/
abbrev opsR7 : List (HloOp τ sig (Elt F)) :=
  [ nullary main_c_19 (constantI S_ 32 0#32),
    unary main_c_19 main_v67 (broadcastInDim S8388608 ![] bcast_S_S8388608 : (⟨S_, .i32⟩ : BufTy).Contents (Elt F) → (⟨S8388608, .i32⟩ : BufTy).Contents (Elt F)),
    binary main_v57 main_v67 main_v68 (cmpi .slt : (⟨S8388608, .i32⟩ : BufTy).Contents (Elt F) → (⟨S8388608, .i32⟩ : BufTy).Contents (Elt F) → (⟨S8388608, .i1⟩ : BufTy).Contents (Elt F)),
    nullary main_c_20 (constantI S_ 32 16777216#32),
    unary main_c_20 main_v69 (broadcastInDim S8388608 ![] bcast_S_S8388608 : (⟨S_, .i32⟩ : BufTy).Contents (Elt F) → (⟨S8388608, .i32⟩ : BufTy).Contents (Elt F)),
    binary main_v57 main_v69 main_v70 (addi : (⟨S8388608, .i32⟩ : BufTy).Contents (Elt F) → (⟨S8388608, .i32⟩ : BufTy).Contents (Elt F) → (⟨S8388608, .i32⟩ : BufTy).Contents (Elt F)),
    ternary main_v68 main_v70 main_v57 main_v71 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v71 main_v72 (broadcastInDim S8388608x1 ![0] bcast_S8388608_S8388608x1_0 : (⟨S8388608, .i32⟩ : BufTy).Contents (Elt F) → (⟨S8388608x1, .i32⟩ : BufTy).Contents (Elt F)),
    binary main_v59 main_v72 main_v73 ((fun x i => Host.gather gather_S16777216_S8388608x1_S8388608_n_0_n_n_0_1_1 x i) : (⟨S16777216, .f32⟩ : BufTy).Contents (Elt F) → (⟨S8388608x1, .i32⟩ : BufTy).Contents (Elt F) → (⟨S8388608, .f32⟩ : BufTy).Contents (Elt F)),
    nullary main_cst_21 (constant S_ .f32 0x3F800000#32),
    unary main_cst_21 main_v74 (broadcastInDim S8388608 ![] bcast_S_S8388608 : (⟨S_, .f32⟩ : BufTy).Contents (Elt F) → (⟨S8388608, .f32⟩ : BufTy).Contents (Elt F)),
    binary main_v73 main_v74 main_v75 (addf : (⟨S8388608, .f32⟩ : BufTy).Contents (Elt F) → (⟨S8388608, .f32⟩ : BufTy).Contents (Elt F) → (⟨S8388608, .f32⟩ : BufTy).Contents (Elt F)),
    binary main_v66 main_v73 main_v76 (mulf : (⟨S8388608, .f32⟩ : BufTy).Contents (Elt F) → (⟨S8388608, .f32⟩ : BufTy).Contents (Elt F) → (⟨S8388608, .f32⟩ : BufTy).Contents (Elt F)),
    binary main_v55 main_v75 main_v77 (Host.divf : (⟨S8388608, .f32⟩ : BufTy).Contents (Elt F) → (⟨S8388608, .f32⟩ : BufTy).Contents (Elt F) → (⟨S8388608, .f32⟩ : BufTy).Contents (Elt F)),
    binary main_v76 main_v77 main_v78 (addf : (⟨S8388608, .f32⟩ : BufTy).Contents (Elt F) → (⟨S8388608, .f32⟩ : BufTy).Contents (Elt F) → (⟨S8388608, .f32⟩ : BufTy).Contents (Elt F)) ]

/-- Stretch 8: the feature volume padded and its scatter-set. -/
abbrev opsR8 : List (HloOp τ sig (Elt F)) :=
  [ nullary main_cst_22 (constant S_ .f32 0x00000000#32),
    unary main_cst_22 main_v79 (broadcastInDim S1 ![] bcast_S_S1 : (⟨S_, .f32⟩ : BufTy).Contents (Elt F) → (⟨S1, .f32⟩ : BufTy).Contents (Elt F)),
    binary main_v58 main_v79 main_v80 ((fun a b => concatenate S16777217 0 [⟨S16777216, a⟩, ⟨S1, b⟩] concatenates_S16777216_S1_S16777217_d0) : (⟨S16777216, .f32⟩ : BufTy).Contents (Elt F) → (⟨S1, .f32⟩ : BufTy).Contents (Elt F) → (⟨S16777217, .f32⟩ : BufTy).Contents (Elt F)),
    nullary main_c_23 (constantI S_ 32 0#32),
    unary main_c_23 main_v81 (broadcastInDim S8388608 ![] bcast_S_S8388608 : (⟨S_, .i32⟩ : BufTy).Contents (Elt F) → (⟨S8388608, .i32⟩ : BufTy).Contents (Elt F)),
    binary main_v21 main_v81 main_v82 (cmpi .slt : (⟨S8388608, .i32⟩ : BufTy).Contents (Elt F) → (⟨S8388608, .i32⟩ : BufTy).Contents (Elt F) → (⟨S8388608, .i1⟩ : BufTy).Contents (Elt F)),
    nullary main_c_24 (constantI S_ 32 16777217#32),
    unary main_c_24 main_v83 (broadcastInDim S8388608 ![] bcast_S_S8388608 : (⟨S_, .i32⟩ : BufTy).Contents (Elt F) → (⟨S8388608, .i32⟩ : BufTy).Contents (Elt F)),
    binary main_v21 main_v83 main_v84 (addi : (⟨S8388608, .i32⟩ : BufTy).Contents (Elt F) → (⟨S8388608, .i32⟩ : BufTy).Contents (Elt F) → (⟨S8388608, .i32⟩ : BufTy).Contents (Elt F)),
    ternary main_v82 main_v84 main_v21 main_v85 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v85 main_v86 (broadcastInDim S8388608x1 ![0] bcast_S8388608_S8388608x1_0 : (⟨S8388608, .i32⟩ : BufTy).Contents (Elt F) → (⟨S8388608x1, .i32⟩ : BufTy).Contents (Elt F)),
    ternary main_v80 main_v86 main_v78 main_v87 ((fun x i u => Host.scatter scatter_S16777217_S8388608x1_S8388608_n_0_0_1 (fun _ b => b) x i u) : (⟨S16777217, .f32⟩ : BufTy).Contents (Elt F) → (⟨S8388608x1, .i32⟩ : BufTy).Contents (Elt F) → (⟨S8388608, .f32⟩ : BufTy).Contents (Elt F) → (⟨S16777217, .f32⟩ : BufTy).Contents (Elt F)) ]

/-- Stretch 9: the count volume padded and its scatter-set. -/
abbrev opsR9 : List (HloOp τ sig (Elt F)) :=
  [ nullary main_cst_25 (constant S_ .f32 0x00000000#32),
    unary main_cst_25 main_v88 (broadcastInDim S1 ![] bcast_S_S1 : (⟨S_, .f32⟩ : BufTy).Contents (Elt F) → (⟨S1, .f32⟩ : BufTy).Contents (Elt F)),
    binary main_v59 main_v88 main_v89 ((fun a b => concatenate S16777217 0 [⟨S16777216, a⟩, ⟨S1, b⟩] concatenates_S16777216_S1_S16777217_d0) : (⟨S16777216, .f32⟩ : BufTy).Contents (Elt F) → (⟨S1, .f32⟩ : BufTy).Contents (Elt F) → (⟨S16777217, .f32⟩ : BufTy).Contents (Elt F)),
    nullary main_c_26 (constantI S_ 32 0#32),
    unary main_c_26 main_v90 (broadcastInDim S8388608 ![] bcast_S_S8388608 : (⟨S_, .i32⟩ : BufTy).Contents (Elt F) → (⟨S8388608, .i32⟩ : BufTy).Contents (Elt F)),
    binary main_v21 main_v90 main_v91 (cmpi .slt : (⟨S8388608, .i32⟩ : BufTy).Contents (Elt F) → (⟨S8388608, .i32⟩ : BufTy).Contents (Elt F) → (⟨S8388608, .i1⟩ : BufTy).Contents (Elt F)),
    nullary main_c_27 (constantI S_ 32 16777217#32),
    unary main_c_27 main_v92 (broadcastInDim S8388608 ![] bcast_S_S8388608 : (⟨S_, .i32⟩ : BufTy).Contents (Elt F) → (⟨S8388608, .i32⟩ : BufTy).Contents (Elt F)),
    binary main_v21 main_v92 main_v93 (addi : (⟨S8388608, .i32⟩ : BufTy).Contents (Elt F) → (⟨S8388608, .i32⟩ : BufTy).Contents (Elt F) → (⟨S8388608, .i32⟩ : BufTy).Contents (Elt F)),
    ternary main_v91 main_v93 main_v21 main_v94 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v94 main_v95 (broadcastInDim S8388608x1 ![0] bcast_S8388608_S8388608x1_0 : (⟨S8388608, .i32⟩ : BufTy).Contents (Elt F) → (⟨S8388608x1, .i32⟩ : BufTy).Contents (Elt F)),
    ternary main_v89 main_v95 main_v75 main_v96 ((fun x i u => Host.scatter scatter_S16777217_S8388608x1_S8388608_n_0_0_1 (fun _ b => b) x i u) : (⟨S16777217, .f32⟩ : BufTy).Contents (Elt F) → (⟨S8388608x1, .i32⟩ : BufTy).Contents (Elt F) → (⟨S8388608, .f32⟩ : BufTy).Contents (Elt F) → (⟨S16777217, .f32⟩ : BufTy).Contents (Elt F)) ]

/-- Stretch 10: the two results cut back to the volume and reshaped. -/
abbrev opsR10 : List (HloOp τ sig (Elt F)) :=
  [ unary main_v87 main_v97 ((extractStridedSlice S16777216 ![0] · slices_S16777217_S16777216_0) : (⟨S16777217, .f32⟩ : BufTy).Contents (Elt F) → (⟨S16777216, .f32⟩ : BufTy).Contents (Elt F)),
    reshape main_v97 main_v98 rfl shapeCasts_S16777216_S256x256x256,
    unary main_v96 main_v99 ((extractStridedSlice S16777216 ![0] · slices_S16777217_S16777216_0) : (⟨S16777217, .f32⟩ : BufTy).Contents (Elt F) → (⟨S16777216, .f32⟩ : BufTy).Contents (Elt F)),
    reshape main_v99 main_v100 rfl shapeCasts_S16777216_S256x256x256 ]

/-- The operation list is the ten stretches in a row. -/
theorem ops_split : (ops : List (HloOp τ sig (Elt F))) = opsR1 ++ (opsR2 ++ (opsR3 ++ (opsR4 ++ (opsR5 ++ (opsR6 ++ (opsR7 ++ (opsR8 ++ (opsR9 ++ (opsR10))))))))) := rfl

/-! ## The typed-reference operations as plain ones

Five operations of stretch 2 and two of stretch 5 are spelt over references that carry their value's type; at literal
references the carried type is the buffer's own, the transports are the identity, and each is the plain operation. -/

/-- Stretch 2 with every operation spelt plainly. -/
abbrev opsR2p : List (HloOp τ sig (Elt F)) :=
  [ unary main_v1 main_v9 ((extractStridedSlice S8388608x1 ![0, 0] · slices_S8388608x3_S8388608x1_0_0) : (⟨S8388608x3, .i32⟩ : BufTy).Contents (Elt F) → (⟨S8388608x1, .i32⟩ : BufTy).Contents (Elt F)),
    reshape main_v9 main_v10 rfl shapeCasts_S8388608x1_S8388608,
    nullary main_c_2 (constantI S_ 32 256#32),
    unary main_c_2 main_v11 (broadcastInDim S8388608 ![] bcast_S_S8388608 : (⟨S_, .i32⟩ : BufTy).Contents (Elt F) → (⟨S8388608, .i32⟩ : BufTy).Contents (Elt F)),
    binary main_v10 main_v11 main_v12 (muli : (⟨S8388608, .i32⟩ : BufTy).Contents (Elt F) → (⟨S8388608, .i32⟩ : BufTy).Contents (Elt F) → (⟨S8388608, .i32⟩ : BufTy).Contents (Elt F)),
    unary main_v1 main_v13 ((extractStridedSlice S8388608x1 ![0, 1] · slices_S8388608x3_S8388608x1_0_1) : (⟨S8388608x3, .i32⟩ : BufTy).Contents (Elt F) → (⟨S8388608x1, .i32⟩ : BufTy).Contents (Elt F)),
    reshape main_v13 main_v14 rfl shapeCasts_S8388608x1_S8388608,
    binary main_v12 main_v14 main_v15 (addi : (⟨S8388608, .i32⟩ : BufTy).Contents (Elt F) → (⟨S8388608, .i32⟩ : BufTy).Contents (Elt F) → (⟨S8388608, .i32⟩ : BufTy).Contents (Elt F)),
    nullary main_c_3 (constantI S_ 32 256#32),
    unary main_c_3 main_v16 (broadcastInDim S8388608 ![] bcast_S_S8388608 : (⟨S_, .i32⟩ : BufTy).Contents (Elt F) → (⟨S8388608, .i32⟩ : BufTy).Contents (Elt F)),
    binary main_v15 main_v16 main_v17 (muli : (⟨S8388608, .i32⟩ : BufTy).Contents (Elt F) → (⟨S8388608, .i32⟩ : BufTy).Contents (Elt F) → (⟨S8388608, .i32⟩ : BufTy).Contents (Elt F)),
    unary main_v1 main_v18 ((extractStridedSlice S8388608x1 ![0, 2] · slices_S8388608x3_S8388608x1_0_2) : (⟨S8388608x3, .i32⟩ : BufTy).Contents (Elt F) → (⟨S8388608x1, .i32⟩ : BufTy).Contents (Elt F)),
    reshape main_v18 main_v19 rfl shapeCasts_S8388608x1_S8388608,
    binary main_v17 main_v19 main_v20 (addi : (⟨S8388608, .i32⟩ : BufTy).Contents (Elt F) → (⟨S8388608, .i32⟩ : BufTy).Contents (Elt F) → (⟨S8388608, .i32⟩ : BufTy).Contents (Elt F)),
    nullary main_c_4 (constantI S_ 32 16777216#32),
    unary main_c_4 main_call0_v0 (id : (⟨S_, .i32⟩ : BufTy).Contents (Elt F) → (⟨S_, .i32⟩ : BufTy).Contents (Elt F)),
    unary main_call0_v0 main_call0_v1 (broadcastInDim S8388608 ![] bcast_S_S8388608 : (⟨S_, .i32⟩ : BufTy).Contents (Elt F) → (⟨S8388608, .i32⟩ : BufTy).Contents (Elt F)),
    ternary main_v8 main_v20 main_call0_v1 main_v21 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v8 main_v22 (uitofp .f32 : (⟨S8388608, .i1⟩ : BufTy).Contents (Elt F) → (⟨S8388608, .f32⟩ : BufTy).Contents (Elt F)),
    nullary main_cst (constant S_ .f32 0x00000000#32),
    unary main_cst main_call1_v0 (broadcastInDim S8388608 ![] bcast_S_S8388608 : (⟨S_, .f32⟩ : BufTy).Contents (Elt F) → (⟨S8388608, .f32⟩ : BufTy).Contents (Elt F)),
    ternary main_v8 main_v0 main_call1_v0 main_v23 (select : (⟨S8388608, .i1⟩ : BufTy).Contents (Elt F) → (⟨S8388608, .f32⟩ : BufTy).Contents (Elt F) → (⟨S8388608, .f32⟩ : BufTy).Contents (Elt F) → (⟨S8388608, .f32⟩ : BufTy).Contents (Elt F)) ]

/-- Stretch 5 with every operation spelt plainly. -/
abbrev opsR5p : List (HloOp τ sig (Elt F)) :=
  [ nullary main_c_11 (constantI S_ 32 0#32),
    unary main_c_11 main_v40 (broadcastInDim S8388608 ![] bcast_S_S8388608 : (⟨S_, .i32⟩ : BufTy).Contents (Elt F) → (⟨S8388608, .i32⟩ : BufTy).Contents (Elt F)),
    binary main_v21 main_v40 main_v41 (cmpi .slt : (⟨S8388608, .i32⟩ : BufTy).Contents (Elt F) → (⟨S8388608, .i32⟩ : BufTy).Contents (Elt F) → (⟨S8388608, .i1⟩ : BufTy).Contents (Elt F)),
    nullary main_c_12 (constantI S_ 32 16777217#32),
    unary main_c_12 main_v42 (broadcastInDim S8388608 ![] bcast_S_S8388608 : (⟨S_, .i32⟩ : BufTy).Contents (Elt F) → (⟨S8388608, .i32⟩ : BufTy).Contents (Elt F)),
    binary main_v21 main_v42 main_v43 (addi : (⟨S8388608, .i32⟩ : BufTy).Contents (Elt F) → (⟨S8388608, .i32⟩ : BufTy).Contents (Elt F) → (⟨S8388608, .i32⟩ : BufTy).Contents (Elt F)),
    ternary main_v41 main_v43 main_v21 main_v44 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v44 main_v45 (broadcastInDim S8388608x1 ![0] bcast_S8388608_S8388608x1_0 : (⟨S8388608, .i32⟩ : BufTy).Contents (Elt F) → (⟨S8388608x1, .i32⟩ : BufTy).Contents (Elt F)),
    binary main_v31 main_v45 main_v46 ((fun x i => Host.gather gather_S16777217_S8388608x1_S8388608_n_0_n_n_0_1_1 x i) : (⟨S16777217, .f32⟩ : BufTy).Contents (Elt F) → (⟨S8388608x1, .i32⟩ : BufTy).Contents (Elt F) → (⟨S8388608, .f32⟩ : BufTy).Contents (Elt F)),
    nullary main_c_13 (constantI S_ 32 0#32),
    unary main_c_13 main_v47 (broadcastInDim S8388608 ![] bcast_S_S8388608 : (⟨S_, .i32⟩ : BufTy).Contents (Elt F) → (⟨S8388608, .i32⟩ : BufTy).Contents (Elt F)),
    binary main_v21 main_v47 main_v48 (cmpi .slt : (⟨S8388608, .i32⟩ : BufTy).Contents (Elt F) → (⟨S8388608, .i32⟩ : BufTy).Contents (Elt F) → (⟨S8388608, .i1⟩ : BufTy).Contents (Elt F)),
    nullary main_c_14 (constantI S_ 32 16777217#32),
    unary main_c_14 main_v49 (broadcastInDim S8388608 ![] bcast_S_S8388608 : (⟨S_, .i32⟩ : BufTy).Contents (Elt F) → (⟨S8388608, .i32⟩ : BufTy).Contents (Elt F)),
    binary main_v21 main_v49 main_v50 (addi : (⟨S8388608, .i32⟩ : BufTy).Contents (Elt F) → (⟨S8388608, .i32⟩ : BufTy).Contents (Elt F) → (⟨S8388608, .i32⟩ : BufTy).Contents (Elt F)),
    ternary main_v48 main_v50 main_v21 main_v51 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v51 main_v52 (broadcastInDim S8388608x1 ![0] bcast_S8388608_S8388608x1_0 : (⟨S8388608, .i32⟩ : BufTy).Contents (Elt F) → (⟨S8388608x1, .i32⟩ : BufTy).Contents (Elt F)),
    binary main_v39 main_v52 main_v53 ((fun x i => Host.gather gather_S16777217_S8388608x1_S8388608_n_0_n_n_0_1_1 x i) : (⟨S16777217, .f32⟩ : BufTy).Contents (Elt F) → (⟨S8388608x1, .i32⟩ : BufTy).Contents (Elt F) → (⟨S8388608, .f32⟩ : BufTy).Contents (Elt F)),
    nullary main_cst_15 (constant S_ .f32 0x3F800000#32),
    unary main_cst_15 main_call2_v0 (broadcastInDim S8388608 ![] bcast_S_S8388608 : (⟨S_, .f32⟩ : BufTy).Contents (Elt F) → (⟨S8388608, .f32⟩ : BufTy).Contents (Elt F)),
    ternary main_v8 main_v53 main_call2_v0 main_v54 (select : (⟨S8388608, .i1⟩ : BufTy).Contents (Elt F) → (⟨S8388608, .f32⟩ : BufTy).Contents (Elt F) → (⟨S8388608, .f32⟩ : BufTy).Contents (Elt F) → (⟨S8388608, .f32⟩ : BufTy).Contents (Elt F)),
    binary main_v46 main_v54 main_v55 (Host.divf : (⟨S8388608, .f32⟩ : BufTy).Contents (Elt F) → (⟨S8388608, .f32⟩ : BufTy).Contents (Elt F) → (⟨S8388608, .f32⟩ : BufTy).Contents (Elt F)) ]

theorem opsR2_plain : (opsR2 : List (HloOp τ sig (Elt F))) = opsR2p := rfl
theorem opsR5_plain : (opsR5 : List (HloOp τ sig (Elt F))) = opsR5p := rfl

/-! ## Each stretch over arbitrary contents

For a stretch and arbitrary contents `U`: a buffer the stretch writes holds its stage, given that the buffers the
stretch reads hold theirs in `U`; a buffer the stretch does not write holds what `U` had. -/

/-- Stretch 1 leaves in `main_v0` its stage, the buffers it reads holding theirs. -/
theorem R1_v0 (U : Valuation τ sig (Elt F)) (x0 : (⟨S32x512x512, .f32⟩ : BufTy).Contents (Elt F))
    (h_arg0 : U (Proc.devRef .tc main_arg0) = x0) :
    StableHlo.after opsR1 U (Proc.devRef .tc main_v0) = val_main_v0 (F := F) x0 := by
  after_results_simp
  rw [h_arg0]
  rfl

/-- Stretch 1 leaves in `main_v1` its stage, the buffers it reads holding theirs. -/
theorem R1_v1 (U : Valuation τ sig (Elt F)) (x1 : (⟨S32x512x512x3, .i32⟩ : BufTy).Contents (Elt F))
    (h_arg1 : U (Proc.devRef .tc main_arg1) = x1) :
    StableHlo.after opsR1 U (Proc.devRef .tc main_v1) = val_main_v1 (F := F) x1 := by
  after_results_simp
  rw [h_arg1]
  rfl

/-- Stretch 1 leaves in `main_v8` its stage, the buffers it reads holding theirs. -/
theorem R1_v8 (U : Valuation τ sig (Elt F)) (x1 : (⟨S32x512x512x3, .i32⟩ : BufTy).Contents (Elt F))
    (h_arg1 : U (Proc.devRef .tc main_arg1) = x1) :
    StableHlo.after opsR1 U (Proc.devRef .tc main_v8) = val_main_v8 (F := F) x1 := by
  after_results_simp
  rw [h_arg1]
  rfl

/-- Stretch 1 does not write `main_arg0`. -/
theorem R1_keep_arg0 (U : Valuation τ sig (Elt F)) :
    StableHlo.after opsR1 U (Proc.devRef .tc main_arg0) = U (Proc.devRef .tc main_arg0) := by
  after_results_simp

/-- Stretch 1 does not write `main_arg1`. -/
theorem R1_keep_arg1 (U : Valuation τ sig (Elt F)) :
    StableHlo.after opsR1 U (Proc.devRef .tc main_arg1) = U (Proc.devRef .tc main_arg1) := by
  after_results_simp

/-- Stretch 1 does not write `main_arg2`. -/
theorem R1_keep_arg2 (U : Valuation τ sig (Elt F)) :
    StableHlo.after opsR1 U (Proc.devRef .tc main_arg2) = U (Proc.devRef .tc main_arg2) := by
  after_results_simp

/-- Stretch 1 does not write `main_arg3`. -/
theorem R1_keep_arg3 (U : Valuation τ sig (Elt F)) :
    StableHlo.after opsR1 U (Proc.devRef .tc main_arg3) = U (Proc.devRef .tc main_arg3) := by
  after_results_simp

/-- Stretch 2 leaves in `main_v21` its stage, the buffers it reads holding theirs. -/
theorem R2_v21 (U : Valuation τ sig (Elt F)) (x1 : (⟨S32x512x512x3, .i32⟩ : BufTy).Contents (Elt F))
    (h_v1 : U (Proc.devRef .tc main_v1) = val_main_v1 (F := F) x1) (h_v8 : U (Proc.devRef .tc main_v8) = val_main_v8 (F := F) x1) :
    StableHlo.after opsR2 U (Proc.devRef .tc main_v21) = val_main_v21 (F := F) x1 := by
  rw [opsR2_plain]
  after_results_simp
  rw [h_v1, h_v8]
  rfl

/-- Stretch 2 leaves in `main_v22` its stage, the buffers it reads holding theirs. -/
theorem R2_v22 (U : Valuation τ sig (Elt F)) (x1 : (⟨S32x512x512x3, .i32⟩ : BufTy).Contents (Elt F))
    (h_v8 : U (Proc.devRef .tc main_v8) = val_main_v8 (F := F) x1) :
    StableHlo.after opsR2 U (Proc.devRef .tc main_v22) = val_main_v22 (F := F) x1 := by
  rw [opsR2_plain]
  after_results_simp
  rw [h_v8]
  rfl

/-- Stretch 2 leaves in `main_v23` its stage, the buffers it reads holding theirs. -/
theorem R2_v23 (U : Valuation τ sig (Elt F)) (x0 : (⟨S32x512x512, .f32⟩ : BufTy).Contents (Elt F)) (x1 : (⟨S32x512x512x3, .i32⟩ : BufTy).Contents (Elt F))
    (h_v0 : U (Proc.devRef .tc main_v0) = val_main_v0 (F := F) x0) (h_v8 : U (Proc.devRef .tc main_v8) = val_main_v8 (F := F) x1) :
    StableHlo.after opsR2 U (Proc.devRef .tc main_v23) = val_main_v23 (F := F) x0 x1 := by
  rw [opsR2_plain]
  after_results_simp
  rw [h_v0, h_v8]
  rfl

/-- Stretch 2 does not write `main_v8`. -/
theorem R2_keep_v8 (U : Valuation τ sig (Elt F)) :
    StableHlo.after opsR2 U (Proc.devRef .tc main_v8) = U (Proc.devRef .tc main_v8) := by
  rw [opsR2_plain]
  after_results_simp

/-- Stretch 2 does not write `main_arg0`. -/
theorem R2_keep_arg0 (U : Valuation τ sig (Elt F)) :
    StableHlo.after opsR2 U (Proc.devRef .tc main_arg0) = U (Proc.devRef .tc main_arg0) := by
  rw [opsR2_plain]
  after_results_simp

/-- Stretch 2 does not write `main_arg1`. -/
theorem R2_keep_arg1 (U : Valuation τ sig (Elt F)) :
    StableHlo.after opsR2 U (Proc.devRef .tc main_arg1) = U (Proc.devRef .tc main_arg1) := by
  rw [opsR2_plain]
  after_results_simp

/-- Stretch 2 does not write `main_arg2`. -/
theorem R2_keep_arg2 (U : Valuation τ sig (Elt F)) :
    StableHlo.after opsR2 U (Proc.devRef .tc main_arg2) = U (Proc.devRef .tc main_arg2) := by
  rw [opsR2_plain]
  after_results_simp

/-- Stretch 2 does not write `main_arg3`. -/
theorem R2_keep_arg3 (U : Valuation τ sig (Elt F)) :
    StableHlo.after opsR2 U (Proc.devRef .tc main_arg3) = U (Proc.devRef .tc main_arg3) := by
  rw [opsR2_plain]
  after_results_simp

/-- Stretch 3 leaves in `main_v31` its stage, the buffers it reads holding theirs. -/
theorem R3_v31 (U : Valuation τ sig (Elt F)) (x0 : (⟨S32x512x512, .f32⟩ : BufTy).Contents (Elt F)) (x1 : (⟨S32x512x512x3, .i32⟩ : BufTy).Contents (Elt F))
    (h_v21 : U (Proc.devRef .tc main_v21) = val_main_v21 (F := F) x1) (h_v23 : U (Proc.devRef .tc main_v23) = val_main_v23 (F := F) x0 x1) :
    StableHlo.after opsR3 U (Proc.devRef .tc main_v31) = val_main_v31 (F := F) x0 x1 := by
  after_results_simp
  rw [h_v21, h_v23]
  rfl

/-- Stretch 3 does not write `main_v21`. -/
theorem R3_keep_v21 (U : Valuation τ sig (Elt F)) :
    StableHlo.after opsR3 U (Proc.devRef .tc main_v21) = U (Proc.devRef .tc main_v21) := by
  after_results_simp

/-- Stretch 3 does not write `main_v22`. -/
theorem R3_keep_v22 (U : Valuation τ sig (Elt F)) :
    StableHlo.after opsR3 U (Proc.devRef .tc main_v22) = U (Proc.devRef .tc main_v22) := by
  after_results_simp

/-- Stretch 3 does not write `main_v8`. -/
theorem R3_keep_v8 (U : Valuation τ sig (Elt F)) :
    StableHlo.after opsR3 U (Proc.devRef .tc main_v8) = U (Proc.devRef .tc main_v8) := by
  after_results_simp

/-- Stretch 3 does not write `main_arg0`. -/
theorem R3_keep_arg0 (U : Valuation τ sig (Elt F)) :
    StableHlo.after opsR3 U (Proc.devRef .tc main_arg0) = U (Proc.devRef .tc main_arg0) := by
  after_results_simp

/-- Stretch 3 does not write `main_arg1`. -/
theorem R3_keep_arg1 (U : Valuation τ sig (Elt F)) :
    StableHlo.after opsR3 U (Proc.devRef .tc main_arg1) = U (Proc.devRef .tc main_arg1) := by
  after_results_simp

/-- Stretch 3 does not write `main_arg2`. -/
theorem R3_keep_arg2 (U : Valuation τ sig (Elt F)) :
    StableHlo.after opsR3 U (Proc.devRef .tc main_arg2) = U (Proc.devRef .tc main_arg2) := by
  after_results_simp

/-- Stretch 3 does not write `main_arg3`. -/
theorem R3_keep_arg3 (U : Valuation τ sig (Elt F)) :
    StableHlo.after opsR3 U (Proc.devRef .tc main_arg3) = U (Proc.devRef .tc main_arg3) := by
  after_results_simp

/-- Stretch 4 leaves in `main_v39` its stage, the buffers it reads holding theirs. -/
theorem R4_v39 (U : Valuation τ sig (Elt F)) (x1 : (⟨S32x512x512x3, .i32⟩ : BufTy).Contents (Elt F))
    (h_v21 : U (Proc.devRef .tc main_v21) = val_main_v21 (F := F) x1) (h_v22 : U (Proc.devRef .tc main_v22) = val_main_v22 (F := F) x1) :
    StableHlo.after opsR4 U (Proc.devRef .tc main_v39) = val_main_v39 (F := F) x1 := by
  after_results_simp
  rw [h_v21, h_v22]
  rfl

/-- Stretch 4 does not write `main_v31`. -/
theorem R4_keep_v31 (U : Valuation τ sig (Elt F)) :
    StableHlo.after opsR4 U (Proc.devRef .tc main_v31) = U (Proc.devRef .tc main_v31) := by
  after_results_simp

/-- Stretch 4 does not write `main_v21`. -/
theorem R4_keep_v21 (U : Valuation τ sig (Elt F)) :
    StableHlo.after opsR4 U (Proc.devRef .tc main_v21) = U (Proc.devRef .tc main_v21) := by
  after_results_simp

/-- Stretch 4 does not write `main_v8`. -/
theorem R4_keep_v8 (U : Valuation τ sig (Elt F)) :
    StableHlo.after opsR4 U (Proc.devRef .tc main_v8) = U (Proc.devRef .tc main_v8) := by
  after_results_simp

/-- Stretch 4 does not write `main_arg0`. -/
theorem R4_keep_arg0 (U : Valuation τ sig (Elt F)) :
    StableHlo.after opsR4 U (Proc.devRef .tc main_arg0) = U (Proc.devRef .tc main_arg0) := by
  after_results_simp

/-- Stretch 4 does not write `main_arg1`. -/
theorem R4_keep_arg1 (U : Valuation τ sig (Elt F)) :
    StableHlo.after opsR4 U (Proc.devRef .tc main_arg1) = U (Proc.devRef .tc main_arg1) := by
  after_results_simp

/-- Stretch 4 does not write `main_arg2`. -/
theorem R4_keep_arg2 (U : Valuation τ sig (Elt F)) :
    StableHlo.after opsR4 U (Proc.devRef .tc main_arg2) = U (Proc.devRef .tc main_arg2) := by
  after_results_simp

/-- Stretch 4 does not write `main_arg3`. -/
theorem R4_keep_arg3 (U : Valuation τ sig (Elt F)) :
    StableHlo.after opsR4 U (Proc.devRef .tc main_arg3) = U (Proc.devRef .tc main_arg3) := by
  after_results_simp

/-- Stretch 5 leaves in `main_v55` its stage, the buffers it reads holding theirs. -/
theorem R5_v55 (U : Valuation τ sig (Elt F)) (x0 : (⟨S32x512x512, .f32⟩ : BufTy).Contents (Elt F)) (x1 : (⟨S32x512x512x3, .i32⟩ : BufTy).Contents (Elt F))
    (h_v21 : U (Proc.devRef .tc main_v21) = val_main_v21 (F := F) x1) (h_v31 : U (Proc.devRef .tc main_v31) = val_main_v31 (F := F) x0 x1) (h_v39 : U (Proc.devRef .tc main_v39) = val_main_v39 (F := F) x1) (h_v8 : U (Proc.devRef .tc main_v8) = val_main_v8 (F := F) x1) :
    StableHlo.after opsR5 U (Proc.devRef .tc main_v55) = val_main_v55 (F := F) x0 x1 := by
  rw [opsR5_plain]
  after_results_simp
  rw [h_v21, h_v31, h_v39, h_v8]
  rfl

/-- Stretch 5 does not write `main_v21`. -/
theorem R5_keep_v21 (U : Valuation τ sig (Elt F)) :
    StableHlo.after opsR5 U (Proc.devRef .tc main_v21) = U (Proc.devRef .tc main_v21) := by
  rw [opsR5_plain]
  after_results_simp

/-- Stretch 5 does not write `main_arg0`. -/
theorem R5_keep_arg0 (U : Valuation τ sig (Elt F)) :
    StableHlo.after opsR5 U (Proc.devRef .tc main_arg0) = U (Proc.devRef .tc main_arg0) := by
  rw [opsR5_plain]
  after_results_simp

/-- Stretch 5 does not write `main_arg1`. -/
theorem R5_keep_arg1 (U : Valuation τ sig (Elt F)) :
    StableHlo.after opsR5 U (Proc.devRef .tc main_arg1) = U (Proc.devRef .tc main_arg1) := by
  rw [opsR5_plain]
  after_results_simp

/-- Stretch 5 does not write `main_arg2`. -/
theorem R5_keep_arg2 (U : Valuation τ sig (Elt F)) :
    StableHlo.after opsR5 U (Proc.devRef .tc main_arg2) = U (Proc.devRef .tc main_arg2) := by
  rw [opsR5_plain]
  after_results_simp

/-- Stretch 5 does not write `main_arg3`. -/
theorem R5_keep_arg3 (U : Valuation τ sig (Elt F)) :
    StableHlo.after opsR5 U (Proc.devRef .tc main_arg3) = U (Proc.devRef .tc main_arg3) := by
  rw [opsR5_plain]
  after_results_simp

/-- Stretch 6 leaves in `main_v57` its stage, the buffers it reads holding theirs. -/
theorem R6_v57 (U : Valuation τ sig (Elt F)) (x1 : (⟨S32x512x512x3, .i32⟩ : BufTy).Contents (Elt F))
    (h_v21 : U (Proc.devRef .tc main_v21) = val_main_v21 (F := F) x1) :
    StableHlo.after opsR6 U (Proc.devRef .tc main_v57) = val_main_v57 (F := F) x1 := by
  after_results_simp
  rw [h_v21]
  rfl

/-- Stretch 6 leaves in `main_v58` its stage, the buffers it reads holding theirs. -/
theorem R6_v58 (U : Valuation τ sig (Elt F)) (x2 : (⟨S256x256x256, .f32⟩ : BufTy).Contents (Elt F))
    (h_arg2 : U (Proc.devRef .tc main_arg2) = x2) :
    StableHlo.after opsR6 U (Proc.devRef .tc main_v58) = val_main_v58 (F := F) x2 := by
  after_results_simp
  rw [h_arg2]
  rfl

/-- Stretch 6 leaves in `main_v59` its stage, the buffers it reads holding theirs. -/
theorem R6_v59 (U : Valuation τ sig (Elt F)) (x3 : (⟨S256x256x256, .f32⟩ : BufTy).Contents (Elt F))
    (h_arg3 : U (Proc.devRef .tc main_arg3) = x3) :
    StableHlo.after opsR6 U (Proc.devRef .tc main_v59) = val_main_v59 (F := F) x3 := by
  after_results_simp
  rw [h_arg3]
  rfl

/-- Stretch 6 leaves in `main_v66` its stage, the buffers it reads holding theirs. -/
theorem R6_v66 (U : Valuation τ sig (Elt F)) (x1 : (⟨S32x512x512x3, .i32⟩ : BufTy).Contents (Elt F)) (x2 : (⟨S256x256x256, .f32⟩ : BufTy).Contents (Elt F))
    (h_v21 : U (Proc.devRef .tc main_v21) = val_main_v21 (F := F) x1) (h_arg2 : U (Proc.devRef .tc main_arg2) = x2) :
    StableHlo.after opsR6 U (Proc.devRef .tc main_v66) = val_main_v66 (F := F) x1 x2 := by
  after_results_simp
  rw [h_v21, h_arg2]
  rfl

/-- Stretch 6 does not write `main_v55`. -/
theorem R6_keep_v55 (U : Valuation τ sig (Elt F)) :
    StableHlo.after opsR6 U (Proc.devRef .tc main_v55) = U (Proc.devRef .tc main_v55) := by
  after_results_simp

/-- Stretch 6 does not write `main_v21`. -/
theorem R6_keep_v21 (U : Valuation τ sig (Elt F)) :
    StableHlo.after opsR6 U (Proc.devRef .tc main_v21) = U (Proc.devRef .tc main_v21) := by
  after_results_simp

/-- Stretch 6 does not write `main_arg0`. -/
theorem R6_keep_arg0 (U : Valuation τ sig (Elt F)) :
    StableHlo.after opsR6 U (Proc.devRef .tc main_arg0) = U (Proc.devRef .tc main_arg0) := by
  after_results_simp

/-- Stretch 6 does not write `main_arg1`. -/
theorem R6_keep_arg1 (U : Valuation τ sig (Elt F)) :
    StableHlo.after opsR6 U (Proc.devRef .tc main_arg1) = U (Proc.devRef .tc main_arg1) := by
  after_results_simp

/-- Stretch 6 does not write `main_arg2`. -/
theorem R6_keep_arg2 (U : Valuation τ sig (Elt F)) :
    StableHlo.after opsR6 U (Proc.devRef .tc main_arg2) = U (Proc.devRef .tc main_arg2) := by
  after_results_simp

/-- Stretch 6 does not write `main_arg3`. -/
theorem R6_keep_arg3 (U : Valuation τ sig (Elt F)) :
    StableHlo.after opsR6 U (Proc.devRef .tc main_arg3) = U (Proc.devRef .tc main_arg3) := by
  after_results_simp

/-- Stretch 7 leaves in `main_v75` its stage, the buffers it reads holding theirs. -/
theorem R7_v75 (U : Valuation τ sig (Elt F)) (x1 : (⟨S32x512x512x3, .i32⟩ : BufTy).Contents (Elt F)) (x3 : (⟨S256x256x256, .f32⟩ : BufTy).Contents (Elt F))
    (h_v57 : U (Proc.devRef .tc main_v57) = val_main_v57 (F := F) x1) (h_v59 : U (Proc.devRef .tc main_v59) = val_main_v59 (F := F) x3) :
    StableHlo.after opsR7 U (Proc.devRef .tc main_v75) = val_main_v75 (F := F) x1 x3 := by
  after_results_simp
  rw [h_v57, h_v59]
  rfl

/-- Stretch 7 leaves in `main_v78` its stage, the buffers it reads holding theirs. -/
theorem R7_v78 (U : Valuation τ sig (Elt F)) (x0 : (⟨S32x512x512, .f32⟩ : BufTy).Contents (Elt F)) (x1 : (⟨S32x512x512x3, .i32⟩ : BufTy).Contents (Elt F)) (x2 : (⟨S256x256x256, .f32⟩ : BufTy).Contents (Elt F)) (x3 : (⟨S256x256x256, .f32⟩ : BufTy).Contents (Elt F))
    (h_v57 : U (Proc.devRef .tc main_v57) = val_main_v57 (F := F) x1) (h_v59 : U (Proc.devRef .tc main_v59) = val_main_v59 (F := F) x3) (h_v66 : U (Proc.devRef .tc main_v66) = val_main_v66 (F := F) x1 x2) (h_v55 : U (Proc.devRef .tc main_v55) = val_main_v55 (F := F) x0 x1) :
    StableHlo.after opsR7 U (Proc.devRef .tc main_v78) = val_main_v78 (F := F) x0 x1 x2 x3 := by
  after_results_simp
  rw [h_v57, h_v59, h_v66, h_v55]
  rfl

/-- Stretch 7 does not write `main_v58`. -/
theorem R7_keep_v58 (U : Valuation τ sig (Elt F)) :
    StableHlo.after opsR7 U (Proc.devRef .tc main_v58) = U (Proc.devRef .tc main_v58) := by
  after_results_simp

/-- Stretch 7 does not write `main_v59`. -/
theorem R7_keep_v59 (U : Valuation τ sig (Elt F)) :
    StableHlo.after opsR7 U (Proc.devRef .tc main_v59) = U (Proc.devRef .tc main_v59) := by
  after_results_simp

/-- Stretch 7 does not write `main_v21`. -/
theorem R7_keep_v21 (U : Valuation τ sig (Elt F)) :
    StableHlo.after opsR7 U (Proc.devRef .tc main_v21) = U (Proc.devRef .tc main_v21) := by
  after_results_simp

/-- Stretch 7 does not write `main_arg0`. -/
theorem R7_keep_arg0 (U : Valuation τ sig (Elt F)) :
    StableHlo.after opsR7 U (Proc.devRef .tc main_arg0) = U (Proc.devRef .tc main_arg0) := by
  after_results_simp

/-- Stretch 7 does not write `main_arg1`. -/
theorem R7_keep_arg1 (U : Valuation τ sig (Elt F)) :
    StableHlo.after opsR7 U (Proc.devRef .tc main_arg1) = U (Proc.devRef .tc main_arg1) := by
  after_results_simp

/-- Stretch 7 does not write `main_arg2`. -/
theorem R7_keep_arg2 (U : Valuation τ sig (Elt F)) :
    StableHlo.after opsR7 U (Proc.devRef .tc main_arg2) = U (Proc.devRef .tc main_arg2) := by
  after_results_simp

/-- Stretch 7 does not write `main_arg3`. -/
theorem R7_keep_arg3 (U : Valuation τ sig (Elt F)) :
    StableHlo.after opsR7 U (Proc.devRef .tc main_arg3) = U (Proc.devRef .tc main_arg3) := by
  after_results_simp

/-- Stretch 8 leaves in `main_v87` its stage, the buffers it reads holding theirs. -/
theorem R8_v87 (U : Valuation τ sig (Elt F)) (x0 : (⟨S32x512x512, .f32⟩ : BufTy).Contents (Elt F)) (x1 : (⟨S32x512x512x3, .i32⟩ : BufTy).Contents (Elt F)) (x2 : (⟨S256x256x256, .f32⟩ : BufTy).Contents (Elt F)) (x3 : (⟨S256x256x256, .f32⟩ : BufTy).Contents (Elt F))
    (h_v58 : U (Proc.devRef .tc main_v58) = val_main_v58 (F := F) x2) (h_v21 : U (Proc.devRef .tc main_v21) = val_main_v21 (F := F) x1) (h_v78 : U (Proc.devRef .tc main_v78) = val_main_v78 (F := F) x0 x1 x2 x3) :
    StableHlo.after opsR8 U (Proc.devRef .tc main_v87) = val_main_v87 (F := F) x0 x1 x2 x3 := by
  after_results_simp
  repeat (first | rw [nullary_result] | rw [unary_result] | (rw [nullary_result_ne]; rotate_left; decide) | (rw [unary_result_ne]; rotate_left; decide))
  rw [h_v58, h_v21, h_v78]
  rfl

/-- Stretch 8 does not write `main_v59`. -/
theorem R8_keep_v59 (U : Valuation τ sig (Elt F)) :
    StableHlo.after opsR8 U (Proc.devRef .tc main_v59) = U (Proc.devRef .tc main_v59) := by
  after_results_simp

/-- Stretch 8 does not write `main_v21`. -/
theorem R8_keep_v21 (U : Valuation τ sig (Elt F)) :
    StableHlo.after opsR8 U (Proc.devRef .tc main_v21) = U (Proc.devRef .tc main_v21) := by
  after_results_simp

/-- Stretch 8 does not write `main_v75`. -/
theorem R8_keep_v75 (U : Valuation τ sig (Elt F)) :
    StableHlo.after opsR8 U (Proc.devRef .tc main_v75) = U (Proc.devRef .tc main_v75) := by
  after_results_simp

/-- Stretch 8 does not write `main_arg0`. -/
theorem R8_keep_arg0 (U : Valuation τ sig (Elt F)) :
    StableHlo.after opsR8 U (Proc.devRef .tc main_arg0) = U (Proc.devRef .tc main_arg0) := by
  after_results_simp

/-- Stretch 8 does not write `main_arg1`. -/
theorem R8_keep_arg1 (U : Valuation τ sig (Elt F)) :
    StableHlo.after opsR8 U (Proc.devRef .tc main_arg1) = U (Proc.devRef .tc main_arg1) := by
  after_results_simp

/-- Stretch 8 does not write `main_arg2`. -/
theorem R8_keep_arg2 (U : Valuation τ sig (Elt F)) :
    StableHlo.after opsR8 U (Proc.devRef .tc main_arg2) = U (Proc.devRef .tc main_arg2) := by
  after_results_simp

/-- Stretch 8 does not write `main_arg3`. -/
theorem R8_keep_arg3 (U : Valuation τ sig (Elt F)) :
    StableHlo.after opsR8 U (Proc.devRef .tc main_arg3) = U (Proc.devRef .tc main_arg3) := by
  after_results_simp

/-- Stretch 9 leaves in `main_v96` its stage, the buffers it reads holding theirs. -/
theorem R9_v96 (U : Valuation τ sig (Elt F)) (x1 : (⟨S32x512x512x3, .i32⟩ : BufTy).Contents (Elt F)) (x3 : (⟨S256x256x256, .f32⟩ : BufTy).Contents (Elt F))
    (h_v59 : U (Proc.devRef .tc main_v59) = val_main_v59 (F := F) x3) (h_v21 : U (Proc.devRef .tc main_v21) = val_main_v21 (F := F) x1) (h_v75 : U (Proc.devRef .tc main_v75) = val_main_v75 (F := F) x1 x3) :
    StableHlo.after opsR9 U (Proc.devRef .tc main_v96) = val_main_v96 (F := F) x1 x3 := by
  after_results_simp
  repeat (first | rw [nullary_result] | rw [unary_result] | (rw [nullary_result_ne]; rotate_left; decide) | (rw [unary_result_ne]; rotate_left; decide))
  rw [h_v59, h_v21, h_v75]
  rfl

/-- Stretch 9 does not write `main_v87`. -/
theorem R9_keep_v87 (U : Valuation τ sig (Elt F)) :
    StableHlo.after opsR9 U (Proc.devRef .tc main_v87) = U (Proc.devRef .tc main_v87) := by
  after_results_simp

/-- Stretch 9 does not write `main_arg0`. -/
theorem R9_keep_arg0 (U : Valuation τ sig (Elt F)) :
    StableHlo.after opsR9 U (Proc.devRef .tc main_arg0) = U (Proc.devRef .tc main_arg0) := by
  after_results_simp

/-- Stretch 9 does not write `main_arg1`. -/
theorem R9_keep_arg1 (U : Valuation τ sig (Elt F)) :
    StableHlo.after opsR9 U (Proc.devRef .tc main_arg1) = U (Proc.devRef .tc main_arg1) := by
  after_results_simp

/-- Stretch 9 does not write `main_arg2`. -/
theorem R9_keep_arg2 (U : Valuation τ sig (Elt F)) :
    StableHlo.after opsR9 U (Proc.devRef .tc main_arg2) = U (Proc.devRef .tc main_arg2) := by
  after_results_simp

/-- Stretch 9 does not write `main_arg3`. -/
theorem R9_keep_arg3 (U : Valuation τ sig (Elt F)) :
    StableHlo.after opsR9 U (Proc.devRef .tc main_arg3) = U (Proc.devRef .tc main_arg3) := by
  after_results_simp

/-- Stretch 10 leaves in `main_v98` its stage, the buffers it reads holding theirs. -/
theorem R10_v98 (U : Valuation τ sig (Elt F)) (x0 : (⟨S32x512x512, .f32⟩ : BufTy).Contents (Elt F)) (x1 : (⟨S32x512x512x3, .i32⟩ : BufTy).Contents (Elt F)) (x2 : (⟨S256x256x256, .f32⟩ : BufTy).Contents (Elt F)) (x3 : (⟨S256x256x256, .f32⟩ : BufTy).Contents (Elt F))
    (h_v87 : U (Proc.devRef .tc main_v87) = val_main_v87 (F := F) x0 x1 x2 x3) :
    StableHlo.after opsR10 U (Proc.devRef .tc main_v98) = val_main_v98 (F := F) x0 x1 x2 x3 := by
  after_results_simp
  rw [h_v87]
  rfl

/-- Stretch 10 leaves in `main_v100` its stage, the buffers it reads holding theirs. -/
theorem R10_v100 (U : Valuation τ sig (Elt F)) (x1 : (⟨S32x512x512x3, .i32⟩ : BufTy).Contents (Elt F)) (x3 : (⟨S256x256x256, .f32⟩ : BufTy).Contents (Elt F))
    (h_v96 : U (Proc.devRef .tc main_v96) = val_main_v96 (F := F) x1 x3) :
    StableHlo.after opsR10 U (Proc.devRef .tc main_v100) = val_main_v100 (F := F) x1 x3 := by
  after_results_simp
  rw [h_v96]
  rfl

/-- Stretch 10 does not write `main_arg0`. -/
theorem R10_keep_arg0 (U : Valuation τ sig (Elt F)) :
    StableHlo.after opsR10 U (Proc.devRef .tc main_arg0) = U (Proc.devRef .tc main_arg0) := by
  after_results_simp

/-- Stretch 10 does not write `main_arg1`. -/
theorem R10_keep_arg1 (U : Valuation τ sig (Elt F)) :
    StableHlo.after opsR10 U (Proc.devRef .tc main_arg1) = U (Proc.devRef .tc main_arg1) := by
  after_results_simp

/-- Stretch 10 does not write `main_arg2`. -/
theorem R10_keep_arg2 (U : Valuation τ sig (Elt F)) :
    StableHlo.after opsR10 U (Proc.devRef .tc main_arg2) = U (Proc.devRef .tc main_arg2) := by
  after_results_simp

/-- Stretch 10 does not write `main_arg3`. -/
theorem R10_keep_arg3 (U : Valuation τ sig (Elt F)) :
    StableHlo.after opsR10 U (Proc.devRef .tc main_arg3) = U (Proc.devRef .tc main_arg3) := by
  after_results_simp

/-! ## The ten stretches in a row -/

/-- After all the operations, from any contents `W`: the first result buffer holds the last feature stage of the four
    argument arrays as `W` has them, the second the last count stage, and the argument buffers what `W` had. -/
theorem after_ops (W : Valuation τ sig (Elt F)) :
    StableHlo.after ops W (Proc.devRef .tc main_v98)
        = val_main_v98 (F := F) (W (Proc.devRef .tc main_arg0)) (W (Proc.devRef .tc main_arg1)) (W (Proc.devRef .tc main_arg2)) (W (Proc.devRef .tc main_arg3))
    ∧ StableHlo.after ops W (Proc.devRef .tc main_v100)
        = val_main_v100 (F := F) (W (Proc.devRef .tc main_arg1)) (W (Proc.devRef .tc main_arg3))
    ∧ StableHlo.after ops W (Proc.devRef .tc main_arg0) = W (Proc.devRef .tc main_arg0)
    ∧ StableHlo.after ops W (Proc.devRef .tc main_arg1) = W (Proc.devRef .tc main_arg1)
    ∧ StableHlo.after ops W (Proc.devRef .tc main_arg2) = W (Proc.devRef .tc main_arg2)
    ∧ StableHlo.after ops W (Proc.devRef .tc main_arg3) = W (Proc.devRef .tc main_arg3) := by
  rw [ops_split]
  simp only [StableHlo.after_append]
  generalize hx0 : W (Proc.devRef .tc main_arg0) = x0
  generalize hx1 : W (Proc.devRef .tc main_arg1) = x1
  generalize hx2 : W (Proc.devRef .tc main_arg2) = x2
  generalize hx3 : W (Proc.devRef .tc main_arg3) = x3
  -- stretch 1
  have s1_v0 := R1_v0 W x0 hx0
  have s1_v1 := R1_v1 W x1 hx1
  have s1_v8 := R1_v8 W x1 hx1
  have s1_arg0 := (R1_keep_arg0 W).trans hx0
  have s1_arg1 := (R1_keep_arg1 W).trans hx1
  have s1_arg2 := (R1_keep_arg2 W).trans hx2
  have s1_arg3 := (R1_keep_arg3 W).trans hx3
  generalize StableHlo.after opsR1 W = W1 at s1_v0 s1_v1 s1_v8 s1_arg0 s1_arg1 s1_arg2 s1_arg3 ⊢
  -- stretch 2
  have s2_v21 := R2_v21 W1 x1 s1_v1 s1_v8
  have s2_v22 := R2_v22 W1 x1 s1_v8
  have s2_v23 := R2_v23 W1 x0 x1 s1_v0 s1_v8
  have s2_v8 := (R2_keep_v8 W1).trans s1_v8
  have s2_arg0 := (R2_keep_arg0 W1).trans s1_arg0
  have s2_arg1 := (R2_keep_arg1 W1).trans s1_arg1
  have s2_arg2 := (R2_keep_arg2 W1).trans s1_arg2
  have s2_arg3 := (R2_keep_arg3 W1).trans s1_arg3
  generalize StableHlo.after opsR2 W1 = W2 at s2_v21 s2_v22 s2_v23 s2_v8 s2_arg0 s2_arg1 s2_arg2 s2_arg3 ⊢
  -- stretch 3
  have s3_v31 := R3_v31 W2 x0 x1 s2_v21 s2_v23
  have s3_v21 := (R3_keep_v21 W2).trans s2_v21
  have s3_v22 := (R3_keep_v22 W2).trans s2_v22
  have s3_v8 := (R3_keep_v8 W2).trans s2_v8
  have s3_arg0 := (R3_keep_arg0 W2).trans s2_arg0
  have s3_arg1 := (R3_keep_arg1 W2).trans s2_arg1
  have s3_arg2 := (R3_keep_arg2 W2).trans s2_arg2
  have s3_arg3 := (R3_keep_arg3 W2).trans s2_arg3
  generalize StableHlo.after opsR3 W2 = W3 at s3_v31 s3_v21 s3_v22 s3_v8 s3_arg0 s3_arg1 s3_arg2 s3_arg3 ⊢
  -- stretch 4
  have s4_v39 := R4_v39 W3 x1 s3_v21 s3_v22
  have s4_v31 := (R4_keep_v31 W3).trans s3_v31
  have s4_v21 := (R4_keep_v21 W3).trans s3_v21
  have s4_v8 := (R4_keep_v8 W3).trans s3_v8
  have s4_arg0 := (R4_keep_arg0 W3).trans s3_arg0
  have s4_arg1 := (R4_keep_arg1 W3).trans s3_arg1
  have s4_arg2 := (R4_keep_arg2 W3).trans s3_arg2
  have s4_arg3 := (R4_keep_arg3 W3).trans s3_arg3
  generalize StableHlo.after opsR4 W3 = W4 at s4_v39 s4_v31 s4_v21 s4_v8 s4_arg0 s4_arg1 s4_arg2 s4_arg3 ⊢
  -- stretch 5
  have s5_v55 := R5_v55 W4 x0 x1 s4_v21 s4_v31 s4_v39 s4_v8
  have s5_v21 := (R5_keep_v21 W4).trans s4_v21
  have s5_arg0 := (R5_keep_arg0 W4).trans s4_arg0
  have s5_arg1 := (R5_keep_arg1 W4).trans s4_arg1
  have s5_arg2 := (R5_keep_arg2 W4).trans s4_arg2
  have s5_arg3 := (R5_keep_arg3 W4).trans s4_arg3
  generalize StableHlo.after opsR5 W4 = W5 at s5_v55 s5_v21 s5_arg0 s5_arg1 s5_arg2 s5_arg3 ⊢
  -- stretch 6
  have s6_v57 := R6_v57 W5 x1 s5_v21
  have s6_v58 := R6_v58 W5 x2 s5_arg2
  have s6_v59 := R6_v59 W5 x3 s5_arg3
  have s6_v66 := R6_v66 W5 x1 x2 s5_v21 s5_arg2
  have s6_v55 := (R6_keep_v55 W5).trans s5_v55
  have s6_v21 := (R6_keep_v21 W5).trans s5_v21
  have s6_arg0 := (R6_keep_arg0 W5).trans s5_arg0
  have s6_arg1 := (R6_keep_arg1 W5).trans s5_arg1
  have s6_arg2 := (R6_keep_arg2 W5).trans s5_arg2
  have s6_arg3 := (R6_keep_arg3 W5).trans s5_arg3
  generalize StableHlo.after opsR6 W5 = W6 at s6_v57 s6_v58 s6_v59 s6_v66 s6_v55 s6_v21 s6_arg0 s6_arg1 s6_arg2 s6_arg3 ⊢
  -- stretch 7
  have s7_v75 := R7_v75 W6 x1 x3 s6_v57 s6_v59
  have s7_v78 := R7_v78 W6 x0 x1 x2 x3 s6_v57 s6_v59 s6_v66 s6_v55
  have s7_v58 := (R7_keep_v58 W6).trans s6_v58
  have s7_v59 := (R7_keep_v59 W6).trans s6_v59
  have s7_v21 := (R7_keep_v21 W6).trans s6_v21
  have s7_arg0 := (R7_keep_arg0 W6).trans s6_arg0
  have s7_arg1 := (R7_keep_arg1 W6).trans s6_arg1
  have s7_arg2 := (R7_keep_arg2 W6).trans s6_arg2
  have s7_arg3 := (R7_keep_arg3 W6).trans s6_arg3
  generalize StableHlo.after opsR7 W6 = W7 at s7_v75 s7_v78 s7_v58 s7_v59 s7_v21 s7_arg0 s7_arg1 s7_arg2 s7_arg3 ⊢
  -- stretch 8
  have s8_v87 := R8_v87 W7 x0 x1 x2 x3 s7_v58 s7_v21 s7_v78
  have s8_v59 := (R8_keep_v59 W7).trans s7_v59
  have s8_v21 := (R8_keep_v21 W7).trans s7_v21
  have s8_v75 := (R8_keep_v75 W7).trans s7_v75
  have s8_arg0 := (R8_keep_arg0 W7).trans s7_arg0
  have s8_arg1 := (R8_keep_arg1 W7).trans s7_arg1
  have s8_arg2 := (R8_keep_arg2 W7).trans s7_arg2
  have s8_arg3 := (R8_keep_arg3 W7).trans s7_arg3
  generalize StableHlo.after opsR8 W7 = W8 at s8_v87 s8_v59 s8_v21 s8_v75 s8_arg0 s8_arg1 s8_arg2 s8_arg3 ⊢
  -- stretch 9
  have s9_v96 := R9_v96 W8 x1 x3 s8_v59 s8_v21 s8_v75
  have s9_v87 := (R9_keep_v87 W8).trans s8_v87
  have s9_arg0 := (R9_keep_arg0 W8).trans s8_arg0
  have s9_arg1 := (R9_keep_arg1 W8).trans s8_arg1
  have s9_arg2 := (R9_keep_arg2 W8).trans s8_arg2
  have s9_arg3 := (R9_keep_arg3 W8).trans s8_arg3
  generalize StableHlo.after opsR9 W8 = W9 at s9_v96 s9_v87 s9_arg0 s9_arg1 s9_arg2 s9_arg3 ⊢
  -- stretch 10
  have s10_v98 := R10_v98 W9 x0 x1 x2 x3 s9_v87
  have s10_v100 := R10_v100 W9 x1 x3 s9_v96
  have s10_arg0 := (R10_keep_arg0 W9).trans s9_arg0
  have s10_arg1 := (R10_keep_arg1 W9).trans s9_arg1
  have s10_arg2 := (R10_keep_arg2 W9).trans s9_arg2
  have s10_arg3 := (R10_keep_arg3 W9).trans s9_arg3
  generalize StableHlo.after opsR10 W9 = W10 at s10_v98 s10_v100 s10_arg0 s10_arg1 s10_arg2 s10_arg3 ⊢
  exact ⟨s10_v98, s10_v100, s10_arg0, s10_arg1, s10_arg2, s10_arg3⟩

/-- On every device, from any memory with zero counters: every weakly fair execution of the reference terminates
    with each result at its last stage of the launch arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98)
        = val_main_v98 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v100)
        = val_main_v100 (F := F) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      have a := after_ops (F := F) (launchContents m c)
      ⟨(h c main_v98).trans a.1, (h c main_v100).trans a.2.1, (h c main_arg0).trans a.2.2.1,
        (h c main_arg1).trans a.2.2.2.1, (h c main_arg2).trans a.2.2.2.2.1, (h c main_arg3).trans a.2.2.2.2.2⟩)
    (run_seq scopedRefs_eq scopedSems_eq defs main (fun _ => ops) main_eq (fun _ => ops_sub) m ρ)

end Cert.ReferenceIdeal.RunS

end
-- ==== Proof.KernelArray.lean ====
/-
  From blocks to arrays. The kernel's grid has 32 points; at point `t` every window's block is rows `8t … 8t + 7` of
  its 256 × 256 × 256 array (all of the other two axes), so the 32 output blocks tile each output array. The body is
  pointwise, hence what point `t` writes back is block `t` of ONE function of the four input arrays, voxel by voxel:

    G4 : the updated feature, `w > 0 ? fv·cv + (fc / (w > 0 ? w : 1)) / (cv + 1) : fv`
    G5 : the updated count,   `cv + [w > 0]`

  (`fc`, `w` the two accumulated arrays, `fv`, `cv` the two volumes), and so each output array after the run IS that
  function of the arrays the region found.
-/
import proofs.«410749_j41850161332390_3_alg».proof.Proof.GenValueKernelIdeal
import Idealize.ShloMosaic.Lib.Pipeline.Value

noncomputable section

namespace Cert.KernelIdeal.Arr

open Cert.KernelIdeal Cert.KernelIdeal.Gen Cert.KernelIdeal.ValueP Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The updated feature volume as one function of the accumulated feature `a0`, the accumulated weight `a1`, and the
    two volumes `a2` (feature) and `a3` (count), voxel by voxel. -/
def G4 (a0 a1 a2 a3 : S256x256x256.Idx → Elt F .f32) : S256x256x256.Idx → Elt F .f32 := fun i =>
  Scalar.select (FloatOps.cmpf .ogt (a1 i) (Scalar.ofBits .f32 0x00000000#32))
    (FloatOps.addf (FloatOps.mulf (a2 i) (a3 i))
      (FloatOps.divf (FloatOps.divf (a0 i) (Scalar.select (FloatOps.cmpf .ogt (a1 i) (Scalar.ofBits .f32 0x00000000#32)) (a1 i) (Scalar.ofBits .f32 0x3F800000#32)))
        (FloatOps.addf (a3 i) (Scalar.ofBits .f32 0x3F800000#32))))
    (a2 i)

/-- The updated count volume as one function of the accumulated weight `a1` and the count volume `a3`. -/
def G5 (a1 a3 : S256x256x256.Idx → Elt F .f32) : S256x256x256.Idx → Elt F .f32 := fun i =>
  FloatOps.addf (a3 i) (FloatOps.sitofp (F := F) .f32 ((FloatOps.cmpf .ogt (a1 i) (Scalar.ofBits .f32 0x00000000#32)).setWidth 32))

/-! ## Voxel by voxel

Both outputs are pointwise: what the body leaves at a block index is a function of the input blocks' values at that same
index, and a block's value at an index is its array's value at the voxel the block puts under it. -/

/-- The whole-block rectangle's offsets are zero on every axis. -/
theorem zero3 : (![0, 0, 0] : Fin 3 → Nat) = fun _ => 0 := funext fun a => by fin_cases a <;> rfl

/-- The updated feature at one voxel, from the four values there. -/
def g4 (u0 u1 u2 u3 : Elt F .f32) : Elt F .f32 :=
  Scalar.select (FloatOps.cmpf .ogt u1 (Scalar.ofBits .f32 0x00000000#32))
    (FloatOps.addf (FloatOps.mulf u2 u3)
      (FloatOps.divf (FloatOps.divf u0 (Scalar.select (FloatOps.cmpf .ogt u1 (Scalar.ofBits .f32 0x00000000#32)) u1 (Scalar.ofBits .f32 0x3F800000#32)))
        (FloatOps.addf u3 (Scalar.ofBits .f32 0x3F800000#32))))
    u2

/-- The updated count at one voxel, from the weight and the count there. -/
def g5 (u1 u3 : Elt F .f32) : Elt F .f32 :=
  FloatOps.addf u3 (FloatOps.sitofp (F := F) .f32 ((FloatOps.cmpf .ogt u1 (Scalar.ofBits .f32 0x00000000#32)).setWidth 32))

theorem G4_apply (a0 a1 a2 a3 : S256x256x256.Idx → Elt F .f32) (i : S256x256x256.Idx) :
    G4 a0 a1 a2 a3 i = g4 (a0 i) (a1 i) (a2 i) (a3 i) := rfl

theorem G5_apply (a1 a3 : S256x256x256.Idx → Elt F .f32) (i : S256x256x256.Idx) :
    G5 a1 a3 i = g5 (a1 i) (a3 i) := rfl

/-- Two block indices with the same three coordinates are equal. -/
theorem idx3_ext {y z : S8x256x256.Idx} (h0 : (z 0).val = (y 0).val) (h1 : (z 1).val = (y 1).val)
    (h2 : (z 2).val = (y 2).val) : z = y := by
  funext a; apply Fin.ext
  match a with
  | ⟨0, _⟩ => exact h0
  | ⟨1, _⟩ => exact h1
  | ⟨2, _⟩ => exact h2

/-- What the body leaves in the first output's block, voxel by voxel: the voxel function of the four input blocks' values there. -/
theorem out0_4_apply (x0 x1 x2 x3 : Vec F S8x256x256 .f32) (y : S8x256x256.Idx) :
    out0_4 x0 x1 x2 x3 y = g4 (x0 y) (x1 y) (x2 y) (x3 y) := by
  unfold out0_4
  simp only [View.ld_unit_zero (S := S8x256x256) zero3]
  rw [canon4_eq x1 x2 x3 x0 y]
  have e0 : ix4_0 y = y := idx3_ext rfl rfl rfl
  have e1 : ix4_1 y = y := idx3_ext rfl rfl rfl
  have e2 : ix4_2 y = y := idx3_ext rfl rfl rfl
  have e3 : ix4_3 y = y := idx3_ext rfl rfl rfl
  have e4 : ix4_4 y = y := idx3_ext rfl rfl rfl
  have e5 : ix4_5 y = y := idx3_ext rfl rfl rfl
  have e6 : ix4_6 y = y := idx3_ext rfl rfl rfl
  have e7 : ix4_7 y = y := idx3_ext rfl rfl rfl
  unfold E4 g4
  rw [e0, e1, e2, e3, e4, e5, e6, e7]

/-- What the body leaves in the second output's block, voxel by voxel. -/
theorem out0_5_apply (x0 x1 x2 x3 : Vec F S8x256x256 .f32) (y : S8x256x256.Idx) :
    out0_5 x0 x1 x2 x3 y = g5 (x1 y) (x3 y) := by
  unfold out0_5
  simp only [View.ld_unit_zero (S := S8x256x256) zero3]
  rw [canon5_eq x3 x1 y]
  have e0 : ix5_0 y = y := idx3_ext rfl rfl rfl
  have e1 : ix5_1 y = y := idx3_ext rfl rfl rfl
  unfold E5 g5
  rw [e0, e1]

/-- An input block's value at a block index is its array's value at the voxel the block puts under that index. -/
theorem iblk0_at (c : Dev nD) (t : Fin cfg0.N) (y : S8x256x256.Idx) :
    iblk m c 0 t y = V m c main_call0_v44 (((cfg0.win 0).blk t).view.emb y) := rfl
theorem iblk1_at (c : Dev nD) (t : Fin cfg0.N) (y : S8x256x256.Idx) :
    iblk m c 1 t y = V m c main_call0_v53 (((cfg0.win 1).blk t).view.emb y) := rfl
theorem iblk2_at (c : Dev nD) (t : Fin cfg0.N) (y : S8x256x256.Idx) :
    iblk m c 2 t y = V m c main_arg2 (((cfg0.win 2).blk t).view.emb y) := rfl
theorem iblk3_at (c : Dev nD) (t : Fin cfg0.N) (y : S8x256x256.Idx) :
    iblk m c 3 t y = V m c main_arg3 (((cfg0.win 3).blk t).view.emb y) := rfl

/-! ## The first output -/

/-- The four input windows' index maps agree with the first output's at every grid point, axis by axis (decided over the 32 points). -/
theorem index_with4 : ∀ t : Fin cfg0.N,
    win0_0.index t (0 : Fin 3) = win0_4.index t (0 : Fin 3) ∧ win0_0.index t (1 : Fin 3) = win0_4.index t (1 : Fin 3) ∧ win0_0.index t (2 : Fin 3) = win0_4.index t (2 : Fin 3)
    ∧ win0_1.index t (0 : Fin 3) = win0_4.index t (0 : Fin 3) ∧ win0_1.index t (1 : Fin 3) = win0_4.index t (1 : Fin 3) ∧ win0_1.index t (2 : Fin 3) = win0_4.index t (2 : Fin 3)
    ∧ win0_2.index t (0 : Fin 3) = win0_4.index t (0 : Fin 3) ∧ win0_2.index t (1 : Fin 3) = win0_4.index t (1 : Fin 3) ∧ win0_2.index t (2 : Fin 3) = win0_4.index t (2 : Fin 3)
    ∧ win0_3.index t (0 : Fin 3) = win0_4.index t (0 : Fin 3) ∧ win0_3.index t (1 : Fin 3) = win0_4.index t (1 : Fin 3) ∧ win0_3.index t (2 : Fin 3) = win0_4.index t (2 : Fin 3) :=
  (by decide +kernel : ∀ t : Fin grid0.N, _)

/-- What point `t` writes back to the first output is block `t` of `G4` of the four arrays as the region finds them. -/
theorem flushed4_eq (c : Dev nD) (t : Fin cfg0.N) :
    (dats m 0 c).flushed 4 t = ((cfg0.win 4).blk t).view.read (Elt F) (G4 (V m c main_call0_v44) (V m c main_call0_v53) (V m c main_arg2) (V m c main_arg3)) := by
  rw [flushed4]
  funext j
  show out0_4 (iblk m c 0 t) (iblk m c 1 t) (iblk m c 2 t) (iblk m c 3 t) ((cfg0.win 4).xinj (grid0.coords t) j)
    = G4 (V m c main_call0_v44) (V m c main_call0_v53) (V m c main_arg2) (V m c main_arg3) (((cfg0.win 4).blk t).view.emb j)
  rw [out0_4_apply, G4_apply, iblk0_at, iblk1_at, iblk2_at, iblk3_at]
  obtain ⟨e00, e01, e02, e10, e11, e12, e20, e21, e22, e30, e31, e32⟩ := index_with4 t
  have hj0 : (j 0).val < 8 := (j 0).isLt
  have hj1 : (j 1).val < 256 := (j 1).isLt
  have hj2 : (j 2).val < 256 := (j 2).isLt
  have h0 : ((cfg0.win 0).blk t).view.emb ((cfg0.win 4).xinj (grid0.coords t) j) = ((cfg0.win 4).blk t).view.emb j := by
    funext a; apply Fin.ext
    match a with
    | ⟨0, _⟩ => show win0_0.index t (0 : Fin 3) * 8 + 1 * (j 0).val = win0_4.index t (0 : Fin 3) * 8 + 1 * (j 0).val; omega
    | ⟨1, _⟩ => show win0_0.index t (1 : Fin 3) * 256 + 1 * (j 1).val = win0_4.index t (1 : Fin 3) * 256 + 1 * (j 1).val; omega
    | ⟨2, _⟩ => show win0_0.index t (2 : Fin 3) * 256 + 1 * (j 2).val = win0_4.index t (2 : Fin 3) * 256 + 1 * (j 2).val; omega
  have h1 : ((cfg0.win 1).blk t).view.emb ((cfg0.win 4).xinj (grid0.coords t) j) = ((cfg0.win 4).blk t).view.emb j := by
    funext a; apply Fin.ext
    match a with
    | ⟨0, _⟩ => show win0_1.index t (0 : Fin 3) * 8 + 1 * (j 0).val = win0_4.index t (0 : Fin 3) * 8 + 1 * (j 0).val; omega
    | ⟨1, _⟩ => show win0_1.index t (1 : Fin 3) * 256 + 1 * (j 1).val = win0_4.index t (1 : Fin 3) * 256 + 1 * (j 1).val; omega
    | ⟨2, _⟩ => show win0_1.index t (2 : Fin 3) * 256 + 1 * (j 2).val = win0_4.index t (2 : Fin 3) * 256 + 1 * (j 2).val; omega
  have h2 : ((cfg0.win 2).blk t).view.emb ((cfg0.win 4).xinj (grid0.coords t) j) = ((cfg0.win 4).blk t).view.emb j := by
    funext a; apply Fin.ext
    match a with
    | ⟨0, _⟩ => show win0_2.index t (0 : Fin 3) * 8 + 1 * (j 0).val = win0_4.index t (0 : Fin 3) * 8 + 1 * (j 0).val; omega
    | ⟨1, _⟩ => show win0_2.index t (1 : Fin 3) * 256 + 1 * (j 1).val = win0_4.index t (1 : Fin 3) * 256 + 1 * (j 1).val; omega
    | ⟨2, _⟩ => show win0_2.index t (2 : Fin 3) * 256 + 1 * (j 2).val = win0_4.index t (2 : Fin 3) * 256 + 1 * (j 2).val; omega
  have h3 : ((cfg0.win 3).blk t).view.emb ((cfg0.win 4).xinj (grid0.coords t) j) = ((cfg0.win 4).blk t).view.emb j := by
    funext a; apply Fin.ext
    match a with
    | ⟨0, _⟩ => show win0_3.index t (0 : Fin 3) * 8 + 1 * (j 0).val = win0_4.index t (0 : Fin 3) * 8 + 1 * (j 0).val; omega
    | ⟨1, _⟩ => show win0_3.index t (1 : Fin 3) * 256 + 1 * (j 1).val = win0_4.index t (1 : Fin 3) * 256 + 1 * (j 1).val; omega
    | ⟨2, _⟩ => show win0_3.index t (2 : Fin 3) * 256 + 1 * (j 2).val = win0_4.index t (2 : Fin 3) * 256 + 1 * (j 2).val; omega
  rw [h0, h1, h2, h3]

/-- A voxel is in point `t`'s block of this output iff each coordinate is in the block's range on its axis. -/
theorem mem_blk4 (t : Fin cfg0.N) (i : S256x256x256.Idx) :
    i ∈ ((cfg0.win 4).blk t).view.set ↔ ∀ a : Fin 3, win0_4.index t a * S8x256x256.size a ≤ (i a).val ∧ (i a).val < win0_4.index t a * S8x256x256.size a + S8x256x256.size a := by
  show i ∈ ((View.whole main_v0_0).slice (win0_4.rect t)).set ↔ _
  rw [View.set_slice_whole, Rect.mem_set_unit]
  exact Iff.rfl

/-- Every row block is some point's: block `q` of the first axis, all of the other two (decided over the 32 blocks). -/
theorem index_onto4 : ∀ q : Fin 32, ∃ t : Fin cfg0.N, win0_4.index t = ![q.val, 0, 0] :=
  (by decide +kernel : ∀ q : Fin 32, ∃ t : Fin grid0.N, win0_4.index t = ![q.val, 0, 0])

/-- The 32 blocks tile the array: voxel `i` is in the block of the point whose row block is `(i 0) / 8`. -/
theorem cover4 (i : S256x256x256.Idx) :
    ∃ t : Fin cfg0.N, (cfg0.win 4).flush t = true ∧ i ∈ ((cfg0.win 4).blk t).view.set := by
  have hi0 : (i 0).val < 256 := (i 0).isLt
  have hi1 : (i 1).val < 256 := (i 1).isLt
  have hi2 : (i 2).val < 256 := (i 2).isLt
  obtain ⟨t, ht⟩ := index_onto4 ⟨(i 0).val / 8, by omega⟩
  have q0 : win0_4.index t (0 : Fin 3) = (i 0).val / 8 := congrFun ht 0
  have q1 : win0_4.index t (1 : Fin 3) = 0 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 256 ≤ (i 1).val ∧ (i 1).val < win0_4.index t (1 : Fin 3) * 256 + 256; omega
  | ⟨2, _⟩ => show win0_4.index t (2 : Fin 3) * 256 ≤ (i 2).val ∧ (i 2).val < win0_4.index t (2 : Fin 3) * 256 + 256; omega

/-- The first output array after the run is `G4` of the four arrays as the region finds them. -/
theorem final4 (c : Dev nD) :
    (dats m 0 c).arrAt 4 cfg0.N = G4 (V m c main_call0_v44) (V m c main_call0_v53) (V m c main_arg2) (V m c main_arg3) :=
  (dats m 0 c).arrAt_eq_of_cover 4 (G4 (V m c main_call0_v44) (V m c main_call0_v53) (V m c main_arg2) (V m c main_arg3))
    (fun t _ => flushed4_eq m c t) cover4

/-! ## The second output -/

/-- The two input windows the count reads have the second output's index map at every grid point, axis by axis (decided over the 32 points). -/
theorem index_with5 : ∀ t : Fin cfg0.N,
    win0_1.index t (0 : Fin 3) = win0_5.index t (0 : Fin 3) ∧ win0_1.index t (1 : Fin 3) = win0_5.index t (1 : Fin 3) ∧ win0_1.index t (2 : Fin 3) = win0_5.index t (2 : Fin 3)
    ∧ win0_3.index t (0 : Fin 3) = win0_5.index t (0 : Fin 3) ∧ win0_3.index t (1 : Fin 3) = win0_5.index t (1 : Fin 3) ∧ win0_3.index t (2 : Fin 3) = win0_5.index t (2 : Fin 3) :=
  (by decide +kernel : ∀ t : Fin grid0.N, _)

/-- What point `t` writes back to the second output is block `t` of `G5` of the weight and the count arrays as the region finds them. -/
theorem flushed5_eq (c : Dev nD) (t : Fin cfg0.N) :
    (dats m 0 c).flushed 5 t = ((cfg0.win 5).blk t).view.read (Elt F) (G5 (V m c main_call0_v53) (V m c main_arg3)) := by
  rw [flushed5]
  funext j
  show out0_5 (iblk m c 0 t) (iblk m c 1 t) (iblk m c 2 t) (iblk m c 3 t) ((cfg0.win 5).xinj (grid0.coords t) j)
    = G5 (V m c main_call0_v53) (V m c main_arg3) (((cfg0.win 5).blk t).view.emb j)
  rw [out0_5_apply, G5_apply, iblk1_at, iblk3_at]
  obtain ⟨e10, e11, e12, e30, e31, e32⟩ := index_with5 t
  have hj0 : (j 0).val < 8 := (j 0).isLt
  have hj1 : (j 1).val < 256 := (j 1).isLt
  have hj2 : (j 2).val < 256 := (j 2).isLt
  have h1 : ((cfg0.win 1).blk t).view.emb ((cfg0.win 5).xinj (grid0.coords t) j) = ((cfg0.win 5).blk t).view.emb j := by
    funext a; apply Fin.ext
    match a with
    | ⟨0, _⟩ => show win0_1.index t (0 : Fin 3) * 8 + 1 * (j 0).val = win0_5.index t (0 : Fin 3) * 8 + 1 * (j 0).val; omega
    | ⟨1, _⟩ => show win0_1.index t (1 : Fin 3) * 256 + 1 * (j 1).val = win0_5.index t (1 : Fin 3) * 256 + 1 * (j 1).val; omega
    | ⟨2, _⟩ => show win0_1.index t (2 : Fin 3) * 256 + 1 * (j 2).val = win0_5.index t (2 : Fin 3) * 256 + 1 * (j 2).val; omega
  have h3 : ((cfg0.win 3).blk t).view.emb ((cfg0.win 5).xinj (grid0.coords t) j) = ((cfg0.win 5).blk t).view.emb j := by
    funext a; apply Fin.ext
    match a with
    | ⟨0, _⟩ => show win0_3.index t (0 : Fin 3) * 8 + 1 * (j 0).val = win0_5.index t (0 : Fin 3) * 8 + 1 * (j 0).val; omega
    | ⟨1, _⟩ => show win0_3.index t (1 : Fin 3) * 256 + 1 * (j 1).val = win0_5.index t (1 : Fin 3) * 256 + 1 * (j 1).val; omega
    | ⟨2, _⟩ => show win0_3.index t (2 : Fin 3) * 256 + 1 * (j 2).val = win0_5.index t (2 : Fin 3) * 256 + 1 * (j 2).val; omega
  rw [h1, h3]

/-- A voxel is in point `t`'s block of this output iff each coordinate is in the block's range on its axis. -/
theorem mem_blk5 (t : Fin cfg0.N) (i : S256x256x256.Idx) :
    i ∈ ((cfg0.win 5).blk t).view.set ↔ ∀ a : Fin 3, win0_5.index t a * S8x256x256.size a ≤ (i a).val ∧ (i a).val < win0_5.index t a * S8x256x256.size a + S8x256x256.size a := by
  show i ∈ ((View.whole main_v0_1).slice (win0_5.rect t)).set ↔ _
  rw [View.set_slice_whole, Rect.mem_set_unit]
  exact Iff.rfl

/-- Every row block is some point's: block `q` of the first axis, all of the other two (decided over the 32 blocks). -/
theorem index_onto5 : ∀ q : Fin 32, ∃ t : Fin cfg0.N, win0_5.index t = ![q.val, 0, 0] :=
  (by decide +kernel : ∀ q : Fin 32, ∃ t : Fin grid0.N, win0_5.index t = ![q.val, 0, 0])

/-- The 32 blocks tile the array: voxel `i` is in the block of the point whose row block is `(i 0) / 8`. -/
theorem cover5 (i : S256x256x256.Idx) :
    ∃ t : Fin cfg0.N, (cfg0.win 5).flush t = true ∧ i ∈ ((cfg0.win 5).blk t).view.set := by
  have hi0 : (i 0).val < 256 := (i 0).isLt
  have hi1 : (i 1).val < 256 := (i 1).isLt
  have hi2 : (i 2).val < 256 := (i 2).isLt
  obtain ⟨t, ht⟩ := index_onto5 ⟨(i 0).val / 8, by omega⟩
  have q0 : win0_5.index t (0 : Fin 3) = (i 0).val / 8 := congrFun ht 0
  have q1 : win0_5.index t (1 : Fin 3) = 0 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 8 ≤ (i 0).val ∧ (i 0).val < win0_5.index t (0 : Fin 3) * 8 + 8; omega
  | ⟨1, _⟩ => show win0_5.index t (1 : Fin 3) * 256 ≤ (i 1).val ∧ (i 1).val < win0_5.index t (1 : Fin 3) * 256 + 256; omega
  | ⟨2, _⟩ => show win0_5.index t (2 : Fin 3) * 256 ≤ (i 2).val ∧ (i 2).val < win0_5.index t (2 : Fin 3) * 256 + 256; omega

/-- The second output array after the run is `G5` of the accumulated weight and the count volume as the region finds them. -/
theorem final5 (c : Dev nD) :
    (dats m 0 c).arrAt 5 cfg0.N = G5 (V m c main_call0_v53) (V m c main_arg3) :=
  (dats m 0 c).arrAt_eq_of_cover 5 (G5 (V m c main_call0_v53) (V m c main_arg3))
    (fun t _ => flushed5_eq m c t) cover5

/-- The run, each output array at its whole-array function, the arguments unchanged. -/
theorem run_arrays : θ_run defs (onTc (τ := τ) (main (F := F))) ⟨m, fun _ => 0, ρ⟩ fun r => ∀ c : Dev nD,
      r.2.mem ((c : Thread nD τ).loc main_v0_0) = G4 (V m c main_call0_v44) (V m c main_call0_v53) (V m c main_arg2) (V m c main_arg3)
      ∧ r.2.mem ((c : Thread nD τ).loc main_v0_1) = G5 (V m c main_call0_v53) (V m c main_arg3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Cert.KernelIdeal.Arr

end
-- ==== Proof.KernelStages.lean ====
/-
  The host side of the kernel's program before its one region, as stages. From the index array it takes each of the
  three coordinate channels of every point (a slice of the last axis, flattened), tests each against `[0, 256)`,
  conjoins the six tests into the validity bit, forms the flat voxel word `(c₀·256 + c₁)·256 + c₂`, routes invalid
  points to slot 0, normalises the word as jnp does before a scatter (a negative index has the buffer length 2²⁴
  added), and scatter-adds from zero, over the 2²⁴ voxels, the feature where valid (else an exact zero) and the
  validity bit read as a number. The two accumulated arrays, reshaped to the volume, are what the region's first
  two windows stage.
-/
import proofs.«410749_j41850161332390_3_alg».proof.Proof.Gen.KernelIdeal

noncomputable section

namespace Cert.KernelIdeal.Host

open Cert.KernelIdeal Cert.KernelIdeal.Gen Idealize.ShloMosaic

variable {F : FTy → Type} [FloatOps F]

/-- The features, flat. -/
def kFeat (x0 : FVec F S32x512x512 .f32) : FVec F S8388608 .f32 := shapeCast _ x0 shapeCasts_S32x512x512_S8388608

/-- Coordinate channel 0 of every point, flat. -/
def kC0 (x1 : IVec S32x512x512x3 32) : IVec S8388608 32 :=
  shapeCast _ (shapeCast _ (extractStridedSlice S32x512x512x1 ![0, 0, 0, 0] x1 slices_S32x512x512x3_S32x512x512x1_0_0_0_0) shapeCasts_S32x512x512x1_S32x512x512) shapeCasts_S32x512x512_S8388608
/-- Coordinate channel 1 of every point, flat. -/
def kC1 (x1 : IVec S32x512x512x3 32) : IVec S8388608 32 :=
  shapeCast _ (shapeCast _ (extractStridedSlice S32x512x512x1 ![0, 0, 0, 1] x1 slices_S32x512x512x3_S32x512x512x1_0_0_0_1) shapeCasts_S32x512x512x1_S32x512x512) shapeCasts_S32x512x512_S8388608
/-- Coordinate channel 2 of every point, flat. -/
def kC2 (x1 : IVec S32x512x512x3 32) : IVec S8388608 32 :=
  shapeCast _ (shapeCast _ (extractStridedSlice S32x512x512x1 ![0, 0, 0, 2] x1 slices_S32x512x512x3_S32x512x512x1_0_0_0_2) shapeCasts_S32x512x512x1_S32x512x512) shapeCasts_S32x512x512_S8388608

/-- A constant word at every point. -/
def kConst (w : BitVec 32) : IVec S8388608 32 := broadcastInDim S8388608 ![] bcast_S_S8388608 (constantI S_ 32 w)

/-- The validity bit: the six range tests conjoined left to right. -/
def kValid (x1 : IVec S32x512x512x3 32) : IVec S8388608 1 :=
  andi (andi (andi (andi (andi (cmpi .sge (kC0 x1) (kConst 0#32)) (cmpi .slt (kC0 x1) (kConst 256#32)))
    (cmpi .sge (kC1 x1) (kConst 0#32))) (cmpi .slt (kC1 x1) (kConst 256#32)))
    (cmpi .sge (kC2 x1) (kConst 0#32))) (cmpi .slt (kC2 x1) (kConst 256#32))

/-- The flat voxel word. -/
def kRaw (x1 : IVec S32x512x512x3 32) : IVec S8388608 32 :=
  addi (muli (addi (muli (kC0 x1) (kConst 256#32)) (kC1 x1)) (kConst 256#32)) (kC2 x1)

/-- Valid points keep their word, invalid ones go to slot 0. -/
def kFlat (x1 : IVec S32x512x512x3 32) : IVec S8388608 32 :=
  select (kValid x1) (kRaw x1) (broadcastInDim S8388608 ![] bcast_S_S8388608 (id (constantI S_ 32 0#32)))

/-- The word as normalised before a scatter over 2²⁴ entries. -/
def kWord (x1 : IVec S32x512x512x3 32) : IVec S8388608 32 :=
  select (cmpi .slt (kFlat x1) (kConst 0#32)) (addi (kFlat x1) (kConst 16777216#32)) (kFlat x1)

/-- The scatter indices: the words as an [n × 1] column. -/
def kCol (x1 : IVec S32x512x512x3 32) : IVec S8388608x1 32 :=
  broadcastInDim S8388608x1 ![0] bcast_S8388608_S8388608x1_0 (kWord x1)

/-- Zero at every voxel. -/
def kZeros : FVec F S16777216 .f32 := broadcastInDim S16777216 ![] bcast_S_S16777216 (constant S_ .f32 0x00000000#32)

/-- The feature where the point is valid, an exact zero elsewhere. -/
def kFvals (x0 : FVec F S32x512x512 .f32) (x1 : IVec S32x512x512x3 32) : FVec F S8388608 .f32 :=
  select (kValid x1) (kFeat x0) (broadcastInDim S8388608 ![] bcast_S_S8388608 (constant S_ .f32 0x00000000#32))

/-- The validity bit read as a number. -/
def kFw (x1 : IVec S32x512x512x3 32) : FVec F S8388608 .f32 := uitofp (F := F) .f32 (kValid x1)

/-- The accumulated feature, as a volume. -/
def kFc (x0 : FVec F S32x512x512 .f32) (x1 : IVec S32x512x512x3 32) : FVec F S256x256x256 .f32 :=
  shapeCast _ (Host.scatterAdd scatter_S16777216_S8388608x1_S8388608_n_0_0_1 (kZeros (F := F)) (kCol x1) (kFvals x0 x1)) shapeCasts_S16777216_S256x256x256

/-- The accumulated weight, as a volume. -/
def kWc (x1 : IVec S32x512x512x3 32) : FVec F S256x256x256 .f32 :=
  shapeCast _ (Host.scatterAdd scatter_S16777216_S8388608x1_S8388608_n_0_0_1 (kZeros (F := F)) (kCol x1) (kFw (F := F) x1)) shapeCasts_S16777216_S256x256x256

end Cert.KernelIdeal.Host

end
-- ==== Proof.KernelHost.lean ====
/-
  What the region finds in its first two windows' arrays. The region-entry contents are the fold of the 75 host
  operations over the launch memory; that list is cut into six consecutive stretches (A, B, C, D, E, Z), each short enough
  to be read back operation by operation, and the stretches are joined again: the contents after two stretches in a
  row are the second stretch's over the first's. Every buffer is written once, so a buffer keeps through the later
  stretches what the stretch that wrote it left. Read this way the two staged arrays are the accumulated feature
  and the accumulated weight of the launch memory's feature and index arrays.
-/
import proofs.«410749_j41850161332390_3_alg».proof.Proof.Gen.KernelIdeal.Frame
import proofs.«410749_j41850161332390_3_alg».proof.Proof.KernelStages
import Idealize.ShloMosaic.Lib.StableHlo.Run
import Idealize.ShloMosaic.Lib.Pipeline.Frame

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- Stretch A: the feature reshape and the three coordinate channels. -/
abbrev opsA : List (HloOp τ sig (Elt F)) :=
  [ StableHlo.TRef.reshape (.of main_arg0 : StableHlo.TRef sig ⟨S32x512x512, .f32⟩) (.of main_call0_v0 : StableHlo.TRef sig ⟨S8388608, .f32⟩) rfl shapeCasts_S32x512x512_S8388608,
    StableHlo.TRef.unary (.of main_arg1 : StableHlo.TRef sig ⟨S32x512x512x3, .i32⟩) (.of main_call0_v1 : StableHlo.TRef sig ⟨S32x512x512x1, .i32⟩) (extractStridedSlice S32x512x512x1 ![0, 0, 0, 0] · slices_S32x512x512x3_S32x512x512x1_0_0_0_0),
    StableHlo.TRef.reshape (.of main_call0_v1 : StableHlo.TRef sig ⟨S32x512x512x1, .i32⟩) (.of main_call0_v2 : StableHlo.TRef sig ⟨S32x512x512, .i32⟩) rfl shapeCasts_S32x512x512x1_S32x512x512,
    StableHlo.TRef.reshape (.of main_call0_v2 : StableHlo.TRef sig ⟨S32x512x512, .i32⟩) (.of main_call0_v3 : StableHlo.TRef sig ⟨S8388608, .i32⟩) rfl shapeCasts_S32x512x512_S8388608,
    StableHlo.TRef.unary (.of main_arg1 : StableHlo.TRef sig ⟨S32x512x512x3, .i32⟩) (.of main_call0_v4 : StableHlo.TRef sig ⟨S32x512x512x1, .i32⟩) (extractStridedSlice S32x512x512x1 ![0, 0, 0, 1] · slices_S32x512x512x3_S32x512x512x1_0_0_0_1),
    StableHlo.TRef.reshape (.of main_call0_v4 : StableHlo.TRef sig ⟨S32x512x512x1, .i32⟩) (.of main_call0_v5 : StableHlo.TRef sig ⟨S32x512x512, .i32⟩) rfl shapeCasts_S32x512x512x1_S32x512x512,
    StableHlo.TRef.reshape (.of main_call0_v5 : StableHlo.TRef sig ⟨S32x512x512, .i32⟩) (.of main_call0_v6 : StableHlo.TRef sig ⟨S8388608, .i32⟩) rfl shapeCasts_S32x512x512_S8388608,
    StableHlo.TRef.unary (.of main_arg1 : StableHlo.TRef sig ⟨S32x512x512x3, .i32⟩) (.of main_call0_v7 : StableHlo.TRef sig ⟨S32x512x512x1, .i32⟩) (extractStridedSlice S32x512x512x1 ![0, 0, 0, 2] · slices_S32x512x512x3_S32x512x512x1_0_0_0_2),
    StableHlo.TRef.reshape (.of main_call0_v7 : StableHlo.TRef sig ⟨S32x512x512x1, .i32⟩) (.of main_call0_v8 : StableHlo.TRef sig ⟨S32x512x512, .i32⟩) rfl shapeCasts_S32x512x512x1_S32x512x512,
    StableHlo.TRef.reshape (.of main_call0_v8 : StableHlo.TRef sig ⟨S32x512x512, .i32⟩) (.of main_call0_v9 : StableHlo.TRef sig ⟨S8388608, .i32⟩) rfl shapeCasts_S32x512x512_S8388608 ]

/-- Stretch B: the six range tests and their conjunction. -/
abbrev opsB : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v10 : StableHlo.TRef sig ⟨S8388608, .i32⟩) (broadcastInDim S8388608 ![] bcast_S_S8388608),
    StableHlo.TRef.binary (.of main_call0_v3 : StableHlo.TRef sig ⟨S8388608, .i32⟩) (.of main_call0_v10 : StableHlo.TRef sig ⟨S8388608, .i32⟩) (.of main_call0_v11 : StableHlo.TRef sig ⟨S8388608, .i1⟩) (cmpi .sge),
    StableHlo.TRef.nullary (.of main_call0_c_0 : StableHlo.TRef sig ⟨S_, .i32⟩) (constantI S_ 32 256#32),
    StableHlo.TRef.unary (.of main_call0_c_0 : StableHlo.TRef sig ⟨S_, .i32⟩) (.of main_call0_v12 : StableHlo.TRef sig ⟨S8388608, .i32⟩) (broadcastInDim S8388608 ![] bcast_S_S8388608),
    StableHlo.TRef.binary (.of main_call0_v3 : StableHlo.TRef sig ⟨S8388608, .i32⟩) (.of main_call0_v12 : StableHlo.TRef sig ⟨S8388608, .i32⟩) (.of main_call0_v13 : StableHlo.TRef sig ⟨S8388608, .i1⟩) (cmpi .slt),
    StableHlo.TRef.binary (.of main_call0_v11 : StableHlo.TRef sig ⟨S8388608, .i1⟩) (.of main_call0_v13 : StableHlo.TRef sig ⟨S8388608, .i1⟩) (.of main_call0_v14 : StableHlo.TRef sig ⟨S8388608, .i1⟩) andi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v15 : StableHlo.TRef sig ⟨S8388608, .i32⟩) (broadcastInDim S8388608 ![] bcast_S_S8388608),
    StableHlo.TRef.binary (.of main_call0_v6 : StableHlo.TRef sig ⟨S8388608, .i32⟩) (.of main_call0_v15 : StableHlo.TRef sig ⟨S8388608, .i32⟩) (.of main_call0_v16 : StableHlo.TRef sig ⟨S8388608, .i1⟩) (cmpi .sge),
    StableHlo.TRef.binary (.of main_call0_v14 : StableHlo.TRef sig ⟨S8388608, .i1⟩) (.of main_call0_v16 : StableHlo.TRef sig ⟨S8388608, .i1⟩) (.of main_call0_v17 : StableHlo.TRef sig ⟨S8388608, .i1⟩) andi,
    StableHlo.TRef.nullary (.of main_call0_c_2 : StableHlo.TRef sig ⟨S_, .i32⟩) (constantI S_ 32 256#32),
    StableHlo.TRef.unary (.of main_call0_c_2 : StableHlo.TRef sig ⟨S_, .i32⟩) (.of main_call0_v18 : StableHlo.TRef sig ⟨S8388608, .i32⟩) (broadcastInDim S8388608 ![] bcast_S_S8388608),
    StableHlo.TRef.binary (.of main_call0_v6 : StableHlo.TRef sig ⟨S8388608, .i32⟩) (.of main_call0_v18 : StableHlo.TRef sig ⟨S8388608, .i32⟩) (.of main_call0_v19 : StableHlo.TRef sig ⟨S8388608, .i1⟩) (cmpi .slt),
    StableHlo.TRef.binary (.of main_call0_v17 : StableHlo.TRef sig ⟨S8388608, .i1⟩) (.of main_call0_v19 : StableHlo.TRef sig ⟨S8388608, .i1⟩) (.of main_call0_v20 : StableHlo.TRef sig ⟨S8388608, .i1⟩) andi,
    StableHlo.TRef.nullary (.of main_call0_c_3 : StableHlo.TRef sig ⟨S_, .i32⟩) (constantI S_ 32 0#32),
    StableHlo.TRef.unary (.of main_call0_c_3 : StableHlo.TRef sig ⟨S_, .i32⟩) (.of main_call0_v21 : StableHlo.TRef sig ⟨S8388608, .i32⟩) (broadcastInDim S8388608 ![] bcast_S_S8388608),
    StableHlo.TRef.binary (.of main_call0_v9 : StableHlo.TRef sig ⟨S8388608, .i32⟩) (.of main_call0_v21 : StableHlo.TRef sig ⟨S8388608, .i32⟩) (.of main_call0_v22 : StableHlo.TRef sig ⟨S8388608, .i1⟩) (cmpi .sge),
    StableHlo.TRef.binary (.of main_call0_v20 : StableHlo.TRef sig ⟨S8388608, .i1⟩) (.of main_call0_v22 : StableHlo.TRef sig ⟨S8388608, .i1⟩) (.of main_call0_v23 : StableHlo.TRef sig ⟨S8388608, .i1⟩) andi,
    StableHlo.TRef.nullary (.of main_call0_c_4 : StableHlo.TRef sig ⟨S_, .i32⟩) (constantI S_ 32 256#32),
    StableHlo.TRef.unary (.of main_call0_c_4 : StableHlo.TRef sig ⟨S_, .i32⟩) (.of main_call0_v24 : StableHlo.TRef sig ⟨S8388608, .i32⟩) (broadcastInDim S8388608 ![] bcast_S_S8388608),
    StableHlo.TRef.binary (.of main_call0_v9 : StableHlo.TRef sig ⟨S8388608, .i32⟩) (.of main_call0_v24 : StableHlo.TRef sig ⟨S8388608, .i32⟩) (.of main_call0_v25 : StableHlo.TRef sig ⟨S8388608, .i1⟩) (cmpi .slt),
    StableHlo.TRef.binary (.of main_call0_v23 : StableHlo.TRef sig ⟨S8388608, .i1⟩) (.of main_call0_v25 : StableHlo.TRef sig ⟨S8388608, .i1⟩) (.of main_call0_v26 : StableHlo.TRef sig ⟨S8388608, .i1⟩) andi ]

/-- Stretch C: the flat word, its routing to slot 0, the masked feature and the weight. -/
abbrev opsC : List (HloOp τ sig (Elt F)) :=
  [ StableHlo.TRef.nullary (.of main_call0_c_5 : StableHlo.TRef sig ⟨S_, .i32⟩) (constantI S_ 32 256#32),
    StableHlo.TRef.unary (.of main_call0_c_5 : StableHlo.TRef sig ⟨S_, .i32⟩) (.of main_call0_v27 : StableHlo.TRef sig ⟨S8388608, .i32⟩) (broadcastInDim S8388608 ![] bcast_S_S8388608),
    StableHlo.TRef.binary (.of main_call0_v3 : StableHlo.TRef sig ⟨S8388608, .i32⟩) (.of main_call0_v27 : StableHlo.TRef sig ⟨S8388608, .i32⟩) (.of main_call0_v28 : StableHlo.TRef sig ⟨S8388608, .i32⟩) muli,
    StableHlo.TRef.binary (.of main_call0_v28 : StableHlo.TRef sig ⟨S8388608, .i32⟩) (.of main_call0_v6 : StableHlo.TRef sig ⟨S8388608, .i32⟩) (.of main_call0_v29 : StableHlo.TRef sig ⟨S8388608, .i32⟩) addi,
    StableHlo.TRef.nullary (.of main_call0_c_6 : StableHlo.TRef sig ⟨S_, .i32⟩) (constantI S_ 32 256#32),
    StableHlo.TRef.unary (.of main_call0_c_6 : StableHlo.TRef sig ⟨S_, .i32⟩) (.of main_call0_v30 : StableHlo.TRef sig ⟨S8388608, .i32⟩) (broadcastInDim S8388608 ![] bcast_S_S8388608),
    StableHlo.TRef.binary (.of main_call0_v29 : StableHlo.TRef sig ⟨S8388608, .i32⟩) (.of main_call0_v30 : StableHlo.TRef sig ⟨S8388608, .i32⟩) (.of main_call0_v31 : StableHlo.TRef sig ⟨S8388608, .i32⟩) muli,
    StableHlo.TRef.binary (.of main_call0_v31 : StableHlo.TRef sig ⟨S8388608, .i32⟩) (.of main_call0_v9 : StableHlo.TRef sig ⟨S8388608, .i32⟩) (.of main_call0_v32 : StableHlo.TRef sig ⟨S8388608, .i32⟩) addi,
    StableHlo.TRef.nullary (.of main_call0_c_7 : StableHlo.TRef sig ⟨S_, .i32⟩) (constantI S_ 32 0#32),
    StableHlo.TRef.unary (.of main_call0_c_7 : StableHlo.TRef sig ⟨S_, .i32⟩) (.of main_call0_call0_v0 : StableHlo.TRef sig ⟨S_, .i32⟩) id,
    StableHlo.TRef.unary (.of main_call0_call0_v0 : StableHlo.TRef sig ⟨S_, .i32⟩) (.of main_call0_call0_v1 : StableHlo.TRef sig ⟨S8388608, .i32⟩) (broadcastInDim S8388608 ![] bcast_S_S8388608),
    StableHlo.TRef.ternary (.of main_call0_v26 : StableHlo.TRef sig ⟨S8388608, .i1⟩) (.of main_call0_v32 : StableHlo.TRef sig ⟨S8388608, .i32⟩) (.of main_call0_call0_v1 : StableHlo.TRef sig ⟨S8388608, .i32⟩) (.of main_call0_v33 : StableHlo.TRef sig ⟨S8388608, .i32⟩) select,
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_call1_v0 : StableHlo.TRef sig ⟨S8388608, .f32⟩) (broadcastInDim S8388608 ![] bcast_S_S8388608),
    StableHlo.TRef.ternary (.of main_call0_v26 : StableHlo.TRef sig ⟨S8388608, .i1⟩) (.of main_call0_v0 : StableHlo.TRef sig ⟨S8388608, .f32⟩) (.of main_call0_call1_v0 : StableHlo.TRef sig ⟨S8388608, .f32⟩) (.of main_call0_v34 : StableHlo.TRef sig ⟨S8388608, .f32⟩) select,
    StableHlo.TRef.unary (.of main_call0_v26 : StableHlo.TRef sig ⟨S8388608, .i1⟩) (.of main_call0_v35 : StableHlo.TRef sig ⟨S8388608, .f32⟩) (uitofp .f32) ]

/-- Stretch D: the first scatter-add (the features) and its reshape. -/
abbrev opsD : List (HloOp τ sig (Elt F)) :=
  [ StableHlo.TRef.nullary (.of main_call0_cst_8 : StableHlo.TRef sig ⟨S_, .f32⟩) (constant S_ .f32 0x00000000#32),
    StableHlo.TRef.unary (.of main_call0_cst_8 : StableHlo.TRef sig ⟨S_, .f32⟩) (.of main_call0_v36 : StableHlo.TRef sig ⟨S16777216, .f32⟩) (broadcastInDim S16777216 ![] bcast_S_S16777216),
    StableHlo.TRef.nullary (.of main_call0_c_9 : StableHlo.TRef sig ⟨S_, .i32⟩) (constantI S_ 32 0#32),
    StableHlo.TRef.unary (.of main_call0_c_9 : StableHlo.TRef sig ⟨S_, .i32⟩) (.of main_call0_v37 : StableHlo.TRef sig ⟨S8388608, .i32⟩) (broadcastInDim S8388608 ![] bcast_S_S8388608),
    StableHlo.TRef.binary main_call0_call0.v2 (.of main_call0_v37 : StableHlo.TRef sig ⟨S8388608, .i32⟩) (.of main_call0_v38 : StableHlo.TRef sig ⟨S8388608, .i1⟩) (cmpi .slt),
    StableHlo.TRef.nullary (.of main_call0_c_10 : StableHlo.TRef sig ⟨S_, .i32⟩) (constantI S_ 32 16777216#32),
    StableHlo.TRef.unary (.of main_call0_c_10 : StableHlo.TRef sig ⟨S_, .i32⟩) (.of main_call0_v39 : StableHlo.TRef sig ⟨S8388608, .i32⟩) (broadcastInDim S8388608 ![] bcast_S_S8388608),
    StableHlo.TRef.binary main_call0_call0.v2 (.of main_call0_v39 : StableHlo.TRef sig ⟨S8388608, .i32⟩) (.of main_call0_v40 : StableHlo.TRef sig ⟨S8388608, .i32⟩) addi,
    StableHlo.TRef.ternary (.of main_call0_v38 : StableHlo.TRef sig ⟨S8388608, .i1⟩) (.of main_call0_v40 : StableHlo.TRef sig ⟨S8388608, .i32⟩) main_call0_call0.v2 (.of main_call0_v41 : StableHlo.TRef sig ⟨S8388608, .i32⟩) select,
    StableHlo.TRef.unary (.of main_call0_v41 : StableHlo.TRef sig ⟨S8388608, .i32⟩) (.of main_call0_v42 : StableHlo.TRef sig ⟨S8388608x1, .i32⟩) (broadcastInDim S8388608x1 ![0] bcast_S8388608_S8388608x1_0),
    StableHlo.TRef.ternary (.of main_call0_v36 : StableHlo.TRef sig ⟨S16777216, .f32⟩) (.of main_call0_v42 : StableHlo.TRef sig ⟨S8388608x1, .i32⟩) main_call0_call1.v1 (.of main_call0_v43 : StableHlo.TRef sig ⟨S16777216, .f32⟩) (fun x i u => Host.scatterAdd scatter_S16777216_S8388608x1_S8388608_n_0_0_1 x i u),
    StableHlo.TRef.reshape (.of main_call0_v43 : StableHlo.TRef sig ⟨S16777216, .f32⟩) (.of main_call0_v44 : StableHlo.TRef sig ⟨S256x256x256, .f32⟩) rfl shapeCasts_S16777216_S256x256x256 ]

/-- Stretch E: the second scatter-add (the weights) and its reshape. -/
abbrev opsE : List (HloOp τ sig (Elt F)) :=
  [ StableHlo.TRef.nullary (.of main_call0_cst_11 : StableHlo.TRef sig ⟨S_, .f32⟩) (constant S_ .f32 0x00000000#32),
    StableHlo.TRef.unary (.of main_call0_cst_11 : StableHlo.TRef sig ⟨S_, .f32⟩) (.of main_call0_v45 : StableHlo.TRef sig ⟨S16777216, .f32⟩) (broadcastInDim S16777216 ![] bcast_S_S16777216),
    StableHlo.TRef.nullary (.of main_call0_c_12 : StableHlo.TRef sig ⟨S_, .i32⟩) (constantI S_ 32 0#32),
    StableHlo.TRef.unary (.of main_call0_c_12 : StableHlo.TRef sig ⟨S_, .i32⟩) (.of main_call0_v46 : StableHlo.TRef sig ⟨S8388608, .i32⟩) (broadcastInDim S8388608 ![] bcast_S_S8388608),
    StableHlo.TRef.binary main_call0_call0.v2 (.of main_call0_v46 : StableHlo.TRef sig ⟨S8388608, .i32⟩) (.of main_call0_v47 : StableHlo.TRef sig ⟨S8388608, .i1⟩) (cmpi .slt),
    StableHlo.TRef.nullary (.of main_call0_c_13 : StableHlo.TRef sig ⟨S_, .i32⟩) (constantI S_ 32 16777216#32),
    StableHlo.TRef.unary (.of main_call0_c_13 : StableHlo.TRef sig ⟨S_, .i32⟩) (.of main_call0_v48 : StableHlo.TRef sig ⟨S8388608, .i32⟩) (broadcastInDim S8388608 ![] bcast_S_S8388608),
    StableHlo.TRef.binary main_call0_call0.v2 (.of main_call0_v48 : StableHlo.TRef sig ⟨S8388608, .i32⟩) (.of main_call0_v49 : StableHlo.TRef sig ⟨S8388608, .i32⟩) addi,
    StableHlo.TRef.ternary (.of main_call0_v47 : StableHlo.TRef sig ⟨S8388608, .i1⟩) (.of main_call0_v49 : StableHlo.TRef sig ⟨S8388608, .i32⟩) main_call0_call0.v2 (.of main_call0_v50 : StableHlo.TRef sig ⟨S8388608, .i32⟩) select,
    StableHlo.TRef.unary (.of main_call0_v50 : StableHlo.TRef sig ⟨S8388608, .i32⟩) (.of main_call0_v51 : StableHlo.TRef sig ⟨S8388608x1, .i32⟩) (broadcastInDim S8388608x1 ![0] bcast_S8388608_S8388608x1_0),
    StableHlo.TRef.ternary (.of main_call0_v45 : StableHlo.TRef sig ⟨S16777216, .f32⟩) (.of main_call0_v51 : StableHlo.TRef sig ⟨S8388608x1, .i32⟩) (.of main_call0_v35 : StableHlo.TRef sig ⟨S8388608, .f32⟩) (.of main_call0_v52 : StableHlo.TRef sig ⟨S16777216, .f32⟩) (fun x i u => Host.scatterAdd scatter_S16777216_S8388608x1_S8388608_n_0_0_1 x i u),
    StableHlo.TRef.reshape (.of main_call0_v52 : StableHlo.TRef sig ⟨S16777216, .f32⟩) (.of main_call0_v53 : StableHlo.TRef sig ⟨S256x256x256, .f32⟩) rfl shapeCasts_S16777216_S256x256x256 ]

/-- Stretch Z: the two copies into the result buffers. -/
abbrev opsZ : List (HloOp τ sig (Elt F)) :=
  [ StableHlo.TRef.unary (.of main_arg2 : StableHlo.TRef sig ⟨S256x256x256, .f32⟩) (.of main_v0_0 : StableHlo.TRef sig ⟨S256x256x256, .f32⟩) id,
    StableHlo.TRef.unary (.of main_arg3 : StableHlo.TRef sig ⟨S256x256x256, .f32⟩) (.of main_v0_1 : StableHlo.TRef sig ⟨S256x256x256, .f32⟩) id ]

/-- The host operations before the region are the six stretches in a row. -/
theorem hostOps0_split : (hostOps0 : List (HloOp τ sig (Elt F))) = opsA ++ (opsB ++ (opsC ++ (opsD ++ (opsE ++ opsZ)))) := rfl

/-! ## The stages over the channels

The validity bit, the flat word and the normalised word as functions of what they are computed from, so that a
stretch's result can be stated over the contents the stretch starts from. -/

/-- The six range tests conjoined left to right, over the three channels. -/
def validOf (c0 c1 c2 : IVec S8388608 32) : IVec S8388608 1 :=
  andi (andi (andi (andi (andi (cmpi .sge c0 (kConst 0#32)) (cmpi .slt c0 (kConst 256#32)))
    (cmpi .sge c1 (kConst 0#32))) (cmpi .slt c1 (kConst 256#32)))
    (cmpi .sge c2 (kConst 0#32))) (cmpi .slt c2 (kConst 256#32))

/-- The flat voxel word, over the three channels. -/
def rawOf (c0 c1 c2 : IVec S8388608 32) : IVec S8388608 32 :=
  addi (muli (addi (muli c0 (kConst 256#32)) c1) (kConst 256#32)) c2

/-- The word as normalised before a scatter over 2²⁴ entries, over the routed word. -/
def wordOf (w : IVec S8388608 32) : IVec S8388608 32 :=
  select (cmpi .slt w (kConst 0#32)) (addi w (kConst 16777216#32)) w

theorem kValid_eq (x1 : IVec S32x512x512x3 32) : kValid x1 = validOf (kC0 x1) (kC1 x1) (kC2 x1) := rfl
theorem kRaw_eq (x1 : IVec S32x512x512x3 32) : kRaw x1 = rawOf (kC0 x1) (kC1 x1) (kC2 x1) := rfl
theorem kWord_eq (x1 : IVec S32x512x512x3 32) : kWord x1 = wordOf (kFlat x1) := rfl

/-! ## Each stretch, from any contents -/

section Stretches

variable (W : Valuation τ sig (Elt F))

/-! Stretch A writes the flat feature and the three flat channels, from the two argument arrays. -/

theorem A_v0 : StableHlo.after opsA W (Proc.devRef .tc main_call0_v0) = kFeat (W (Proc.devRef .tc main_arg0)) := by
  after_results
  rfl

theorem A_v3 : StableHlo.after opsA W (Proc.devRef .tc main_call0_v3) = kC0 (W (Proc.devRef .tc main_arg1)) := by
  after_results
  rfl

theorem A_v6 : StableHlo.after opsA W (Proc.devRef .tc main_call0_v6) = kC1 (W (Proc.devRef .tc main_arg1)) := by
  after_results
  rfl

theorem A_v9 : StableHlo.after opsA W (Proc.devRef .tc main_call0_v9) = kC2 (W (Proc.devRef .tc main_arg1)) := by
  after_results
  rfl

/-! Stretch B writes the validity bit from the three channels, and leaves the channels and the flat feature. -/

theorem B_v26 : StableHlo.after opsB W (Proc.devRef .tc main_call0_v26)
    = validOf (W (Proc.devRef .tc main_call0_v3)) (W (Proc.devRef .tc main_call0_v6)) (W (Proc.devRef .tc main_call0_v9)) := by
  after_results_simp
  rfl

theorem B_v0 : StableHlo.after opsB W (Proc.devRef .tc main_call0_v0) = W (Proc.devRef .tc main_call0_v0) := by
  after_results_simp

theorem B_v3 : StableHlo.after opsB W (Proc.devRef .tc main_call0_v3) = W (Proc.devRef .tc main_call0_v3) := by
  after_results_simp

theorem B_v6 : StableHlo.after opsB W (Proc.devRef .tc main_call0_v6) = W (Proc.devRef .tc main_call0_v6) := by
  after_results_simp

theorem B_v9 : StableHlo.after opsB W (Proc.devRef .tc main_call0_v9) = W (Proc.devRef .tc main_call0_v9) := by
  after_results_simp

/-! Stretch C writes the routed word, the masked feature and the weight, from the validity bit, the channels and
the flat feature. -/

theorem C_v33 : StableHlo.after opsC W (Proc.devRef .tc main_call0_v33)
    = select (W (Proc.devRef .tc main_call0_v26))
        (rawOf (W (Proc.devRef .tc main_call0_v3)) (W (Proc.devRef .tc main_call0_v6)) (W (Proc.devRef .tc main_call0_v9)))
        (broadcastInDim S8388608 ![] bcast_S_S8388608 (id (constantI S_ 32 0#32))) := by
  after_results
  rfl

theorem C_v34 : StableHlo.after opsC W (Proc.devRef .tc main_call0_v34)
    = select (W (Proc.devRef .tc main_call0_v26)) (W (Proc.devRef .tc main_call0_v0))
        (broadcastInDim S8388608 ![] bcast_S_S8388608 (constant S_ .f32 0x00000000#32)) := by
  after_results
  rfl

theorem C_v35 : StableHlo.after opsC W (Proc.devRef .tc main_call0_v35)
    = uitofp (F := F) .f32 (W (Proc.devRef .tc main_call0_v26)) := by
  after_results
  rfl

/-! Stretch D scatter-adds the masked feature at the normalised routed words, and leaves the routed word and the
weight. -/

theorem D_v44 : StableHlo.after opsD W (Proc.devRef .tc main_call0_v44)
    = shapeCast _ (Host.scatterAdd scatter_S16777216_S8388608x1_S8388608_n_0_0_1 (kZeros (F := F))
        (broadcastInDim S8388608x1 ![0] bcast_S8388608_S8388608x1_0 (wordOf (W (Proc.devRef .tc main_call0_v33))))
        (W (Proc.devRef .tc main_call0_v34))) shapeCasts_S16777216_S256x256x256 := by
  after_results
  rfl

theorem D_v33 : StableHlo.after opsD W (Proc.devRef .tc main_call0_v33) = W (Proc.devRef .tc main_call0_v33) := by
  after_results

theorem D_v35 : StableHlo.after opsD W (Proc.devRef .tc main_call0_v35) = W (Proc.devRef .tc main_call0_v35) := by
  after_results

/-! Stretch E scatter-adds the weight at the same words, and leaves the first accumulated array. -/

theorem E_v53 : StableHlo.after opsE W (Proc.devRef .tc main_call0_v53)
    = shapeCast _ (Host.scatterAdd scatter_S16777216_S8388608x1_S8388608_n_0_0_1 (kZeros (F := F))
        (broadcastInDim S8388608x1 ![0] bcast_S8388608_S8388608x1_0 (wordOf (W (Proc.devRef .tc main_call0_v33))))
        (W (Proc.devRef .tc main_call0_v35))) shapeCasts_S16777216_S256x256x256 := by
  after_results
  rfl

theorem E_v44 : StableHlo.after opsE W (Proc.devRef .tc main_call0_v44) = W (Proc.devRef .tc main_call0_v44) := by
  after_results

/-! Stretch Z leaves both accumulated arrays. -/

theorem Z_v44 : StableHlo.after opsZ W (Proc.devRef .tc main_call0_v44) = W (Proc.devRef .tc main_call0_v44) := by
  after_results

theorem Z_v53 : StableHlo.after opsZ W (Proc.devRef .tc main_call0_v53) = W (Proc.devRef .tc main_call0_v53) := by
  after_results

end Stretches

/-! ## The stretches joined -/

variable (m : (ℓ : Loc nD τ sig) → Buf (Elt F) ℓ)

/-- The first window's array, as the region finds it, is the accumulated feature of the launch memory's arrays. -/
theorem V_fc (c : Dev nD) :
    V m c main_call0_v44 = kFc (m ((c : Thread nD τ).loc main_arg0)) (m ((c : Thread nD τ).loc main_arg1)) := by
  show StableHlo.after hostOps0 (fun b => m (c, b)) (Proc.devRef .tc main_call0_v44) = _
  rw [hostOps0_split, StableHlo.after_append, StableHlo.after_append, StableHlo.after_append, StableHlo.after_append,
    StableHlo.after_append]
  rw [Z_v44, E_v44, D_v44, C_v33, C_v34, B_v26, B_v3, B_v6, B_v9, B_v0, A_v0, A_v3, A_v6, A_v9]
  rfl

/-- The second window's array, as the region finds it, is the accumulated weight of the launch memory's index array. -/
theorem V_wc (c : Dev nD) :
    V m c main_call0_v53 = kWc (F := F) (m ((c : Thread nD τ).loc main_arg1)) := by
  show StableHlo.after hostOps0 (fun b => m (c, b)) (Proc.devRef .tc main_call0_v53) = _
  rw [hostOps0_split, StableHlo.after_append, StableHlo.after_append, StableHlo.after_append, StableHlo.after_append,
    StableHlo.after_append]
  rw [Z_v53, E_v53, D_v33, D_v35, C_v33, C_v35, B_v26, B_v3, B_v6, B_v9, A_v3, A_v6, A_v9]
  rfl

end Cert.KernelIdeal.Host

end
-- ==== Proof.IndexWords.lean ====
/-
  Facts about the 32-bit index words of the two programs. A point has a validity bit `b` and a flat voxel word `r`
  that is below 2²⁴ whenever the point is valid. The reference routes invalid points to the dummy slot `2²⁴` of a
  buffer of `2²⁴ + 1` entries, the kernel routes them to slot `0` of a buffer of `2²⁴`; every use then normalises a
  negative index by adding the buffer's length (jnp's negative indexing), and one use first caps the word at `2²⁴ − 1`.
  On a valid point each of these is the word `r` itself; on an invalid point it is the slot the program chose.
-/
import Idealize.ShloMosaic.PureOps.Float

noncomputable section

namespace Cert.IndexWords

open Idealize.ShloMosaic

/-- jnp's index normalisation against a buffer of `len` entries: a negative word has `len` added. -/
def normW (len x : BitVec 32) : BitVec 32 := Scalar.select (IntOp.cmpi .slt x 0#32) (IntOp.addi x len) x

/-- One coordinate is inside the volume: `0 ≤ c` and `c < 256`, signed. -/
def okW (c : BitVec 32) : BitVec 1 := IntOp.andi (IntOp.cmpi .sge c 0#32) (IntOp.cmpi .slt c 256#32)

/-- A coordinate inside the volume is a natural number below 256. -/
theorem toNat_lt_of_okW {c : BitVec 32} (h : okW c = 1#1) : c.toNat < 256 := by
  have h : BitVec.ofBool ((0#32 : BitVec 32).sle c) &&& BitVec.ofBool (c.slt 256#32) = 1#1 := h
  cases hs : (0#32 : BitVec 32).sle c <;> cases ht : c.slt 256#32 <;> rw [hs, ht] at h
  · exact absurd h (by decide)
  · exact absurd h (by decide)
  · exact absurd h (by decide)
  · have hs' : (0#32 : BitVec 32).toInt ≤ c.toInt := by simpa [BitVec.sle] using hs
    have ht' : c.toInt < (256#32 : BitVec 32).toInt := by simpa [BitVec.slt] using ht
    have e0 : (0#32 : BitVec 32).toInt = 0 := by decide
    have e256 : (256#32 : BitVec 32).toInt = 256 := by decide
    rw [e0] at hs'
    rw [e256] at ht'
    rw [BitVec.toInt_eq_toNat_cond] at hs' ht'
    have hlt := c.isLt
    split at hs' <;> split at ht' <;> omega

/-- With all three coordinates inside the volume, the flat voxel word is computed without wrap-around and is below 2²⁴. -/
theorem flat_toNat {c0 c1 c2 : BitVec 32} (h0 : c0.toNat < 256) (h1 : c1.toNat < 256) (h2 : c2.toNat < 256) :
    (IntOp.addi (IntOp.muli (IntOp.addi (IntOp.muli c0 256#32) c1) 256#32) c2).toNat
      = (c0.toNat * 256 + c1.toNat) * 256 + c2.toNat := by
  unfold IntOp.addi IntOp.muli
  simp only [BitVec.toNat_add, BitVec.toNat_mul, BitVec.toNat_ofNat]
  omega

/-- A bit that is `1` in a conjunction of two bits: both are. -/
theorem andi_eq_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

/-- The reference's fold of three bits from `1` (in the order a fold over `Fin 3` takes them) is their conjunction. -/
theorem and3_assoc (a b c : BitVec 1) :
    IntOp.andi (IntOp.andi a b) c = IntOp.andi a (IntOp.andi b (IntOp.andi c 1#1)) := by
  rcases BitVec.eq_zero_or_eq_one a with rfl | rfl <;> rcases BitVec.eq_zero_or_eq_one b with rfl | rfl <;>
    rcases BitVec.eq_zero_or_eq_one c with rfl | rfl <;> decide

/-- The kernel's chain of six comparisons, associated to the left, is the conjunction of the three per-coordinate bits. -/
theorem and6_chain (a0 b0 a1 b1 a2 b2 : BitVec 1) :
    IntOp.andi (IntOp.andi (IntOp.andi (IntOp.andi (IntOp.andi a0 b0) a1) b1) a2) b2
      = IntOp.andi (IntOp.andi (IntOp.andi a0 b0) (IntOp.andi a1 b1)) (IntOp.andi a2 b2) := by
  unfold IntOp.andi
  simp only [BitVec.and_assoc]

/-- A word below 2³¹ read signed is its natural value. -/
theorem toInt_eq_toNat {r : BitVec 32} (h : r.toNat < 2 ^ 31) : r.toInt = (r.toNat : ℤ) := by
  rw [BitVec.toInt_eq_toNat_cond, if_pos (by omega)]

/-- A selection on the bit `1` takes the first branch. -/
theorem select_one {α : Type} (a b : α) : Scalar.select (1#1) a b = a := if_pos rfl

/-- A selection on a bit other than `1` takes the second branch. -/
theorem select_ne_one {α : Type} {c : BitVec 1} (hc : c ≠ 1#1) (a b : α) : Scalar.select c a b = b := if_neg hc

/-- A word below 2³¹ is not negative, so the index normalisation leaves it alone, whatever the buffer's length. -/
theorem normW_of_small (len : BitVec 32) {x : BitVec 32} (h : x.toNat < 2 ^ 31) : normW len x = x := by
  have hx : x.slt 0#32 = false := by
    have e0 : (0#32 : BitVec 32).toInt = 0 := by decide
    simp only [BitVec.slt, toInt_eq_toNat h, e0]
    exact decide_eq_false (by omega)
  show Scalar.select (BitVec.ofBool (x.slt 0#32)) (IntOp.addi x len) x = x
  rw [hx]
  exact if_neg (by decide)

/-- A word below 2²⁴ is at most `2²⁴ − 1`, so capping it there leaves it alone. -/
theorem minsi_cap {r : BitVec 32} (hr : r.toNat < 16777216) : IntOp.minsi r 16777215#32 = r := by
  have e : (16777215#32 : BitVec 32).toInt = 16777215 := by decide
  unfold IntOp.minsi
  split
  · rfl
  · rename_i hc
    simp only [BitVec.slt, toInt_eq_toNat (show r.toNat < 2 ^ 31 by omega), e, decide_eq_true_eq] at hc
    apply BitVec.eq_of_toNat_eq
    simp only [BitVec.toNat_ofNat]
    omega

/-- Reference, valid point: the normalised scatter / gather word is `r`. -/
theorem normW_ref_valid {b : BitVec 1} {r : BitVec 32} (hb : b = 1#1) (hr : r.toNat < 16777216) :
    normW 16777217#32 (Scalar.select b r 16777216#32) = r := by
  subst hb
  rw [select_one]
  exact normW_of_small _ (by omega)

/-- Reference, invalid point: the normalised word is the dummy slot `2²⁴`. -/
theorem normW_ref_invalid {b : BitVec 1} {r : BitVec 32} (hb : b ≠ 1#1) :
    normW 16777217#32 (Scalar.select b r 16777216#32) = 16777216#32 := by
  rw [select_ne_one hb]
  exact normW_of_small _ (by decide)

/-- Reference, valid point: the word capped at `2²⁴ − 1` and normalised against `2²⁴` entries is `r`. -/
theorem normW_ref_capped_valid {b : BitVec 1} {r : BitVec 32} (hb : b = 1#1) (hr : r.toNat < 16777216) :
    normW 16777216#32 (IntOp.minsi (Scalar.select b r 16777216#32) 16777215#32) = r := by
  subst hb
  rw [select_one, minsi_cap hr]
  exact normW_of_small _ (by omega)

/-- Kernel, valid point: the normalised scatter word is `r`. -/
theorem normW_ker_valid {b : BitVec 1} {r : BitVec 32} (hb : b = 1#1) (hr : r.toNat < 16777216) :
    normW 16777216#32 (Scalar.select b r 0#32) = r := by
  subst hb
  rw [select_one]
  exact normW_of_small _ (by omega)

/-- Kernel, invalid point: the normalised scatter word is slot `0`. -/
theorem normW_ker_invalid {b : BitVec 1} {r : BitVec 32} (hb : b ≠ 1#1) :
    normW 16777216#32 (Scalar.select b r 0#32) = 0#32 := by
  rw [select_ne_one hb]
  exact normW_of_small _ (by decide)

/-- A one-bit word is `0` or `1`; read unsigned, `1` is the natural `1` and anything else is `0`. -/
theorem toNat_bit_of_ne_one {b : BitVec 1} (hb : b ≠ 1#1) : b.toNat = 0 := by
  rcases BitVec.eq_zero_or_eq_one b with rfl | rfl
  · rfl
  · exact absurd rfl hb

end Cert.IndexWords

end
-- ==== Proof.VoxelSpec.lean ====
/-
  The specification both programs are compared against.

  A point `p` (one of 32·512·512) carries three voxel coordinates, the words of the index array at flat positions
  `3p`, `3p + 1`, `3p + 2`. It is VALID when every coordinate lies in `[0, 256)`, and then its voxel is the flat
  position `(c₀·256 + c₁)·256 + c₂` of the 256³ volume. For a voxel `v` let `hits v` be the valid points whose voxel is
  `v`, `cnt v` their number and `tot v` the sum of their features. The updated volumes are, voxel by voxel,

      feature' v = feature v · count v + (tot v / cnt v) / (count v + 1)   and   count' v = count v + 1

  where some valid point hits `v`, and the old values elsewhere. Nothing here mentions a program.
-/
import Idealize.ShloMosaic.PureOps.Ideal
import proofs.«410749_j41850161332390_3_alg».proof.Proof.IndexWords

noncomputable section

namespace Cert.Voxel

open Idealize.ShloMosaic Cert.IndexWords

/-- The points, flat. -/
abbrev SPts : Shape := ⟨1, ![8388608]⟩
/-- The index array: point coordinates (32, 512, 512) and the coordinate's number. -/
abbrev SIdx4 : Shape := ⟨4, ![32, 512, 512, 3]⟩
/-- The feature array. -/
abbrev SFeat : Shape := ⟨3, ![32, 512, 512]⟩
/-- A volume. -/
abbrev SVol : Shape := ⟨3, ![256, 256, 256]⟩

/-- Where point `p`'s `k`-th voxel coordinate sits in the index array: flat position `3p + k`. -/
def ptCoord (p : SPts.Idx) (k : Fin 3) : SIdx4.Idx := fun a => match a with
  | ⟨0, _⟩ => ⟨(p 0).val / 262144, by have h : (p 0).val < 8388608 := (p 0).isLt; show (p 0).val / 262144 < 32; omega⟩
  | ⟨1, _⟩ => ⟨(p 0).val / 512 % 512, by show (p 0).val / 512 % 512 < 512; omega⟩
  | ⟨2, _⟩ => ⟨(p 0).val % 512, by show (p 0).val % 512 < 512; omega⟩
  | ⟨3, _⟩ => ⟨k.val, by show k.val < 3; exact k.isLt⟩

/-- Where point `p`'s feature sits in the feature array: flat position `p`. -/
def ptFeat (p : SPts.Idx) : SFeat.Idx := fun a => match a with
  | ⟨0, _⟩ => ⟨(p 0).val / 262144, by have h : (p 0).val < 8388608 := (p 0).isLt; show (p 0).val / 262144 < 32; omega⟩
  | ⟨1, _⟩ => ⟨(p 0).val / 512 % 512, by show (p 0).val / 512 % 512 < 512; omega⟩
  | ⟨2, _⟩ => ⟨(p 0).val % 512, by show (p 0).val % 512 < 512; omega⟩

/-- Point `p`'s `k`-th voxel coordinate, as the 32-bit word the index array holds. -/
def coord (x1 : SIdx4.Idx → BitVec 32) (p : SPts.Idx) (k : Fin 3) : BitVec 32 := x1 (ptCoord p k)

/-- Point `p` is valid: all three coordinates inside the volume. -/
def validP (x1 : SIdx4.Idx → BitVec 32) (p : SPts.Idx) : Prop := ∀ k : Fin 3, okW (coord x1 p k) = 1#1

instance (x1 : SIdx4.Idx → BitVec 32) (p : SPts.Idx) : Decidable (validP x1 p) := by unfold validP; infer_instance

/-- The flat voxel word of point `p`, `(c₀·256 + c₁)·256 + c₂` in 32-bit arithmetic (meaningful when `p` is valid). -/
def rawW (x1 : SIdx4.Idx → BitVec 32) (p : SPts.Idx) : BitVec 32 :=
  IntOp.addi (IntOp.muli (IntOp.addi (IntOp.muli (coord x1 p 0) 256#32) (coord x1 p 1)) 256#32) (coord x1 p 2)

/-- A valid point's flat voxel word is computed without wrap-around: it is the flat position of its coordinates, below 2²⁴. -/
theorem rawW_lt (x1 : SIdx4.Idx → BitVec 32) (p : SPts.Idx) (h : validP x1 p) : (rawW x1 p).toNat < 16777216 := by
  have h0 := toNat_lt_of_okW (h 0)
  have h1 := toNat_lt_of_okW (h 1)
  have h2 := toNat_lt_of_okW (h 2)
  unfold rawW
  rw [flat_toNat h0 h1 h2]
  omega

/-- The valid points whose voxel is `v`. -/
def hits (x1 : SIdx4.Idx → BitVec 32) (v : ℕ) : Finset SPts.Idx :=
  Finset.univ.filter fun p => validP x1 p ∧ (rawW x1 p).toNat = v

/-- How many valid points hit voxel `v`, as an extended real. -/
def cnt (x1 : SIdx4.Idx → BitVec 32) (v : ℕ) : EReal := ∑ _p ∈ hits x1 v, (1 : EReal)

/-- The sum of the features of the valid points that hit voxel `v`. -/
def tot (x0 : SFeat.Idx → EReal) (x1 : SIdx4.Idx → BitVec 32) (v : ℕ) : EReal := ∑ p ∈ hits x1 v, x0 (ptFeat p)

/-- The flat position of a volume index. -/
def vox (i : SVol.Idx) : ℕ := ((i 0).val * 256 + (i 1).val) * 256 + (i 2).val

theorem vox_lt (i : SVol.Idx) : vox i < 16777216 := by
  have h0 : (i 0).val < 256 := (i 0).isLt
  have h1 : (i 1).val < 256 := (i 1).isLt
  have h2 : (i 2).val < 256 := (i 2).isLt
  unfold vox; omega

/-- The float `1.0` as both programs spell it. -/
abbrev one32 : EReal := Ideal.ofBits .f32 0x3F800000#32

/-- The updated feature volume. -/
def newFeature (x0 : SFeat.Idx → EReal) (x1 : SIdx4.Idx → BitVec 32) (x2 x3 : SVol.Idx → EReal) : SVol.Idx → EReal := fun i =>
  if (hits x1 (vox i)).Nonempty then
    x2 i * x3 i + Ideal.div (Ideal.div (tot x0 x1 (vox i)) (cnt x1 (vox i))) (x3 i + one32)
  else x2 i

/-- The updated count volume. -/
def newCount (x1 : SIdx4.Idx → BitVec 32) (x3 : SVol.Idx → EReal) : SVol.Idx → EReal := fun i =>
  if (hits x1 (vox i)).Nonempty then x3 i + one32 else x3 i

end Cert.Voxel

end
-- ==== Proof.PoolSums.lean ====
/-
  The pooling sums, over an abstract finite set of points. Each point `p` has a validity bit `b p`, a flat voxel word
  `r p` (below 2²⁴ when `p` is valid) and a feature `f p`. For a voxel `v < 2²⁴` the points that HIT it are the valid
  ones whose word is `v`.

  Both programs accumulate by a scatter-add from zero: entry `v` receives the update of every point whose normalised
  index word is `v`. The reference sends invalid points to a dummy slot past the volume, the kernel sends them to
  slot 0 with a zero update; either way entry `v` ends at the sum over the hits of `v` (adding zeros changes nothing
  on the extended reals, and no other law is used). The weight accumulated is the number of hits, which is positive
  exactly when there is one.
-/
import Idealize.ShloMosaic.PureOps.Ideal
import proofs.«410749_j41850161332390_3_alg».proof.Proof.IndexWords

noncomputable section

namespace Cert.PoolSums

open Idealize.ShloMosaic Cert.IndexWords

variable {ι : Type} [Fintype ι] [DecidableEq ι]
variable (b : ι → BitVec 1) (r : ι → BitVec 32) (f : ι → EReal)

/-- The valid points whose voxel word is `v`. -/
def hitsA (v : ℕ) : Finset ι := Finset.univ.filter fun p => b p = 1#1 ∧ (r p).toNat = v

/-- Reference: a point's normalised index word is `v` (inside the volume) exactly when the point hits `v`. -/
theorem ref_word_eq_iff (hr : ∀ p, b p = 1#1 → (r p).toNat < 16777216) (v : ℕ) (hv : v < 16777216) (p : ι) :
    (normW 16777217#32 (Scalar.select (b p) (r p) 16777216#32)).toInt = (v : ℤ) ↔ (b p = 1#1 ∧ (r p).toNat = v) := by
  by_cases hb : b p = 1#1
  · -- valid: the word is `r p`, below 2²⁴, so read signed it is its natural value
    have hlt : (r p).toNat < 16777216 := hr p hb
    have h31 : (r p).toNat < 2 ^ 31 := by omega
    rw [normW_ref_valid hb hlt, toInt_eq_toNat h31]
    constructor
    · intro h
      exact ⟨hb, by exact_mod_cast h⟩
    · rintro ⟨_, h⟩
      exact_mod_cast h
  · -- invalid: the word is the dummy slot 2²⁴, which is not inside the volume
    rw [normW_ref_invalid hb]
    have hd : (16777216#32).toInt = 16777216 := by decide
    rw [hd]
    constructor
    · intro h
      omega
    · rintro ⟨h, _⟩
      exact absurd h hb

/-- Reference: the points whose normalised index word is `v` are the hits of `v`. -/
theorem ref_filter_eq (hr : ∀ p, b p = 1#1 → (r p).toNat < 16777216) (v : ℕ) (hv : v < 16777216) :
    Finset.univ.filter (fun p : ι => (normW 16777217#32 (Scalar.select (b p) (r p) 16777216#32)).toInt = (v : ℤ))
      = hitsA b r v := by
  unfold hitsA
  exact Finset.filter_congr fun p _ => ref_word_eq_iff b r hr v hv p

/-- On a hit the weight update, the validity bit read as a real, is `1`. -/
theorem cnt_on_hit {v : ℕ} {p : ι} (hp : p ∈ hitsA b r v) : ((((b p).toNat : ℝ)) : EReal) = 1 := by
  have hb : b p = 1#1 := (Finset.mem_filter.mp hp).2.1
  have h1 : (b p).toNat = 1 := by rw [hb]; rfl
  rw [h1, Nat.cast_one, EReal.coe_one]

/-- On a hit the feature update is the feature. -/
theorem tot_on_hit {v : ℕ} {p : ι} (hp : p ∈ hitsA b r v) : Scalar.select (b p) (f p) (0 : EReal) = f p := by
  have hb : b p = 1#1 := (Finset.mem_filter.mp hp).2.1
  unfold Scalar.select
  exact if_pos hb

/-- Reference: the weight accumulated at `v` is the number of hits. -/
theorem ref_cnt (hr : ∀ p, b p = 1#1 → (r p).toNat < 16777216) (v : ℕ) (hv : v < 16777216) :
    (0 : EReal) + ∑ p ∈ Finset.univ.filter (fun p : ι => (normW 16777217#32 (Scalar.select (b p) (r p) 16777216#32)).toInt = (v : ℤ)),
        ((((b p).toNat : ℝ)) : EReal)
      = ∑ _p ∈ hitsA b r v, (1 : EReal) := by
  rw [zero_add, ref_filter_eq b r hr v hv]
  exact Finset.sum_congr rfl fun p hp => cnt_on_hit b r hp

/-- Reference: the feature accumulated at `v` is the sum over the hits. -/
theorem ref_tot (hr : ∀ p, b p = 1#1 → (r p).toNat < 16777216) (v : ℕ) (hv : v < 16777216) :
    (0 : EReal) + ∑ p ∈ Finset.univ.filter (fun p : ι => (normW 16777217#32 (Scalar.select (b p) (r p) 16777216#32)).toInt = (v : ℤ)),
        Scalar.select (b p) (f p) (0 : EReal)
      = ∑ p ∈ hitsA b r v, f p := by
  rw [zero_add, ref_filter_eq b r hr v hv]
  exact Finset.sum_congr rfl fun p hp => tot_on_hit b r f hp

/-- Kernel: a point's normalised index word is `v` exactly when the point hits `v`, or is invalid and `v` is slot 0. -/
theorem ker_word_eq_iff (hr : ∀ p, b p = 1#1 → (r p).toNat < 16777216) (v : ℕ) (p : ι) :
    (normW 16777216#32 (Scalar.select (b p) (r p) 0#32)).toInt = (v : ℤ)
      ↔ ((b p = 1#1 ∧ (r p).toNat = v) ∨ (b p ≠ 1#1 ∧ v = 0)) := by
  by_cases hb : b p = 1#1
  · have hlt : (r p).toNat < 16777216 := hr p hb
    have h31 : (r p).toNat < 2 ^ 31 := by omega
    rw [normW_ker_valid hb hlt, toInt_eq_toNat h31]
    constructor
    · intro h
      exact Or.inl ⟨hb, by exact_mod_cast h⟩
    · rintro (⟨_, h⟩ | ⟨h, _⟩)
      · exact_mod_cast h
      · exact absurd hb h
  · rw [normW_ker_invalid hb]
    have hz : (0#32).toInt = 0 := by decide
    rw [hz]
    constructor
    · intro h
      exact Or.inr ⟨hb, by omega⟩
    · rintro (⟨h, _⟩ | ⟨_, h⟩)
      · exact absurd h hb
      · rw [h]; rfl

/-- Kernel: a summand that vanishes on the invalid points sums, over the points whose normalised index word is `v`,
to its sum over the hits of `v`: the only other points in the range are invalid ones, and they add zeros. -/
theorem ker_sum_eq (g : ι → EReal) (hg : ∀ p, b p ≠ 1#1 → g p = 0)
    (hr : ∀ p, b p = 1#1 → (r p).toNat < 16777216) (v : ℕ) :
    ∑ p ∈ Finset.univ.filter (fun p : ι => (normW 16777216#32 (Scalar.select (b p) (r p) 0#32)).toInt = (v : ℤ)), g p
      = ∑ p ∈ hitsA b r v, g p := by
  symm
  apply Finset.sum_subset
  · intro p hp
    have h := (Finset.mem_filter.mp hp).2
    exact Finset.mem_filter.mpr ⟨Finset.mem_univ p, (ker_word_eq_iff b r hr v p).mpr (Or.inl h)⟩
  · intro p hp hnp
    apply hg
    intro hb
    apply hnp
    rcases (ker_word_eq_iff b r hr v p).mp (Finset.mem_filter.mp hp).2 with h | ⟨h, _⟩
    · exact Finset.mem_filter.mpr ⟨Finset.mem_univ p, h⟩
    · exact absurd hb h

/-- Kernel: the weight accumulated at `v` is the number of hits (the invalid points, sent to slot 0, add zeros). -/
theorem ker_cnt (hr : ∀ p, b p = 1#1 → (r p).toNat < 16777216) (v : ℕ) (hv : v < 16777216) :
    (0 : EReal) + ∑ p ∈ Finset.univ.filter (fun p : ι => (normW 16777216#32 (Scalar.select (b p) (r p) 0#32)).toInt = (v : ℤ)),
        ((((b p).toNat : ℝ)) : EReal)
      = ∑ _p ∈ hitsA b r v, (1 : EReal) := by
  rw [zero_add, ker_sum_eq b r (fun p => ((((b p).toNat : ℝ)) : EReal)) ?_ hr v]
  · exact Finset.sum_congr rfl fun p hp => cnt_on_hit b r hp
  · intro p hb
    show ((((b p).toNat : ℝ)) : EReal) = 0
    rw [toNat_bit_of_ne_one hb, Nat.cast_zero, EReal.coe_zero]

/-- Kernel: the feature accumulated at `v` is the sum over the hits. -/
theorem ker_tot (hr : ∀ p, b p = 1#1 → (r p).toNat < 16777216) (v : ℕ) (hv : v < 16777216) :
    (0 : EReal) + ∑ p ∈ Finset.univ.filter (fun p : ι => (normW 16777216#32 (Scalar.select (b p) (r p) 0#32)).toInt = (v : ℤ)),
        Scalar.select (b p) (f p) (0 : EReal)
      = ∑ p ∈ hitsA b r v, f p := by
  rw [zero_add, ker_sum_eq b r (fun p => Scalar.select (b p) (f p) (0 : EReal)) ?_ hr v]
  · exact Finset.sum_congr rfl fun p hp => tot_on_hit b r f hp
  · intro p hb
    show Scalar.select (b p) (f p) (0 : EReal) = 0
    unfold Scalar.select
    exact if_neg hb

/-- A sum of ones over a finite set is positive exactly when the set has an element. -/
theorem sum_ones_pos_iff (S : Finset ι) : (0 : EReal) < ∑ _p ∈ S, (1 : EReal) ↔ S.Nonempty := by
  rw [Finset.sum_const, nsmul_one, ← Finset.card_pos]
  have h := EReal.natCast_lt_iff (m := 0) (n := S.card)
  rwa [Nat.cast_zero] at h

end Cert.PoolSums

end
-- ==== Proof.LibScatterTake.lean ====
/-
  General facts about `stablehlo.scatter` in the shape jnp's `x.at[idx].set(v)` / `.add(v)` lowers to for a flat array:
  a rank-1 operand of `N` entries, `n` scalar updates, and the scatter indices an `[n × 1]` column of words (one index
  vector per update, the operand's one axis inserted).

  * `resultIdx?_eq_some_iff`: update `j` lands on entry `i` exactly when the `j`-th index word, read signed, is `i`
    (an index outside `[0, N)` lands nowhere: the update is dropped).
  * `scatter_set_of_hit` / `scatter_set_of_no_hit`: for the body that returns the update (`.set`), an entry that some
    update lands on ends at the common value of the updates landing there, when they all agree; an entry no update
    lands on keeps the operand's value. The fold's order plays no part under that agreement.
  * `scatterAdd_take_apply`: over the extended reals the `.add` scatter is the operand's entry plus the sum of the
    updates whose index word is that entry.
-/
import Idealize.ShloMosaic.PureOps.Ideal
import Idealize.ShloMosaic.PureOps.ShapeOps

noncomputable section

namespace Idealize.ShloMosaic.ScatterTake

open Idealize.ShloMosaic

variable {α : Type} {N n w : Nat}

/-- Row `j` of the `[n × 1]` column of scatter indices. -/
abbrev col (j : (⟨1, ![n]⟩ : Shape).Idx) : (⟨2, ![n, 1]⟩ : Shape).Idx := fun a => match a with
  | ⟨0, _⟩ => ⟨(j 0).val, (j 0).isLt⟩
  | ⟨1, _⟩ => ⟨0, Nat.one_pos⟩

/-- On the operand's one axis the window starts at update `j`'s index word, read signed. -/
theorem start_eq (d : ScatterDims ⟨1, ![N]⟩ ⟨2, ![n, 1]⟩ ⟨1, ![n]⟩)
    (hsd : d.scatterDimsToOperandDims = [0])
    (hivd : d.indexVectorDim = 1) (idx : IVec ⟨2, ![n, 1]⟩ w) (j : (⟨1, ![n]⟩ : Shape).Idx) (a : Fin (⟨1, ![N]⟩ : Shape).rank) :
    d.start j idx a = (idx (col j)).toInt := by
  have ha0 : a = 0 := Subsingleton.elim _ _
  subst ha0
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have e : ∀ X : Fin (⟨1, ![n]⟩ : Shape).rank, (j X).val = (j 0).val := fun X => by
      have hX : X = 0 := Subsingleton.elim _ _
      subst hX; rfl
    exact e _
  | ⟨1, _⟩ =>
    unfold ScatterDims.siIdx
    rw [dif_pos (by rw [hivd])]
    apply Fin.ext
    show List.idxOf (0 : Fin 1) d.scatterDimsToOperandDims = 0
    rw [hsd]; simp

/-- The operand's one axis is inserted, so the window coordinate on it is `0`. -/
theorem window_eq (d : ScatterDims ⟨1, ![N]⟩ ⟨2, ![n, 1]⟩ ⟨1, ![n]⟩)
    (hiw : d.insertedWindowDims = [0]) (j : (⟨1, ![n]⟩ : Shape).Idx) (a : Fin (⟨1, ![N]⟩ : Shape).rank) :
    d.window j a = 0 := by
  have ha0 : a = 0 := Subsingleton.elim _ _
  subst ha0
  have hk : (0 : Fin 1) ∉ d.sKept := by
    simp [ScatterDims.sKept, Shape.kept, List.mem_filter, hiw]
  unfold ScatterDims.window
  rw [dif_neg hk]

/-- Update `j` lands on entry `i` exactly when its index word, read signed, is `i`. -/
theorem resultIdx?_eq_some_iff (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (j : (⟨1, ![n]⟩ : Shape).Idx) (i : (⟨1, ![N]⟩ : Shape).Idx) :
    d.resultIdx? j idx = some i ↔ (idx (col j)).toInt = ((i 0).val : ℤ) := by
  have hst := start_eq d hsd hivd idx j
  have hwi := window_eq d hiw j
  have hi : (i 0).val < N := (i 0).isLt
  unfold ScatterDims.resultIdx?
  constructor
  · intro h
    split at h
    · next hall =>
      -- inside the operand: compare the landing coordinate with the entry on the one axis
      have h0 := congrArg Fin.val (congrFun (Option.some.inj h) 0)
      have hb := hall 0
      simp only [hst, hwi] at h0 hb
      omega
    · cases h
  · intro h
    have hall : ∀ a : Fin (⟨1, ![N]⟩ : Shape).rank, 0 ≤ d.start j idx a + d.window j a ∧
        d.start j idx a + d.window j a < (⟨1, ![N]⟩ : Shape).size a := by
      intro a
      have ha0 : a = 0 := Subsingleton.elim _ _
      subst ha0
      rw [hst, hwi, h]
      show (0 : ℤ) ≤ ((i 0).val : ℤ) + ((0 : ℕ) : ℤ) ∧ ((i 0).val : ℤ) + ((0 : ℕ) : ℤ) < (N : ℤ)
      omega
    rw [dif_pos hall]
    congr 1
    funext a
    have ha0 : a = 0 := Subsingleton.elim _ _
    subst ha0
    apply Fin.ext
    simp only [hst, hwi, h]
    omega

/-- The fold of the body that returns the update, over any list of update numbers from any start: an entry none of
    them lands on is untouched. -/
theorem foldl_set_of_no_hit {s si u : Shape} (d : ScatterDims s si u) (idx : IVec si w) (upd : u.Idx → α) (i : s.Idx)
    (L : List (Fin u.numel)) :
    ∀ r₀ : s.Idx → α, (∀ m ∈ L, d.resultIdx? (u.rowMajor.symm m) idx ≠ some i) →
      (L.foldl (fun r m =>
        match d.resultIdx? (u.rowMajor.symm m) idx with
        | some i => fun i' => if i' = i then (fun _ b => b) (r i) (upd (u.rowMajor.symm m)) else r i'
        | none => r) r₀) i = r₀ i := by
  induction L with
  | nil => intro r₀ _; rfl
  | cons m L ih =>
    intro r₀ h
    rw [List.foldl_cons, ih _ (fun k hk => h k (List.mem_cons_of_mem _ hk))]
    have hm := h m List.mem_cons_self
    cases hr : d.resultIdx? (u.rowMajor.symm m) idx with
    | none => rfl
    | some i₀ =>
      have hne : i ≠ i₀ := fun e => hm (by rw [hr, e])
      show (if i = i₀ then _ else r₀ i) = r₀ i
      rw [if_neg hne]

/-- The fold of the body that returns the update, over any list of update numbers from any start: an entry one of
    them lands on ends at the value all of those landing there share. -/
theorem foldl_set_of_hit {s si u : Shape} (d : ScatterDims s si u) (idx : IVec si w) (upd : u.Idx → α) (i : s.Idx) (a : α)
    (L : List (Fin u.numel)) :
    ∀ r₀ : s.Idx → α, (∀ m ∈ L, d.resultIdx? (u.rowMajor.symm m) idx = some i → upd (u.rowMajor.symm m) = a) →
      (∃ m ∈ L, d.resultIdx? (u.rowMajor.symm m) idx = some i) →
      (L.foldl (fun r m =>
        match d.resultIdx? (u.rowMajor.symm m) idx with
        | some i => fun i' => if i' = i then (fun _ b => b) (r i) (upd (u.rowMajor.symm m)) else r i'
        | none => r) r₀) i = a := by
  induction L with
  | nil => intro r₀ _ hex; obtain ⟨m, hm, _⟩ := hex; cases hm
  | cons m L ih =>
    intro r₀ hall hex
    rw [List.foldl_cons]
    by_cases hL : ∃ k ∈ L, d.resultIdx? (u.rowMajor.symm k) idx = some i
    · exact ih _ (fun k hk => hall k (List.mem_cons_of_mem _ hk)) hL
    · have hno : ∀ k ∈ L, d.resultIdx? (u.rowMajor.symm k) idx ≠ some i := fun k hk e => hL ⟨k, hk, e⟩
      rw [foldl_set_of_no_hit d idx upd i L _ hno]
      obtain ⟨k, hk, hke⟩ := hex
      have hkm : k = m := by
        rcases List.mem_cons.1 hk with e | e
        · exact e
        · exact absurd hke (hno k e)
      subst hkm
      have hv := hall k List.mem_cons_self hke
      rw [hke]
      simp only [if_true]
      exact hv

/-- `.set`: an entry some update lands on ends at the value all the updates landing there share. -/
theorem scatter_set_of_hit {s si u : Shape} (d : ScatterDims s si u) (x : s.Idx → α) (idx : IVec si w) (upd : u.Idx → α)
    (i : s.Idx) (a : α) (hall : ∀ j, d.resultIdx? j idx = some i → upd j = a) (hex : ∃ j, d.resultIdx? j idx = some i) :
    Host.scatter d (fun _ b => b) x idx upd i = a := by
  unfold Host.scatter
  apply foldl_set_of_hit d idx upd i a _ x (fun m _ => hall _)
  obtain ⟨j, hj⟩ := hex
  exact ⟨u.rowMajor j, List.mem_finRange _, by rw [Equiv.symm_apply_apply]; exact hj⟩

/-- `.set`: an entry no update lands on keeps the operand's value. -/
theorem scatter_set_of_no_hit {s si u : Shape} (d : ScatterDims s si u) (x : s.Idx → α) (idx : IVec si w) (upd : u.Idx → α)
    (i : s.Idx) (hno : ∀ j, d.resultIdx? j idx ≠ some i) :
    Host.scatter d (fun _ b => b) x idx upd i = x i := by
  unfold Host.scatter
  exact foldl_set_of_no_hit d idx upd i _ x (fun m _ => hno _)

/-- `.add` over the extended reals: the operand's entry plus the sum of the updates whose index word is that entry. -/
theorem scatterAdd_take_apply (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (x : (⟨1, ![N]⟩ : Shape).Idx → EReal) (idx : IVec ⟨2, ![n, 1]⟩ w)
    (upd : (⟨1, ![n]⟩ : Shape).Idx → EReal) (i : (⟨1, ![N]⟩ : Shape).Idx) :
    Ideal.hostScatterAdd d x idx upd i
      = x i + ∑ j ∈ Finset.univ.filter (fun j : (⟨1, ![n]⟩ : Shape).Idx => (idx (col j)).toInt = ((i 0).val : ℤ)), upd j := by
  unfold Ideal.hostScatterAdd
  congr 2
  exact Finset.filter_congr (fun j _ => resultIdx?_eq_some_iff d huw hiw hsd hivd idx j i)

end Idealize.ShloMosaic.ScatterTake

end
-- ==== Proof.KernelRead.lean ====
/-
  The kernel's host stages read point by point, over the extended reals. Each coordinate channel at point `p` is
  the index array's word at flat position `3p + k`; the conjunction of the six range tests is 1 exactly on the valid
  points; the flat word is the specification's; the scatter column at row `j` is point `j`'s normalised word; and so
  each accumulated array, at a voxel, is the sum the specification names: the number of valid points hitting the
  voxel, and the sum of their features.
-/
import proofs.«410749_j41850161332390_3_alg».proof.Proof.KernelStages
import proofs.«410749_j41850161332390_3_alg».proof.Proof.VoxelSpec
import proofs.«410749_j41850161332390_3_alg».proof.Proof.PoolSums
import proofs.«410749_j41850161332390_3_alg».proof.Proof.LibScatterTake
import Idealize.ShloMosaic.Lib.Pipeline.Value
import Idealize.ShloMosaic.PureOps.Ideal.Laws

noncomputable section

namespace Cert.KernelIdeal.Host

open Cert.KernelIdeal Cert.KernelIdeal.Gen Idealize.ShloMosaic Cert.Voxel Cert.IndexWords Cert.PoolSums

variable (x0 : SFeat.Idx → EReal) (x1 : SIdx4.Idx → BitVec 32)

/-- Point `p`'s place in the index array with its last axis cut to one entry: the point's three coordinates and `0`. -/
def ptUnit (p : SPts.Idx) : S32x512x512x1.Idx := fun a => match a with
  | ⟨0, _⟩ => ⟨(p 0).val / 262144, by have h : (p 0).val < 8388608 := (p 0).isLt; show (p 0).val / 262144 < 32; omega⟩
  | ⟨1, _⟩ => ⟨(p 0).val / 512 % 512, by show (p 0).val / 512 % 512 < 512; omega⟩
  | ⟨2, _⟩ => ⟨(p 0).val % 512, by show (p 0).val % 512 < 512; omega⟩
  | ⟨3, _⟩ => ⟨0, Nat.one_pos⟩

/-- A [32 × 512 × 512] array flattened, read at point `p`: the array at the point's three coordinates. -/
theorem flat3_apply {α : Type} (y : S32x512x512.Idx → α) (p : SPts.Idx) :
    shapeCast S8388608 y shapeCasts_S32x512x512_S8388608 p = y (ptFeat p) := by
  refine shapeCast_apply y shapeCasts_S32x512x512_S8388608 p (ptFeat p) ?_
  rewrite [Shape.rowMajor_val_three, Shape.rowMajor_val_one]
  have h : (p 0).val < 8388608 := (p 0).isLt
  show ((p 0).val / 262144 * 512 + (p 0).val / 512 % 512) * 512 + (p 0).val % 512 = (p 0).val
  omega

/-- A [32 × 512 × 512 × 1] array with its unit axis dropped and then flattened, read at point `p`. -/
theorem flat4_apply {α : Type} (y : S32x512x512x1.Idx → α) (p : SPts.Idx) :
    shapeCast S8388608 (shapeCast S32x512x512 y shapeCasts_S32x512x512x1_S32x512x512) shapeCasts_S32x512x512_S8388608 p
      = y (ptUnit p) := by
  rw [flat3_apply]
  refine shapeCast_apply y shapeCasts_S32x512x512x1_S32x512x512 (ptFeat p) (ptUnit p) ?_
  rewrite [Shape.rowMajor_val_four, Shape.rowMajor_val_three]
  show ((((p 0).val / 262144 * 512 + (p 0).val / 512 % 512) * 512 + (p 0).val % 512) * 1 + 0
    = ((p 0).val / 262144 * 512 + (p 0).val / 512 % 512) * 512 + (p 0).val % 512)
  omega

theorem kC0_apply (p : SPts.Idx) : kC0 x1 p = coord x1 p 0 := by
  unfold kC0 coord
  rw [flat4_apply]
  exact extractStridedSlice_apply ![0, 0, 0, 0] x1 slices_S32x512x512x3_S32x512x512x1_0_0_0_0 (ptUnit p) (ptCoord p 0)
    (fun a => match a with
      | ⟨0, _⟩ => by show (p 0).val / 262144 = 0 + (p 0).val / 262144; omega
      | ⟨1, _⟩ => by show (p 0).val / 512 % 512 = 0 + (p 0).val / 512 % 512; omega
      | ⟨2, _⟩ => by show (p 0).val % 512 = 0 + (p 0).val % 512; omega
      | ⟨3, _⟩ => by show 0 = 0 + 0; omega)
theorem kC1_apply (p : SPts.Idx) : kC1 x1 p = coord x1 p 1 := by
  unfold kC1 coord
  rw [flat4_apply]
  exact extractStridedSlice_apply ![0, 0, 0, 1] x1 slices_S32x512x512x3_S32x512x512x1_0_0_0_1 (ptUnit p) (ptCoord p 1)
    (fun a => match a with
      | ⟨0, _⟩ => by show (p 0).val / 262144 = 0 + (p 0).val / 262144; omega
      | ⟨1, _⟩ => by show (p 0).val / 512 % 512 = 0 + (p 0).val / 512 % 512; omega
      | ⟨2, _⟩ => by show (p 0).val % 512 = 0 + (p 0).val % 512; omega
      | ⟨3, _⟩ => by show 1 = 1 + 0; omega)
theorem kC2_apply (p : SPts.Idx) : kC2 x1 p = coord x1 p 2 := by
  unfold kC2 coord
  rw [flat4_apply]
  exact extractStridedSlice_apply ![0, 0, 0, 2] x1 slices_S32x512x512x3_S32x512x512x1_0_0_0_2 (ptUnit p) (ptCoord p 2)
    (fun a => match a with
      | ⟨0, _⟩ => by show (p 0).val / 262144 = 0 + (p 0).val / 262144; omega
      | ⟨1, _⟩ => by show (p 0).val / 512 % 512 = 0 + (p 0).val / 512 % 512; omega
      | ⟨2, _⟩ => by show (p 0).val % 512 = 0 + (p 0).val % 512; omega
      | ⟨3, _⟩ => by show 2 = 2 + 0; omega)

/-- A constant word, read at any point, is the word. -/
theorem kConst_apply (w : BitVec 32) (p : SPts.Idx) : kConst w p = w := rfl

/-- The kernel's validity bit is 1 exactly on the valid points. -/
theorem kValid_iff (p : SPts.Idx) : kValid x1 p = 1#1 ↔ validP x1 p := by
  have e : kValid x1 p
      = IntOp.andi (IntOp.andi (IntOp.andi (IntOp.andi (IntOp.andi
          (IntOp.cmpi .sge (coord x1 p 0) 0#32) (IntOp.cmpi .slt (coord x1 p 0) 256#32))
          (IntOp.cmpi .sge (coord x1 p 1) 0#32)) (IntOp.cmpi .slt (coord x1 p 1) 256#32))
          (IntOp.cmpi .sge (coord x1 p 2) 0#32)) (IntOp.cmpi .slt (coord x1 p 2) 256#32) := by
    rw [← kC0_apply, ← kC1_apply, ← kC2_apply]
    rfl
  rw [e, and6_chain, andi_eq_one_iff, andi_eq_one_iff]
  show (okW (coord x1 p 0) = 1#1 ∧ okW (coord x1 p 1) = 1#1) ∧ okW (coord x1 p 2) = 1#1 ↔ validP x1 p
  constructor
  · rintro ⟨⟨h0, h1⟩, h2⟩ k
    match k with
    | ⟨0, _⟩ => exact h0
    | ⟨1, _⟩ => exact h1
    | ⟨2, _⟩ => exact h2
  · intro h
    exact ⟨⟨h 0, h 1⟩, h 2⟩

/-- The kernel's flat voxel word is the specification's. -/
theorem kRaw_apply (p : SPts.Idx) : kRaw x1 p = rawW x1 p := by
  unfold rawW
  rw [← kC0_apply, ← kC1_apply, ← kC2_apply]
  rfl

/-- The kernel's normalised scatter word: a valid point's word, slot 0 for an invalid one, against 2²⁴ entries. -/
theorem kWord_apply (p : SPts.Idx) :
    kWord x1 p = normW 16777216#32 (Scalar.select (kValid x1 p) (rawW x1 p) 0#32) := by
  rw [← kRaw_apply]
  rfl

/-- The scatter column at row `j` is point `j`'s word. -/
theorem kCol_apply (j : SPts.Idx) : kCol x1 (ScatterTake.col j) = kWord x1 j := by
  unfold kCol
  exact broadcastInDim_apply _ bcast_S8388608_S8388608x1_0 (kWord x1) (ScatterTake.col j) j (fun a => match a with
    | ⟨0, _⟩ => by show (j 0).val = if (8388608 : Nat) = 1 then 0 else (j 0).val; rw [if_neg (by decide)])

/-- The flat feature at point `p`. -/
theorem kFeat_apply (p : SPts.Idx) : kFeat (F := Ideal) x0 p = x0 (ptFeat p) := by
  unfold kFeat
  exact flat3_apply x0 p

/-- A point the kernel calls valid has its flat word below 2²⁴. -/
theorem kRaw_range (p : SPts.Idx) (h : kValid x1 p = 1#1) : (rawW x1 p).toNat < 16777216 :=
  rawW_lt x1 p ((kValid_iff x1 p).mp h)

/-- The abstract hit set at the kernel's validity bit and the flat word is the specification's. -/
theorem kHits_eq (v : ℕ) : hitsA (kValid x1) (rawW x1) v = hits x1 v := by
  unfold hitsA hits
  exact Finset.filter_congr fun p _ => and_congr (kValid_iff x1 p) Iff.rfl

/-- A volume index's place in the flat array of 2²⁴ entries. -/
def flatVox (i : SVol.Idx) : S16777216.Idx := fun a => match a with
  | ⟨0, _⟩ => ⟨vox i, vox_lt i⟩

/-- A flat array of 2²⁴ entries reshaped to the volume, read at `i`: the flat array at `i`'s flat position. -/
theorem vol_apply {α : Type} (y : S16777216.Idx → α) (i : SVol.Idx) :
    shapeCast S256x256x256 y shapeCasts_S16777216_S256x256x256 i = y (flatVox i) := by
  refine shapeCast_apply y shapeCasts_S16777216_S256x256x256 i (flatVox i) ?_
  rewrite [Shape.rowMajor_val_one, Shape.rowMajor_val_three]
  rfl

/-- Every entry the scatters start from is zero. -/
theorem kZeros_apply (v : S16777216.Idx) : kZeros (F := Ideal) v = (0 : EReal) := by
  show Ideal.ofBits .f32 0x00000000#32 = 0
  exact Ideal.ofBits_zero_f32

/-- The points whose scatter word is `v`, in the kernel's terms and in the abstract ones. -/
theorem kFilter_eq (i : SVol.Idx) :
    Finset.univ.filter (fun j : SPts.Idx => (kCol x1 (ScatterTake.col j)).toInt = (((flatVox i) 0).val : ℤ))
      = Finset.univ.filter (fun p : SPts.Idx =>
          (normW 16777216#32 (Scalar.select (kValid x1 p) (rawW x1 p) 0#32)).toInt = ((vox i : ℕ) : ℤ)) := by
  refine Finset.filter_congr fun j _ => ?_
  rw [kCol_apply, kWord_apply]
  rfl

/-- The accumulating scatter of a flat array over the extended reals, read at an entry: the operand's entry plus the
sum of the updates whose index word, read signed, is that entry. -/
theorem hostScatterAdd_flat_apply {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (x : FVec Ideal ⟨1, ![N]⟩ .f32) (idx : IVec ⟨2, ![n, 1]⟩ w)
    (upd : FVec Ideal ⟨1, ![n]⟩ .f32) (i : (⟨1, ![N]⟩ : Shape).Idx) :
    Host.scatterAdd d x idx upd i
      = x i + ∑ j ∈ Finset.univ.filter (fun j : (⟨1, ![n]⟩ : Shape).Idx => (idx (ScatterTake.col j)).toInt = ((i 0).val : ℤ)), upd j :=
  ScatterTake.scatterAdd_take_apply d huw hiw hsd hivd x idx upd i

/-- The weight update at point `p`: the validity bit read as a number. -/
theorem kFw_apply (p : SPts.Idx) : kFw (F := Ideal) x1 p = ((((kValid x1 p).toNat : ℝ)) : EReal) := rfl

/-- The feature update at point `p`: the feature where the point is valid, zero elsewhere. -/
theorem kFvals_apply (p : SPts.Idx) :
    kFvals (F := Ideal) x0 x1 p = Scalar.select (kValid x1 p) (x0 (ptFeat p)) (0 : EReal) := by
  have e : kFvals (F := Ideal) x0 x1 p
      = Scalar.select (kValid x1 p) (kFeat (F := Ideal) x0 p) (Ideal.ofBits .f32 0x00000000#32) := rfl
  rw [e, kFeat_apply, Ideal.ofBits_zero_f32]

/-- The accumulated weight at a voxel is the number of valid points hitting it. -/
theorem kWc_apply (i : SVol.Idx) : kWc (F := Ideal) x1 i = cnt x1 (vox i) := by
  unfold kWc cnt
  rw [vol_apply]
  refine (hostScatterAdd_flat_apply scatter_S16777216_S8388608x1_S8388608_n_0_0_1 rfl rfl rfl rfl
    (kZeros (F := Ideal)) (kCol x1) (kFw (F := Ideal) x1) (flatVox i)).trans ?_
  rw [kZeros_apply, kFilter_eq, ← kHits_eq]
  simp only [kFw_apply]
  exact ker_cnt (kValid x1) (rawW x1) (kRaw_range x1) (vox i) (vox_lt i)

/-- The accumulated feature at a voxel is the sum of the features of the valid points hitting it. -/
theorem kFc_apply (i : SVol.Idx) : kFc (F := Ideal) x0 x1 i = tot x0 x1 (vox i) := by
  unfold kFc tot
  rw [vol_apply]
  refine (hostScatterAdd_flat_apply scatter_S16777216_S8388608x1_S8388608_n_0_0_1 rfl rfl rfl rfl
    (kZeros (F := Ideal)) (kCol x1) (kFvals (F := Ideal) x0 x1) (flatVox i)).trans ?_
  rw [kZeros_apply, kFilter_eq, ← kHits_eq]
  simp only [kFvals_apply]
  exact ker_tot (kValid x1) (rawW x1) (fun p => x0 (ptFeat p)) (kRaw_range x1) (vox i) (vox_lt i)

end Cert.KernelIdeal.Host

end
-- ==== Proof.PoolScalar.lean ====
/-
  The kernel's two pointwise expressions, at one voxel, over the extended reals. The accumulated weight `w` is a sum
  of ones over the finite set `S` of points hitting the voxel, so the kernel's mask `w > 0` says exactly that `S` has
  an element. Where it has, the guarded divisor `w > 0 ? w : 1` is `w` and the voxel takes the updated values; where
  it has not, the feature is left alone and the count gains the mask read as a number, which is zero.
-/
import Idealize.ShloMosaic.PureOps.Ideal
import Idealize.ShloMosaic.PureOps.Ideal.Laws
import proofs.«410749_j41850161332390_3_alg».proof.Proof.PoolSums

noncomputable section

namespace Cert.PoolScalar

open Idealize.ShloMosaic Cert.PoolSums

variable {ι : Type} [Fintype ι] [DecidableEq ι]

/-- The float pattern of `1.0` denotes the real `1`. -/
theorem ofBits_one : Ideal.ofBits .f32 0x3F800000#32 = 1 := by
  simp [Ideal.ofBits, Ideal.ieee, -EReal.coe_mul]; norm_num

/-- A selection on a bit that is 1 takes the first branch. -/
theorem sel_one {α : Type} (a b : α) : Scalar.select (1#1) a b = a := by
  simp [Scalar.select]

/-- A selection on a bit that is not 1 takes the second branch. -/
theorem sel_ne {α : Type} {c : BitVec 1} (h : c ≠ 1#1) (a b : α) : Scalar.select c a b = b := by
  unfold Scalar.select
  exact if_neg h

/-- A one-bit word is 0 or 1. -/
theorem bit_cases (c : BitVec 1) : c = 0#1 ∨ c = 1#1 := by
  revert c; decide

/-- The kernel's mask bit: the count is positive exactly when some point hits. -/
theorem mask_eq_one_iff (S : Finset ι) :
    FloatOps.cmpf (F := Ideal) .ogt (∑ _p ∈ S, (1 : EReal)) (Scalar.ofBits (F := Ideal) .f32 0x00000000#32) = 1#1 ↔ S.Nonempty := by
  show Ideal.cmp .ogt (∑ _p ∈ S, (1 : EReal)) (Ideal.ofBits .f32 0x00000000#32) = 1#1 ↔ _
  rw [Ideal.ofBits_zero_f32]
  show BitVec.ofBool (decide ((0 : EReal) < ∑ _p ∈ S, (1 : EReal))) = 1#1 ↔ S.Nonempty
  rw [← sum_ones_pos_iff S]
  by_cases h : (0 : EReal) < ∑ _p ∈ S, (1 : EReal)
  · rw [decide_eq_true h]
    exact ⟨fun _ => h, fun _ => rfl⟩
  · rw [decide_eq_false h]
    exact ⟨fun e => absurd e (by decide), fun e => absurd e h⟩

/-- The kernel's feature expression at a voxel whose accumulated weight is the count of `S`. -/
theorem feature_form (S : Finset ι) (fc fv cv : EReal) :
    Scalar.select (FloatOps.cmpf (F := Ideal) .ogt (∑ _p ∈ S, (1 : EReal)) (Scalar.ofBits (F := Ideal) .f32 0x00000000#32))
      (FloatOps.addf (F := Ideal) (FloatOps.mulf (F := Ideal) fv cv)
        (FloatOps.divf (F := Ideal)
          (FloatOps.divf (F := Ideal) fc
            (Scalar.select (FloatOps.cmpf (F := Ideal) .ogt (∑ _p ∈ S, (1 : EReal)) (Scalar.ofBits (F := Ideal) .f32 0x00000000#32))
              (∑ _p ∈ S, (1 : EReal)) (Scalar.ofBits (F := Ideal) .f32 0x3F800000#32)))
          (FloatOps.addf (F := Ideal) cv (Scalar.ofBits (F := Ideal) .f32 0x3F800000#32))))
      fv
    = if S.Nonempty then fv * cv + Ideal.div (Ideal.div fc (∑ _p ∈ S, (1 : EReal))) (cv + Ideal.ofBits .f32 0x3F800000#32) else fv := by
  by_cases h : S.Nonempty
  · rw [(mask_eq_one_iff S).2 h, if_pos h, sel_one, sel_one]
    rfl
  · have hm : FloatOps.cmpf (F := Ideal) .ogt (∑ _p ∈ S, (1 : EReal)) (Scalar.ofBits (F := Ideal) .f32 0x00000000#32) ≠ 1#1 :=
      fun e => h ((mask_eq_one_iff S).1 e)
    rw [if_neg h, sel_ne hm]

/-- The kernel's count expression at a voxel whose accumulated weight is the count of `S`. -/
theorem count_form (S : Finset ι) (cv : EReal) :
    FloatOps.addf (F := Ideal) cv
      (FloatOps.sitofp (F := Ideal) .f32
        ((FloatOps.cmpf (F := Ideal) .ogt (∑ _p ∈ S, (1 : EReal)) (Scalar.ofBits (F := Ideal) .f32 0x00000000#32)).setWidth 32))
    = if S.Nonempty then cv + Ideal.ofBits .f32 0x3F800000#32 else cv := by
  by_cases h : S.Nonempty
  · rw [(mask_eq_one_iff S).2 h, if_pos h, ofBits_one]
    show cv + (((((1#1 : BitVec 1).setWidth 32).toInt : ℝ)) : EReal) = cv + 1
    have e : ((1#1 : BitVec 1).setWidth 32).toInt = 1 := by decide
    rw [e]; norm_num
  · have hm : FloatOps.cmpf (F := Ideal) .ogt (∑ _p ∈ S, (1 : EReal)) (Scalar.ofBits (F := Ideal) .f32 0x00000000#32) ≠ 1#1 :=
      fun e => h ((mask_eq_one_iff S).1 e)
    rcases bit_cases (FloatOps.cmpf (F := Ideal) .ogt (∑ _p ∈ S, (1 : EReal)) (Scalar.ofBits (F := Ideal) .f32 0x00000000#32)) with e0 | e1
    · rw [e0, if_neg h]
      show cv + (((((0#1 : BitVec 1).setWidth 32).toInt : ℝ)) : EReal) = cv
      have e : ((0#1 : BitVec 1).setWidth 32).toInt = 0 := by decide
      rw [e]; norm_num
    · exact absurd e1 hm

end Cert.PoolScalar

end
-- ==== Proof.KernelValue.lean ====
/-
  The kernel's run, read at the specification. The two output arrays are the pointwise functions `G4`, `G5` of the
  four arrays the region finds; the first two of those are the accumulated feature and weight of the launch
  memory's arrays, which at a voxel are the total and the count over the valid points hitting it; so the mask
  `weight > 0` is "some valid point hits the voxel", and the outputs are the specification's two volumes.
-/
import proofs.«410749_j41850161332390_3_alg».proof.Proof.KernelArray
import proofs.«410749_j41850161332390_3_alg».proof.Proof.KernelHost
import proofs.«410749_j41850161332390_3_alg».proof.Proof.KernelRead
import proofs.«410749_j41850161332390_3_alg».proof.Proof.PoolScalar

noncomputable section

namespace Cert.KernelIdeal.KValue

open Cert.KernelIdeal Cert.KernelIdeal.Gen Cert.KernelIdeal.Arr Cert.KernelIdeal.Host Cert.Voxel
open Idealize.ShloMosaic Idealize.ShloMosaic.TcCoe Idealize.SL.Sem

variable (m : (ℓ : Loc nD τ sig) → Buf (Elt Ideal) ℓ) (ρ : Dev nD → PrngReg)

/-- The feature expression over the accumulated arrays of `x0`, `x1` is the updated feature volume. -/
theorem G4_spec (x0 : SFeat.Idx → EReal) (x1 : SIdx4.Idx → BitVec 32) (x2 x3 : SVol.Idx → EReal) :
    G4 (F := Ideal) (kFc (F := Ideal) x0 x1) (kWc (F := Ideal) x1) x2 x3 = newFeature x0 x1 x2 x3 := by
  funext i
  unfold G4 newFeature
  simp only [kWc_apply, kFc_apply]
  unfold cnt
  exact PoolScalar.feature_form (hits x1 (vox i)) (tot x0 x1 (vox i)) (x2 i) (x3 i)

/-- The count expression over the accumulated weight of `x1` is the updated count volume. -/
theorem G5_spec (x1 : SIdx4.Idx → BitVec 32) (x3 : SVol.Idx → EReal) :
    G5 (F := Ideal) (kWc (F := Ideal) x1) x3 = newCount x1 x3 := by
  funext i
  unfold G5 newCount
  simp only [kWc_apply]
  unfold cnt
  exact PoolScalar.count_form (hits x1 (vox i)) (x3 i)

/-- The kernel's run: each result at the specification's volume of the launch memory's arrays, the arguments unchanged. -/
theorem run_spec : θ_run defs (onTc (τ := τ) (main (F := Ideal))) ⟨m, fun _ => 0, ρ⟩ fun r => ∀ c : Dev nD,
      r.2.mem ((c : Thread nD τ).loc main_v0_0)
        = newFeature (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = newCount (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨(h c).1.trans (by rw [V_fc, V_wc, V_main_arg2, V_main_arg3]; exact G4_spec _ _ _ _),
       (h c).2.1.trans (by rw [V_wc, V_main_arg3]; exact G5_spec _ _),
       (h c).2.2⟩)
    (run_arrays m ρ)

end Cert.KernelIdeal.KValue

end
-- ==== Proof.RefStages.lean ====
/-
  The reference's integer stages, read point by point. The reference flattens the index array to [P, 3] and takes
  column `k` for the `k`-th voxel coordinate of point `p`; it calls a point valid when the three per-coordinate range
  tests, folded by `and` along the coordinate axis, give 1; it sends a valid point to its flat voxel word and an
  invalid one to the dummy slot 2²⁴; and before each scatter or gather it normalises that word the way jnp does
  (a negative index has the buffer length added), once after capping it at 2²⁴ − 1. Here each of those arrays is
  identified, at a point `p`, with the specification's coordinate, validity, flat word and normalised word.
-/
import proofs.«410749_j41850161332390_3_alg».proof.Proof.GenReadReferenceIdeal
import proofs.«410749_j41850161332390_3_alg».proof.Proof.VoxelSpec
import proofs.«410749_j41850161332390_3_alg».proof.Proof.LibScatterTake
import Idealize.ShloMosaic.Lib.ReduceAll

noncomputable section

namespace Cert.ReferenceIdeal.RefValue

open Cert.ReferenceIdeal Cert.ReferenceIdeal.Gen Cert.ReferenceIdeal.ReadP Idealize.ShloMosaic Cert.Voxel Cert.IndexWords

variable (x1 : SIdx4.Idx → BitVec 32)

/-- Row `p`, column `k` of the flattened [P, 3] index array. -/
def pk (p : SPts.Idx) (k : Fin 3) : S8388608x3.Idx := fun a => match a with
  | ⟨0, _⟩ => ⟨(p 0).val, (p 0).isLt⟩
  | ⟨1, _⟩ => ⟨k.val, k.isLt⟩

/-- Row `p`, column `k` of the flattened array sits at flat position `3p + k` of the index array. -/
theorem idx_v1_pk (p : SPts.Idx) (k : Fin 3) : idx_main_v1 (pk p k) = ptCoord p k := by
  have h : (p 0).val < 8388608 := (p 0).isLt
  have hk : k.val < 3 := k.isLt
  funext a; apply Fin.ext
  match a with
  | ⟨0, _⟩ => show ((p 0).val * 3 + k.val) / 786432 = (p 0).val / 262144; omega
  | ⟨1, _⟩ => show ((p 0).val * 3 + k.val) / 1536 % 512 = (p 0).val / 512 % 512; omega
  | ⟨2, _⟩ => show ((p 0).val * 3 + k.val) / 3 % 512 = (p 0).val % 512; omega
  | ⟨3, _⟩ => show ((p 0).val * 3 + k.val) % 3 = k.val; omega

/-- The flattened index array at row `p`, column `k` is point `p`'s `k`-th coordinate. -/
theorem flat_coord (p : SPts.Idx) (k : Fin 3) : val_main_v1 (F := Ideal) x1 (pk p k) = coord x1 p k := by
  rw [val_main_v1_apply]
  exact congrArg x1 (idx_v1_pk p k)

theorem coord0 (p : SPts.Idx) : val_main_v10 (F := Ideal) x1 p = coord x1 p 0 := by
  rw [val_main_v10_apply, val_main_v9_apply]
  have e : idx_main_v9 (idx_main_v10 p) = pk p 0 := by
    have h : (p 0).val < 8388608 := (p 0).isLt
    funext a; apply Fin.ext
    match a with
    | ⟨0, _⟩ => show (p 0).val / 1 = (p 0).val; omega
    | ⟨1, _⟩ => rfl
  rw [e]
  exact flat_coord x1 p 0
theorem coord1 (p : SPts.Idx) : val_main_v14 (F := Ideal) x1 p = coord x1 p 1 := by
  rw [val_main_v14_apply, val_main_v13_apply]
  have e : idx_main_v13 (idx_main_v14 p) = pk p 1 := by
    have h : (p 0).val < 8388608 := (p 0).isLt
    funext a; apply Fin.ext
    match a with
    | ⟨0, _⟩ => show (p 0).val / 1 = (p 0).val; omega
    | ⟨1, _⟩ => rfl
  rw [e]
  exact flat_coord x1 p 1
theorem coord2 (p : SPts.Idx) : val_main_v19 (F := Ideal) x1 p = coord x1 p 2 := by
  rw [val_main_v19_apply, val_main_v18_apply]
  have e : idx_main_v18 (idx_main_v19 p) = pk p 2 := by
    have h : (p 0).val < 8388608 := (p 0).isLt
    funext a; apply Fin.ext
    match a with
    | ⟨0, _⟩ => show (p 0).val / 1 = (p 0).val; omega
    | ⟨1, _⟩ => rfl
  rw [e]
  exact flat_coord x1 p 2

/-- The reference's flat voxel word is the specification's. -/
theorem raw_eq (p : SPts.Idx) : val_main_v20 (F := Ideal) x1 p = rawW x1 p := by
  rw [val_main_v20_apply, val_main_v17_apply, val_main_v15_apply, val_main_v12_apply, val_main_v11_apply,
    val_main_v16_apply, val_main_c_2_apply, val_main_c_3_apply, coord0, coord1, coord2]
  rfl

/-- The per-coordinate range test at row `p`, column `k`. -/
theorem inside_eq (p : SPts.Idx) (k : Fin 3) : val_main_v7 (F := Ideal) x1 (pk p k) = okW (coord x1 p k) := by
  rw [val_main_v7_apply, val_main_v3_apply, val_main_v6_apply, val_main_v2_apply, val_main_c_0_apply,
    val_main_v5_apply, val_main_v4_apply, val_main_c_apply, flat_coord]
  rfl

/-- Removing the column coordinate of row `p`, column `k` leaves `p`. -/
theorem drop_pk (p : SPts.Idx) (k : Fin 3) : reducesTo_S8388608x3_S8388608_d1.drop (pk p k) = p := by
  funext b; apply Fin.ext
  match b with
  | ⟨0, _⟩ => rfl

/-- An index of the flattened array whose row is `p` is row `p`, column its own column. -/
theorem eq_pk_of_drop (i : S8388608x3.Idx) (p : SPts.Idx) (h : reducesTo_S8388608x3_S8388608_d1.drop i = p) :
    i = pk p ⟨(i 1).val, (i 1).isLt⟩ := by
  subst h
  funext a; apply Fin.ext
  match a with
  | ⟨0, _⟩ => rfl
  | ⟨1, _⟩ => rfl

/-- A left fold by `and` from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_one f l fun n hn => h n (List.mem_cons_of_mem _ hn)

/-- The reference's validity bit is 1 exactly on the valid points. -/
theorem valid_iff (p : SPts.Idx) : val_main_v8 (F := Ideal) x1 p = 1#1 ↔ validP x1 p := by
  constructor
  · intro h k
    rw [← inside_eq]
    exact Host.reduce_andi_eq_one _ _ reducesTo_S8388608x3_S8388608_d1 h_S_ p h (pk p k) (drop_pk p k)
  · intro hv
    unfold val_main_v8
    rw [Host.reduce_eq_foldl]
    refine foldl_andi_one _ _ ?_
    intro i hi
    rw [List.mem_filter, decide_eq_true_eq] at hi
    rw [eq_pk_of_drop i p hi.2, inside_eq]
    exact hv _

/-- A valid point's word, an invalid point's dummy slot. -/
theorem flat_eq (p : SPts.Idx) :
    val_main_v21 (F := Ideal) x1 p = Scalar.select (val_main_v8 (F := Ideal) x1 p) (rawW x1 p) 16777216#32 := by
  rw [val_main_v21_apply, raw_eq, val_main_call0_v1_apply, val_main_call0_v0_apply, val_main_c_4_apply]

/-- The index word as normalised before one of the scatters or gathers over the 2²⁴ + 1 slots. -/
theorem word29 (p : SPts.Idx) : val_main_v29 (F := Ideal) x1 p = normW 16777217#32 (val_main_v21 (F := Ideal) x1 p) := by
  rw [val_main_v29_apply, val_main_v26_apply, val_main_v28_apply, val_main_v25_apply, val_main_c_6_apply,
    val_main_v27_apply, val_main_c_7_apply]
  rfl

/-- The index word as normalised before one of the scatters or gathers over the 2²⁴ + 1 slots. -/
theorem word37 (p : SPts.Idx) : val_main_v37 (F := Ideal) x1 p = normW 16777217#32 (val_main_v21 (F := Ideal) x1 p) := by
  rw [val_main_v37_apply, val_main_v34_apply, val_main_v36_apply, val_main_v33_apply, val_main_c_9_apply,
    val_main_v35_apply, val_main_c_10_apply]
  rfl

/-- The index word as normalised before one of the scatters or gathers over the 2²⁴ + 1 slots. -/
theorem word44 (p : SPts.Idx) : val_main_v44 (F := Ideal) x1 p = normW 16777217#32 (val_main_v21 (F := Ideal) x1 p) := by
  rw [val_main_v44_apply, val_main_v41_apply, val_main_v43_apply, val_main_v40_apply, val_main_c_11_apply,
    val_main_v42_apply, val_main_c_12_apply]
  rfl

/-- The index word as normalised before one of the scatters or gathers over the 2²⁴ + 1 slots. -/
theorem word51 (p : SPts.Idx) : val_main_v51 (F := Ideal) x1 p = normW 16777217#32 (val_main_v21 (F := Ideal) x1 p) := by
  rw [val_main_v51_apply, val_main_v48_apply, val_main_v50_apply, val_main_v47_apply, val_main_c_13_apply,
    val_main_v49_apply, val_main_c_14_apply]
  rfl

/-- The index word as normalised before one of the scatters or gathers over the 2²⁴ + 1 slots. -/
theorem word85 (p : SPts.Idx) : val_main_v85 (F := Ideal) x1 p = normW 16777217#32 (val_main_v21 (F := Ideal) x1 p) := by
  rw [val_main_v85_apply, val_main_v82_apply, val_main_v84_apply, val_main_v81_apply, val_main_c_23_apply,
    val_main_v83_apply, val_main_c_24_apply]
  rfl

/-- The index word as normalised before one of the scatters or gathers over the 2²⁴ + 1 slots. -/
theorem word94 (p : SPts.Idx) : val_main_v94 (F := Ideal) x1 p = normW 16777217#32 (val_main_v21 (F := Ideal) x1 p) := by
  rw [val_main_v94_apply, val_main_v91_apply, val_main_v93_apply, val_main_v90_apply, val_main_c_26_apply,
    val_main_v92_apply, val_main_c_27_apply]
  rfl

/-- The index word capped at 2²⁴ − 1 and normalised, as one of the gathers from a volume reads it. -/
theorem wordcap64 (p : SPts.Idx) :
    val_main_v64 (F := Ideal) x1 p = normW 16777216#32 (IntOp.minsi (val_main_v21 (F := Ideal) x1 p) 16777215#32) := by
  rw [val_main_v64_apply, val_main_v61_apply, val_main_v63_apply, val_main_v57_apply, val_main_v56_apply,
    val_main_c_16_apply, val_main_v60_apply, val_main_c_17_apply, val_main_v62_apply, val_main_c_18_apply]
  rfl

/-- The index word capped at 2²⁴ − 1 and normalised, as one of the gathers from a volume reads it. -/
theorem wordcap71 (p : SPts.Idx) :
    val_main_v71 (F := Ideal) x1 p = normW 16777216#32 (IntOp.minsi (val_main_v21 (F := Ideal) x1 p) 16777215#32) := by
  rw [val_main_v71_apply, val_main_v68_apply, val_main_v70_apply, val_main_v57_apply, val_main_v56_apply,
    val_main_c_16_apply, val_main_v67_apply, val_main_c_19_apply, val_main_v69_apply, val_main_c_20_apply]
  rfl

/-- The index column at row `j` is the word of point `j`. -/
theorem col30 (j : SPts.Idx) : val_main_v30 (F := Ideal) x1 (ScatterTake.col j) = val_main_v29 (F := Ideal) x1 j := by
  rw [val_main_v30_apply]
  have e : idx_main_v30 (ScatterTake.col j) = j := by
    funext a; apply Fin.ext
    match a with
    | ⟨0, _⟩ => rfl
  rw [e]

/-- The index column at row `j` is the word of point `j`. -/
theorem col38 (j : SPts.Idx) : val_main_v38 (F := Ideal) x1 (ScatterTake.col j) = val_main_v37 (F := Ideal) x1 j := by
  rw [val_main_v38_apply]
  have e : idx_main_v38 (ScatterTake.col j) = j := by
    funext a; apply Fin.ext
    match a with
    | ⟨0, _⟩ => rfl
  rw [e]

/-- The index column at row `j` is the word of point `j`. -/
theorem col45 (j : SPts.Idx) : val_main_v45 (F := Ideal) x1 (ScatterTake.col j) = val_main_v44 (F := Ideal) x1 j := by
  rw [val_main_v45_apply]
  have e : idx_main_v45 (ScatterTake.col j) = j := by
    funext a; apply Fin.ext
    match a with
    | ⟨0, _⟩ => rfl
  rw [e]

/-- The index column at row `j` is the word of point `j`. -/
theorem col52 (j : SPts.Idx) : val_main_v52 (F := Ideal) x1 (ScatterTake.col j) = val_main_v51 (F := Ideal) x1 j := by
  rw [val_main_v52_apply]
  have e : idx_main_v52 (ScatterTake.col j) = j := by
    funext a; apply Fin.ext
    match a with
    | ⟨0, _⟩ => rfl
  rw [e]

/-- The index column at row `j` is the word of point `j`. -/
theorem col65 (j : SPts.Idx) : val_main_v65 (F := Ideal) x1 (ScatterTake.col j) = val_main_v64 (F := Ideal) x1 j := by
  rw [val_main_v65_apply]
  have e : idx_main_v65 (ScatterTake.col j) = j := by
    funext a; apply Fin.ext
    match a with
    | ⟨0, _⟩ => rfl
  rw [e]

/-- The index column at row `j` is the word of point `j`. -/
theorem col72 (j : SPts.Idx) : val_main_v72 (F := Ideal) x1 (ScatterTake.col j) = val_main_v71 (F := Ideal) x1 j := by
  rw [val_main_v72_apply]
  have e : idx_main_v72 (ScatterTake.col j) = j := by
    funext a; apply Fin.ext
    match a with
    | ⟨0, _⟩ => rfl
  rw [e]

/-- The index column at row `j` is the word of point `j`. -/
theorem col86 (j : SPts.Idx) : val_main_v86 (F := Ideal) x1 (ScatterTake.col j) = val_main_v85 (F := Ideal) x1 j := by
  rw [val_main_v86_apply]
  have e : idx_main_v86 (ScatterTake.col j) = j := by
    funext a; apply Fin.ext
    match a with
    | ⟨0, _⟩ => rfl
  rw [e]

/-- The index column at row `j` is the word of point `j`. -/
theorem col95 (j : SPts.Idx) : val_main_v95 (F := Ideal) x1 (ScatterTake.col j) = val_main_v94 (F := Ideal) x1 j := by
  rw [val_main_v95_apply]
  have e : idx_main_v95 (ScatterTake.col j) = j := by
    funext a; apply Fin.ext
    match a with
    | ⟨0, _⟩ => rfl
  rw [e]

end Cert.ReferenceIdeal.RefValue

end
-- ==== Proof.RefSums.lean ====
/-
  The reference's two accumulated arrays and where its scatter-set updates land. Entry `v < 2²⁴` of the accumulated
  feature is the sum of the features of the valid points whose voxel is `v`, entry `v` of the accumulated weight their
  number; and update `j` of either scatter-set lands on slot `v < 2²⁴` exactly when point `j` is valid with voxel `v`.
-/
import proofs.«410749_j41850161332390_3_alg».proof.Proof.RefStages
import proofs.«410749_j41850161332390_3_alg».proof.Proof.PoolSums
import Idealize.ShloMosaic.PureOps.Ideal.Laws

noncomputable section

namespace Cert.ReferenceIdeal.RefValue

open Cert.ReferenceIdeal Cert.ReferenceIdeal.Gen Cert.ReferenceIdeal.ReadP Idealize.ShloMosaic Cert.Voxel Cert.IndexWords Cert.PoolSums

variable (x0 : SFeat.Idx → EReal) (x1 : SIdx4.Idx → BitVec 32)

/-- A point the reference calls valid has its flat word below 2²⁴. -/
theorem raw_range (p : SPts.Idx) (h : val_main_v8 (F := Ideal) x1 p = 1#1) : (rawW x1 p).toNat < 16777216 :=
  rawW_lt x1 p ((valid_iff x1 p).mp h)

/-- The abstract hit set at the reference's validity bit and the flat word is the specification's. -/
theorem hitsA_eq (v : ℕ) : hitsA (val_main_v8 (F := Ideal) x1) (rawW x1) v = hits x1 v := by
  unfold hitsA hits
  exact Finset.filter_congr fun p _ => by rw [valid_iff]

/-- The accumulating scatter over the 2²⁴ + 1 slots, read at a slot: the operand's entry plus the updates whose index
word is that slot. -/
theorem acc_take_apply (x : S16777217.Idx → EReal) (idx : IVec S8388608x1 32) (upd : S8388608.Idx → EReal) (J : S16777217.Idx) :
    Ideal.hostScatterAdd scatter_S16777217_S8388608x1_S8388608_n_0_0_1 x idx upd J
      = x J + ∑ j ∈ Finset.univ.filter (fun j : SPts.Idx => (idx (ScatterTake.col j)).toInt = ((J 0).val : ℤ)), upd j :=
  ScatterTake.scatterAdd_take_apply (N := 16777217) (n := 8388608) (w := 32)
    scatter_S16777217_S8388608x1_S8388608_n_0_0_1 rfl rfl rfl rfl x idx upd J

/-- The accumulated feature is the exact accumulating scatter of the masked features from zeros. -/
theorem acc_v31_eq : val_main_v31 (F := Ideal) x0 x1
    = Ideal.hostScatterAdd scatter_S16777217_S8388608x1_S8388608_n_0_0_1 (val_main_v24 (F := Ideal))
        (val_main_v30 (F := Ideal) x1) (val_main_v23 (F := Ideal) x0 x1) := rfl

/-- The accumulated weight is the exact accumulating scatter of the validity bits from zeros. -/
theorem acc_v39_eq : val_main_v39 (F := Ideal) x1
    = Ideal.hostScatterAdd scatter_S16777217_S8388608x1_S8388608_n_0_0_1 (val_main_v32 (F := Ideal))
        (val_main_v38 (F := Ideal) x1) (val_main_v22 (F := Ideal) x1) := rfl

/-- Whether update `j` of a scatter over the 2²⁴ + 1 slots lands on slot `J` is read off its index word. -/
theorem acc_lands_iff (idx : IVec S8388608x1 32) (j : S8388608.Idx) (J : S16777217.Idx) :
    scatter_S16777217_S8388608x1_S8388608_n_0_0_1.resultIdx? j idx = some J
      ↔ (idx (ScatterTake.col j)).toInt = ((J 0).val : ℤ) :=
  ScatterTake.resultIdx?_eq_some_iff (N := 16777217) (n := 8388608) (w := 32)
    scatter_S16777217_S8388608x1_S8388608_n_0_0_1 rfl rfl rfl rfl idx j J

/-- The feature update of point `j`: its feature when valid, zero otherwise. -/
theorem acc_upd23 (j : SPts.Idx) :
    val_main_v23 (F := Ideal) x0 x1 j = Scalar.select (val_main_v8 (F := Ideal) x1 j) (x0 (ptFeat j)) (0 : EReal) := by
  rw [val_main_v23_apply, val_main_v0_apply, val_main_call1_v0_apply, val_main_cst_apply, Ideal.ofBits_def,
    Ideal.ofBits_zero_f32]
  rfl

/-- The weight update of point `j`: its validity bit read as a real. -/
theorem acc_upd22 (j : SPts.Idx) :
    val_main_v22 (F := Ideal) x1 j = ((((val_main_v8 (F := Ideal) x1 j).toNat : ℝ)) : EReal) := rfl

/-- The index word of point `j`, in terms of its validity bit and flat word. -/
theorem acc_word_eq (j : SPts.Idx) :
    normW 16777217#32 (val_main_v21 (F := Ideal) x1 j)
      = normW 16777217#32 (Scalar.select (val_main_v8 (F := Ideal) x1 j) (rawW x1 j) 16777216#32) := by
  rw [flat_eq]

/-- The accumulated feature at a slot inside the volume. -/
theorem fc_apply (J : S16777217.Idx) (hJ : (J 0).val < 16777216) :
    val_main_v31 (F := Ideal) x0 x1 J = tot x0 x1 (J 0).val := by
  rw [acc_v31_eq, acc_take_apply, val_main_v24_apply, val_main_cst_5_apply, Ideal.ofBits_def, Ideal.ofBits_zero_f32]
  have hf : (Finset.univ.filter fun j : SPts.Idx =>
        (val_main_v30 (F := Ideal) x1 (ScatterTake.col j)).toInt = ((J 0).val : ℤ))
      = Finset.univ.filter fun j : SPts.Idx =>
        (normW 16777217#32 (Scalar.select (val_main_v8 (F := Ideal) x1 j) (rawW x1 j) 16777216#32)).toInt
          = ((J 0).val : ℤ) :=
    Finset.filter_congr fun j _ => by rw [col30, word29, acc_word_eq]
  rw [hf, Finset.sum_congr rfl fun j _ => acc_upd23 x0 x1 j,
    ref_tot (val_main_v8 (F := Ideal) x1) (rawW x1) (fun p => x0 (ptFeat p)) (raw_range x1) _ hJ, hitsA_eq]
  rfl

/-- The accumulated weight at a slot inside the volume. -/
theorem wc_apply (J : S16777217.Idx) (hJ : (J 0).val < 16777216) :
    val_main_v39 (F := Ideal) x1 J = cnt x1 (J 0).val := by
  rw [acc_v39_eq, acc_take_apply, val_main_v32_apply, val_main_cst_8_apply, Ideal.ofBits_def, Ideal.ofBits_zero_f32]
  have hf : (Finset.univ.filter fun j : SPts.Idx =>
        (val_main_v38 (F := Ideal) x1 (ScatterTake.col j)).toInt = ((J 0).val : ℤ))
      = Finset.univ.filter fun j : SPts.Idx =>
        (normW 16777217#32 (Scalar.select (val_main_v8 (F := Ideal) x1 j) (rawW x1 j) 16777216#32)).toInt
          = ((J 0).val : ℤ) :=
    Finset.filter_congr fun j _ => by rw [col38, word37, acc_word_eq]
  rw [hf, Finset.sum_congr rfl fun j _ => acc_upd22 x1 j,
    ref_cnt (val_main_v8 (F := Ideal) x1) (rawW x1) (raw_range x1) _ hJ, hitsA_eq]
  rfl

/-- Update `j` of the feature scatter-set lands on slot `J` inside the volume exactly when point `j` hits it. -/
theorem lands86_iff (j : SPts.Idx) (J : S16777217.Idx) (hJ : (J 0).val < 16777216) :
    scatter_S16777217_S8388608x1_S8388608_n_0_0_1.resultIdx? j (val_main_v86 (F := Ideal) x1) = some J ↔ j ∈ hits x1 (J 0).val := by
  rw [acc_lands_iff, col86, word85, acc_word_eq,
    ref_word_eq_iff (val_main_v8 (F := Ideal) x1) (rawW x1) (raw_range x1) _ hJ j, valid_iff]
  unfold hits
  rw [Finset.mem_filter]
  exact (and_iff_right (Finset.mem_univ j)).symm

/-- Update `j` of the count scatter-set lands on slot `J` inside the volume exactly when point `j` hits it. -/
theorem lands95_iff (j : SPts.Idx) (J : S16777217.Idx) (hJ : (J 0).val < 16777216) :
    scatter_S16777217_S8388608x1_S8388608_n_0_0_1.resultIdx? j (val_main_v95 (F := Ideal) x1) = some J ↔ j ∈ hits x1 (J 0).val := by
  rw [acc_lands_iff, col95, word94, acc_word_eq,
    ref_word_eq_iff (val_main_v8 (F := Ideal) x1) (rawW x1) (raw_range x1) _ hJ j, valid_iff]
  unfold hits
  rw [Finset.mem_filter]
  exact (and_iff_right (Finset.mem_univ j)).symm

end Cert.ReferenceIdeal.RefValue

end
-- ==== Proof.RefValue.lean ====
/-
  The reference's two results are the specification's volumes. At a point `j` that hits voxel `i` every gather reads
  slot `vox i` (of the accumulated arrays, and of the two volumes flattened), so the update it carries is the per-voxel
  value of the specification: all updates landing on one slot agree, which is what makes the scatter-set's order
  immaterial. A voxel no valid point hits keeps the volume's own entry (the slot comes from the volume, not from the
  one appended dummy entry).
-/
import proofs.«410749_j41850161332390_3_alg».proof.Proof.RefSums
import Idealize.ShloMosaic.Lib.StableHlo.Predicate
import Idealize.ShloMosaic.Lib.SortFacts
import Idealize.ShloMosaic.Lib.Pipeline.Value

noncomputable section

namespace Cert.ReferenceIdeal.RefValue

open Cert.ReferenceIdeal Cert.ReferenceIdeal.Gen Cert.ReferenceIdeal.ReadP Idealize.ShloMosaic Cert.Voxel Cert.IndexWords Cert.PoolSums

variable (x0 : SFeat.Idx → EReal) (x1 : SIdx4.Idx → BitVec 32) (x2 x3 : SVol.Idx → EReal)

/-- The slot of the 2²⁴ + 1 entries that volume index `i` is read from at the end. -/
def slot (i : SVol.Idx) : S16777217.Idx := idx_main_v97 (idx_main_v98 i)

theorem slot_val (i : SVol.Idx) : (slot i 0).val = vox i := rfl

/-- A take from a flat table at row `j` whose index word, read signed, is the position of `J` reads the table at `J`
    (the clamp into the table does nothing to a position inside it). -/
theorem gather_at {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (j : (⟨1, ![n]⟩ : Shape).Idx)
    (J : (⟨1, ![N]⟩ : Shape).Idx) (hJ : (idx (ScatterTake.col j)).toInt = ((J 0).val : ℤ)) :
    Host.gather d x idx j = x J := by
  have hlt : (J 0).val < N := (J 0).isLt
  have hN : 0 < N := by omega
  have hcol : StableHlo.Predicate.ixP (n := n) (j 0) = ScatterTake.col j := by
    funext b
    match b with
    | ⟨0, _⟩ => rfl
    | ⟨1, _⟩ => rfl
  have h := StableHlo.Predicate.gather_take d hcoll hob hsim hivd x idx (j 0) hN
  have e : j = Shape.Idx.ofFin (j 0) := Shape.Idx.eq_ofFin j
  refine (congrArg (Host.gather d x idx) e).trans (h.trans (congrArg x ?_))
  funext a
  have ha : a = 0 := Subsingleton.elim _ _
  subst ha
  apply Fin.ext
  have h2 : (idx (StableHlo.Predicate.ixP (n := n) (j 0))).toInt = ((J 0).val : ℤ) :=
    (congrArg (fun z => (idx z).toInt) hcol).trans hJ
  show min (idx (StableHlo.Predicate.ixP (n := n) (j 0))).toInt.toNat (N - 1) = (J 0).val
  rw [h2, Int.toNat_natCast]
  omega

/-- A point that hits voxel `i` is one the reference calls valid, and its flat word is the voxel's position. -/
theorem hit_facts (i : SVol.Idx) (j : SPts.Idx) (hj : j ∈ hits x1 (vox i)) :
    val_main_v8 (F := Ideal) x1 j = 1#1 ∧ (rawW x1 j).toNat = vox i := by
  have h := (Finset.mem_filter.1 hj).2
  exact ⟨(valid_iff x1 j).2 h.1, h.2⟩

/-- At a point that hits voxel `i` the word normalised against the 2²⁴ + 1 slots is the flat word. -/
theorem word_of_hit (i : SVol.Idx) (j : SPts.Idx) (hj : j ∈ hits x1 (vox i)) :
    normW 16777217#32 (val_main_v21 (F := Ideal) x1 j) = rawW x1 j := by
  obtain ⟨h8, hr⟩ := hit_facts x1 i j hj
  rw [flat_eq]
  exact normW_ref_valid h8 (by rw [hr]; exact vox_lt i)

/-- At a point that hits voxel `i` the word capped at 2²⁴ − 1 and normalised against the 2²⁴ entries is the flat word. -/
theorem wordcap_of_hit (i : SVol.Idx) (j : SPts.Idx) (hj : j ∈ hits x1 (vox i)) :
    normW 16777216#32 (IntOp.minsi (val_main_v21 (F := Ideal) x1 j) 16777215#32) = rawW x1 j := by
  obtain ⟨h8, hr⟩ := hit_facts x1 i j hj
  rw [flat_eq]
  exact normW_ref_capped_valid h8 (by rw [hr]; exact vox_lt i)

/-- The flat word of a point that hits voxel `i`, read signed, is the voxel's position. -/
theorem raw_toInt_of_hit (i : SVol.Idx) (j : SPts.Idx) (hj : j ∈ hits x1 (vox i)) :
    (rawW x1 j).toInt = (vox i : ℤ) := by
  obtain ⟨h8, hr⟩ := hit_facts x1 i j hj
  have hv := vox_lt i
  rw [toInt_eq_toNat (by rw [hr]; omega), hr]

/-- The flattened volume at the flat position of `i` is the volume at `i`. -/
theorem unflat (i : SVol.Idx) : idx_main_v58 (idx_main_v98 i) = i := by
  have h0 : (i 0).val < 256 := (i 0).isLt
  have h1 : (i 1).val < 256 := (i 1).isLt
  have h2 : (i 2).val < 256 := (i 2).isLt
  funext a
  match a with
  | ⟨0, _⟩ => apply Fin.ext; show (((i 0).val * 256 + (i 1).val) * 256 + (i 2).val) / 65536 = (i 0).val; omega
  | ⟨1, _⟩ => apply Fin.ext; show (((i 0).val * 256 + (i 1).val) * 256 + (i 2).val) / 256 % 256 = (i 1).val; omega
  | ⟨2, _⟩ => apply Fin.ext; show (((i 0).val * 256 + (i 1).val) * 256 + (i 2).val) % 256 = (i 2).val; omega

/-- At a point that hits voxel `i` the take from the accumulated feature reads the voxel's total. -/
theorem v46_of_hit (i : SVol.Idx) (j : SPts.Idx) (hj : j ∈ hits x1 (vox i)) :
    val_main_v46 (F := Ideal) x0 x1 j = tot x0 x1 (vox i) := by
  have hJ : (val_main_v45 (F := Ideal) x1 (ScatterTake.col j)).toInt = ((slot i 0).val : ℤ) := by
    rw [col45, word44, word_of_hit x1 i j hj, raw_toInt_of_hit x1 i j hj, slot_val]
  unfold val_main_v46
  rw [gather_at _ rfl rfl rfl rfl _ _ j (slot i) hJ, fc_apply x0 x1 (slot i) (by rw [slot_val]; exact vox_lt i), slot_val]

/-- At a point that hits voxel `i` the take from the accumulated weight reads the voxel's count. -/
theorem v53_of_hit (i : SVol.Idx) (j : SPts.Idx) (hj : j ∈ hits x1 (vox i)) :
    val_main_v53 (F := Ideal) x1 j = cnt x1 (vox i) := by
  have hJ : (val_main_v52 (F := Ideal) x1 (ScatterTake.col j)).toInt = ((slot i 0).val : ℤ) := by
    rw [col52, word51, word_of_hit x1 i j hj, raw_toInt_of_hit x1 i j hj, slot_val]
  unfold val_main_v53
  rw [gather_at _ rfl rfl rfl rfl _ _ j (slot i) hJ, wc_apply x1 (slot i) (by rw [slot_val]; exact vox_lt i), slot_val]

/-- At a point that hits voxel `i` the take from the flattened feature volume reads the volume at `i`. -/
theorem v66_of_hit (i : SVol.Idx) (j : SPts.Idx) (hj : j ∈ hits x1 (vox i)) :
    val_main_v66 (F := Ideal) x1 x2 j = x2 i := by
  have hJ : (val_main_v65 (F := Ideal) x1 (ScatterTake.col j)).toInt = ((idx_main_v98 i 0).val : ℤ) := by
    rw [col65, wordcap64, wordcap_of_hit x1 i j hj, raw_toInt_of_hit x1 i j hj]
    rfl
  unfold val_main_v66
  rw [gather_at _ rfl rfl rfl rfl _ _ j (idx_main_v98 i) hJ, val_main_v58_apply, unflat]

/-- At a point that hits voxel `i` the take from the flattened count volume reads the volume at `i`. -/
theorem v73_of_hit (i : SVol.Idx) (j : SPts.Idx) (hj : j ∈ hits x1 (vox i)) :
    val_main_v73 (F := Ideal) x1 x3 j = x3 i := by
  have hJ : (val_main_v72 (F := Ideal) x1 (ScatterTake.col j)).toInt = ((idx_main_v98 i 0).val : ℤ) := by
    rw [col72, wordcap71, wordcap_of_hit x1 i j hj, raw_toInt_of_hit x1 i j hj]
    rfl
  unfold val_main_v73
  rw [gather_at _ rfl rfl rfl rfl _ _ j (idx_main_v98 i) hJ, val_main_v59_apply]
  exact congrArg x3 (unflat i)

/-- The feature update a point hitting voxel `i` carries. -/
theorem update_feature (i : SVol.Idx) (j : SPts.Idx) (hj : j ∈ hits x1 (vox i)) :
    val_main_v78 (F := Ideal) x0 x1 x2 x3 j
      = x2 i * x3 i + Ideal.div (Ideal.div (tot x0 x1 (vox i)) (cnt x1 (vox i))) (x3 i + one32) := by
  obtain ⟨h8, hr⟩ := hit_facts x1 i j hj
  rw [val_main_v78_apply, val_main_v76_apply, val_main_v77_apply, val_main_v55_apply, val_main_v54_apply,
    val_main_v75_apply, val_main_v74_apply, val_main_cst_21_apply, v46_of_hit x0 x1 i j hj, v53_of_hit x1 i j hj, v66_of_hit x1 x2 i j hj,
    v73_of_hit x1 x3 i j hj, h8, select_one]
  rfl

/-- The count update a point hitting voxel `i` carries. -/
theorem update_count (i : SVol.Idx) (j : SPts.Idx) (hj : j ∈ hits x1 (vox i)) :
    val_main_v75 (F := Ideal) x1 x3 j = x3 i + one32 := by
  rw [val_main_v75_apply, val_main_v74_apply, val_main_cst_21_apply, v73_of_hit x1 x3 i j hj]
  rfl

/-- The volume with one entry appended, read at a slot inside the volume, is the volume. -/
theorem padded_feature (i : SVol.Idx) : val_main_v80 (F := Ideal) x2 (slot i) = x2 i := by
  unfold val_main_v80
  rw [concatenate_pair_apply_left (s₁ := S16777216) (s₂ := S1) 0 _ _ _ (slot i) rfl (idx_main_v98 i)
    (fun b => by have hb : b = 0 := Subsingleton.elim _ _; subst hb; rfl), val_main_v58_apply, unflat]
theorem padded_count (i : SVol.Idx) : val_main_v89 (F := Ideal) x3 (slot i) = x3 i := by
  unfold val_main_v89
  rw [concatenate_pair_apply_left (s₁ := S16777216) (s₂ := S1) 0 _ _ _ (slot i) rfl (idx_main_v98 i)
    (fun b => by have hb : b = 0 := Subsingleton.elim _ _; subst hb; rfl), val_main_v59_apply]
  exact congrArg x3 (unflat i)

/-- The reference's first result is the updated feature volume. -/
theorem feature_eq : val_main_v98 (F := Ideal) x0 x1 x2 x3 = newFeature x0 x1 x2 x3 := by
  funext i
  rw [val_main_v98_apply, val_main_v97_apply]
  show val_main_v87 (F := Ideal) x0 x1 x2 x3 (slot i) = _
  have hs : (slot i 0).val < 16777216 := by rw [slot_val]; exact vox_lt i
  unfold newFeature val_main_v87
  by_cases h : (hits x1 (vox i)).Nonempty
  · rw [if_pos h]
    apply ScatterTake.scatter_set_of_hit
    · intro j hj
      have hm := (lands86_iff x1 j (slot i) hs).1 hj
      rw [slot_val] at hm
      exact update_feature x0 x1 x2 x3 i j hm
    · obtain ⟨j, hj⟩ := h
      exact ⟨j, (lands86_iff x1 j (slot i) hs).2 (by rw [slot_val]; exact hj)⟩
  · rw [if_neg h, ScatterTake.scatter_set_of_no_hit _ _ _ _ _ (fun j hj => h ⟨j, by
      have hm := (lands86_iff x1 j (slot i) hs).1 hj
      rwa [slot_val] at hm⟩)]
    exact padded_feature x2 i

/-- The reference's second result is the updated count volume. -/
theorem count_eq : val_main_v100 (F := Ideal) x1 x3 = newCount x1 x3 := by
  funext i
  rw [val_main_v100_apply, val_main_v99_apply]
  show val_main_v96 (F := Ideal) x1 x3 (slot i) = _
  have hs : (slot i 0).val < 16777216 := by rw [slot_val]; exact vox_lt i
  unfold newCount val_main_v96
  by_cases h : (hits x1 (vox i)).Nonempty
  · rw [if_pos h]
    apply ScatterTake.scatter_set_of_hit
    · intro j hj
      have hm := (lands95_iff x1 j (slot i) hs).1 hj
      rw [slot_val] at hm
      exact update_count x1 x3 i j hm
    · obtain ⟨j, hj⟩ := h
      exact ⟨j, (lands95_iff x1 j (slot i) hs).2 (by rw [slot_val]; exact hj)⟩
  · rw [if_neg h, ScatterTake.scatter_set_of_no_hit _ _ _ _ _ (fun j hj => h ⟨j, by
      have hm := (lands95_iff x1 j (slot i) hs).1 hj
      rwa [slot_val] at hm⟩)]
    exact padded_count x3 i

end Cert.ReferenceIdeal.RefValue

end
-- ==== Proof.RefRun.lean ====
/-
  The reference's run, read at the specification: its two results are the last feature stage and the last count
  stage of the launch memory's arrays, which are the specification's two volumes.
-/
import proofs.«410749_j41850161332390_3_alg».proof.Proof.RefRunStretch
import proofs.«410749_j41850161332390_3_alg».proof.Proof.RefValue

noncomputable section

namespace Cert.ReferenceIdeal.RefValue

open Cert.ReferenceIdeal Cert.ReferenceIdeal.Gen Cert.ReferenceIdeal.ReadP Cert.Voxel
open Idealize.ShloMosaic Idealize.ShloMosaic.TcCoe Idealize.SL.Sem

variable (m : (ℓ : Loc nD τ sig) → Buf (Elt Ideal) ℓ) (ρ : Dev nD → PrngReg)

/-- The reference's run: each result at the specification's volume of the launch memory's arrays, the arguments unchanged. -/
theorem run_spec : θ_run defs (onTc (τ := τ) (main (F := Ideal))) ⟨m, fun _ => 0, ρ⟩ fun r => ∀ c : Dev nD,
      r.2.mem ((c.tc : Thread nD τ).loc main_v98)
        = newFeature (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v100) = newCount (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨(h c).1.trans (feature_eq _ _ _ _),
       (h c).2.1.trans (count_eq _ _),
       (h c).2.2⟩)
    (Cert.ReferenceIdeal.RunS.run (F := Ideal) m ρ)

end Cert.ReferenceIdeal.RefValue

end
-- ==== Proof.lean ====
/-
  The certificate. Points scatter features into a 256³ volume: a point is valid when its three coordinates lie in
  `[0, 256)`, and then lands on the voxel at flat position `(c₀·256 + c₁)·256 + c₂`. For a voxel `v` with hit set
  `hits v` (the valid points landing on it), count `|hits v|` and feature total `Σ_{hits v} f`, both programs leave

      feature' v = feature v · count v + (Σ_{hits v} f / |hits v|) / (count v + 1),   count' v = count v + 1

  where `hits v` is not empty, and the old entries elsewhere.

  The reference gets there point by point: it scatter-adds into 2²⁴ + 1 slots (invalid points to the extra slot),
  gathers the pooled sum, the weight and the two old entries back at every point, forms the update there, and
  scatter-sets it; all the updates landing on one slot are the same per-voxel value, so the order of that scatter
  is immaterial, and the extra slot is cut off. The kernel scatter-adds into 2²⁴ slots (invalid points add an exact
  zero to slot 0, and `x + 0 = x` on the extended reals), and its Pallas region then applies the same formula
  voxel by voxel under the mask `weight > 0`, which is "some valid point lands here" because the weight is a count.
  No law beyond regrouping sums and `x + 0 = x` is used, so the precondition (finite inputs) is never opened; the
  one integer fact needed is that a valid point's flat word does not wrap and is below 2²⁴, which is what makes the
  two programs' different index normalisations (against 2²⁴ + 1 and 2²⁴ entries) agree.

  The three frames are the generated frame certificates and the reference's run; the ideal pass rewrote nothing, so
  `preserves` is `True`.
-/
import proofs.«410749_j41850161332390_3_alg».proof.Defs
import proofs.«410749_j41850161332390_3_alg».proof.Proof.Gen.Kernel
import proofs.«410749_j41850161332390_3_alg».proof.Proof.Gen.Kernel.Frame
import proofs.«410749_j41850161332390_3_alg».proof.Proof.Gen.KernelIdeal
import proofs.«410749_j41850161332390_3_alg».proof.Proof.Gen.KernelIdeal.Frame
import proofs.«410749_j41850161332390_3_alg».proof.Proof.Gen.ReferenceIdeal
import proofs.«410749_j41850161332390_3_alg».proof.Proof.Gen.Pre_finite_inputs
import proofs.«410749_j41850161332390_3_alg».proof.Proof.RefRunStretch
import proofs.«410749_j41850161332390_3_alg».proof.Proof.KernelValue
import proofs.«410749_j41850161332390_3_alg».proof.Proof.RefRun
import Idealize.ShloMosaic.Adequacy
import Idealize.ShloMosaic.Init

noncomputable section

namespace Cert.Proof

open Idealize.ShloMosaic Idealize.ShloMosaic.TcCoe Idealize.SL.Sem Cert.Voxel

/-- The word-level kernel terminates, faults nowhere and leaves its arguments as launched. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The idealized reference likewise: its run, with what it says of the results dropped. -/
theorem frame_referenceIdeal : Cert.frame_ReferenceIdeal := fun m ρ _ =>
  (θ_run Cert.ReferenceIdeal.defs _ _).mono (fun _ h c => (h c).2.2) (Cert.ReferenceIdeal.RunS.run (F := Ideal) m ρ)

/-- The ideal pass rewrote no operation. -/
theorem preserves : Cert.preserves_Kernel_KernelIdeal := trivial

/-- From memories agreeing on the arguments both programs end with the specification's two volumes of those arguments. -/
theorem algebraic : Cert.algebraic_KernelIdeal_ReferenceIdeal := by
  intro m ρ m' ρ' _ hagree
  refine ⟨fun c => newFeature (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => newCount (m ((c.tc : Thread Cert.KernelIdeal.nD Cert.KernelIdeal.τ).loc Cert.KernelIdeal.main_arg1))
        (m ((c.tc : Thread Cert.KernelIdeal.nD Cert.KernelIdeal.τ).loc Cert.KernelIdeal.main_arg3)),
      Cert.KernelIdeal.KValue.run_spec m ρ, ?_⟩
  refine (θ_run Cert.ReferenceIdeal.defs _ _).mono (fun r h c => ?_) (Cert.ReferenceIdeal.RefValue.run_spec m' ρ')
  obtain ⟨h0, h1, h2, h3⟩ := hagree c
  exact ⟨(h c).1.trans (by rw [h0, h1, h2, h3]), (h c).2.1.trans (by rw [h1, h3]), (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
